-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1x128 : Shape := ⟨2, ![1, 128]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_v13 : IVec S_ 1) (main_v15 : IVec S2x1600000 1) (main_c_5 : IVec S_ 32) : IVec S_ 1 :=
  let main_v16 : IVec S2x1600000 32 := broadcastInDim S2x1600000 ![] bcast_S_S2x1600000 main_c_5
  let main_v17 : IVec S2x1600000 1 := cmpi .slt main_arg1 main_v16
  let main_v18 : IVec S2x1600000 1 := andi main_v15 main_v17
  let main_c_6 : IVec S_ 1 := constantI S_ 1 1#1
  let main_v19 : IVec S_ 1 := (fun x v => Host.reduce IntOp.andi x v reducesTo_S2x1600000_S_d0_1 h_S_) main_v18 main_c_6
  let main_v20 : IVec S_ 1 := andi main_v13 main_v19
  main_v20

def fn {F : FTy → Type} [FloatOps F] (main_arg0 : FVec F S100000x64 .f32) (main_arg1 : IVec S2x1600000 32) (main_arg2 : FVec F S1x128 .f32) (main_arg3 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 4294867296#32
  let main_v14 : IVec S2x1600000 32 := broadcastInDim S2x1600000 ![] bcast_S_S2x1600000 main_c_4
  let main_v15 : IVec S2x1600000 1 := cmpi .sge main_arg1 main_v14
  let main_c_5 : IVec S_ 32 := constantI S_ 32 100000#32
  fn_part1 (F := F) main_arg1 main_v13 main_v15 main_c_5
-- ==== Kernel.lean ====
abbrev S100000x64 : Shape := ⟨2, ![100000, 64]⟩
abbrev S2x1600000 : Shape := ⟨2, ![2, 1600000]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x64 : Shape := ⟨2, ![1600000, 64]⟩
abbrev S20000x64 : Shape := ⟨2, ![20000, 64]⟩
abbrev S20000x128 : Shape := ⟨2, ![20000, 128]⟩
abbrev S20000 : Shape := ⟨1, ![20000]⟩
abbrev S20000x1 : Shape := ⟨2, ![20000, 1]⟩
abbrev S1600000x128 : Shape := ⟨2, ![1600000, 128]⟩
abbrev S12800x64 : Shape := ⟨2, ![12800, 64]⟩
abbrev S12800x128 : Shape := ⟨2, ![12800, 128]⟩
abbrev S12800 : Shape := ⟨1, ![12800]⟩
abbrev S12800x1 : Shape := ⟨2, ![12800, 1]⟩

abbrev nBuf : Space → Nat
  | .hbm => 58
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1x128, .f32⟩
  | .hbm, ⟨3, _⟩ => ⟨S1, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1, .i32⟩
  | .hbm, ⟨17, _⟩ => ⟨S_, .i32⟩
  | .hbm, ⟨18, _⟩ => ⟨S1600000x1, .i32⟩
  | .hbm, ⟨19, _⟩ => ⟨S1600000x1, .i1⟩
  | .hbm, ⟨20, _⟩ => ⟨S1x1, .i32⟩
  | .hbm, ⟨21, _⟩ => ⟨S1600000x1, .i32⟩
  | .hbm, ⟨22, _⟩ => ⟨S1600000x1, .i1⟩
  | .hbm, ⟨23, _⟩ => ⟨S1600000x1, .i1⟩
  | .hbm, ⟨24, _⟩ => ⟨S_, .i1⟩
  | .hbm, ⟨25, _⟩ => ⟨S1600000, .i1⟩
  | .hbm, ⟨26, _⟩ => ⟨S1600000x64, .f32⟩
  | .hbm, ⟨27, _⟩ => ⟨S1600000x64, .i1⟩
  | .hbm, ⟨28, _⟩ => ⟨S_, .f32⟩
  | .hbm, ⟨29, _⟩ => ⟨S1600000x64, .f32⟩
  | .hbm, ⟨30, _⟩ => ⟨S1600000x64, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1, .i32⟩
  | .hbm, ⟨40, _⟩ => ⟨S_, .i32⟩
  | .hbm, ⟨41, _⟩ => ⟨S1600000x1, .i32⟩
  | .hbm, ⟨42, _⟩ => ⟨S1600000x1, .i1⟩
  | .hbm, ⟨43, _⟩ => ⟨S1x1, .i32⟩
  | .hbm, ⟨44, _⟩ => ⟨S1600000x1, .i32⟩
  | .hbm, ⟨45, _⟩ => ⟨S1600000x1, .i1⟩
  | .hbm, ⟨46, _⟩ => ⟨S1600000x1, .i1⟩
  | .hbm, ⟨47, _⟩ => ⟨S_, .i1⟩
  | .hbm, ⟨48, _⟩ => ⟨S1600000, .i1⟩
  | .hbm, ⟨49, _⟩ => ⟨S1600000x64, .f32⟩
  | .hbm, ⟨50, _⟩ => ⟨S1600000x64, .i1⟩
  | .hbm, ⟨51, _⟩ => ⟨S_, .f32⟩
  | .hbm, ⟨52, _⟩ => ⟨S1600000x64, .f32⟩
  | .hbm, ⟨53, _⟩ => ⟨S1600000x64, .f32⟩
  | .hbm, ⟨54, _⟩ => ⟨S1x1, .f32⟩
  | .hbm, ⟨55, _⟩ => ⟨S1x1, .f32⟩
  | .hbm, ⟨56, _⟩ => ⟨S1x1, .f32⟩
  | .hbm, ⟨57, _⟩ => ⟨S1600000x128, .f32⟩
  | .local _ .vmem, ⟨0, _⟩ => ⟨S20000x64, .f32⟩
  | .local _ .vmem, ⟨1, _⟩ => ⟨S20000x64, .f32⟩
  | .local _ .vmem, ⟨2, _⟩ => ⟨S20000x64, .f32⟩
  | .local _ .vmem, ⟨3, _⟩ => ⟨S20000x64, .f32⟩
  | .local _ .vmem, ⟨4, _⟩ => ⟨S1x128, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S12800x64, .f32⟩
  | .local _ .vmem, ⟨11, _⟩ => ⟨S12800x64, .f32⟩
  | .local _ .vmem, ⟨12, _⟩ => ⟨S12800x64, .f32⟩
  | .local _ .vmem, ⟨13, _⟩ => ⟨S12800x64, .f32⟩
  | .local _ .vmem, ⟨14, _⟩ => ⟨S1x128, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S12800x128, .f32⟩
  | .local _ .vmem, ⟨19, _⟩ => ⟨S12800x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_v6 : Ref sig .tc := ⟨.hbm, 54, rfl⟩
abbrev main_v7_0 : Ref sig .tc := ⟨.hbm, 55, rfl⟩
abbrev main_v7_1 : Ref sig .tc := ⟨.hbm, 56, rfl⟩
abbrev main_v8 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![80], ![false]⟩

def k0_cond2 (i : grid0.Coords) : BitVec 1 :=
  let arg0 : BitVec 32 := BitVec.ofNat 32 (i 0).val
  let c79_i32 : BitVec 32 := 79#32
  let v38 : BitVec 1 := Scalar.cmpi .eq arg0 c79_i32
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![125], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S12800x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  concatenates_S20000x64_S20000x64_S20000x128_d1 : Shape.Concatenates [S20000x64, S20000x64] S20000x128 1
  inb_S1x128_S1x128_0_0 : ∀ a, (![0, 0] : Fin 2 → Nat) a + S1x128.size a ≤ S1x128.size a
  h_S1x128 : 0 < S1x128.numel
  broadcasts_S1x128_S20000x128 : S1x128.Broadcasts S20000x128
  reduces_S20000x128_S20000 : S20000x128.Reduces [1] S20000
  shapeCasts_S20000_S20000x1 : S20000.ShapeCasts S20000x1
  broadcasts_S1x1_S20000x1 : S1x1.Broadcasts S20000x1
  reduces_S20000x1_S1 : S20000x1.Reduces [0] S1
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  concatenates_S12800x64_S12800x64_S12800x128_d1 : Shape.Concatenates [S12800x64, S12800x64] S12800x128 1
  broadcasts_S1x128_S12800x128 : S1x128.Broadcasts S12800x128
  reduces_S12800x128_S12800 : S12800x128.Reduces [1] S12800
  shapeCasts_S12800_S12800x1 : S12800.ShapeCasts S12800x1
  broadcasts_S1x1_S12800x1 : S1x1.Broadcasts S12800x1
  broadcasts_S12800x1_S12800x128 : S12800x1.Broadcasts S12800x128
  inb_S12800x128_S12800x128_0_0 : ∀ a, (![0, 0] : Fin 2 → Nat) a + S12800x128.size a ≤ S12800x128.size a
  h_S12800x128 : 0 < S12800x128.numel
  gather_S100000x64_S1600000x1_S1600000x64_1_0_n_n_0_1_164_wf : GatherDims.WF S100000x64 S1600000x1 S1600000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1600000x64.size a
  hwx0_0 : ∀ i : grid0.Coords, EltTy.bits .f32 = 32 ∨ (Rect.block (s := S1600000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x64.size a ≤ S1600000x64.size a
  hwx0_1 : ∀ i : grid0.Coords, EltTy.bits .f32 = 32 ∨ (Rect.block (s := S1600000x64) S20000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x64.size a ≤ S1600000x64.size a
  hwx1_0 : ∀ i : grid1.Coords, EltTy.bits .f32 = 32 ∨ (Rect.block (s := S1600000x64) S12800x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x64.size a ≤ S1600000x64.size a
  hwx1_1 : ∀ i : grid1.Coords, EltTy.bits .f32 = 32 ∨ (Rect.block (s := S1600000x64) S12800x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S12800x128.size a ≤ S1600000x128.size a
  hwx1_6 : ∀ i : grid1.Coords, EltTy.bits .f32 = 32 ∨ (Rect.block (s := S1600000x128) S12800x128.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf

abbrev win0_0 : Pipeline.Window sig grid0 :=
  Pipeline.Window.ofSpec (Memref.whole main_v4) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S20000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v4) S12800x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S12800x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S12800x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1x128 : Shape := ⟨2, ![1, 128]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S128x1 : Shape := ⟨2, ![128, 1]⟩
abbrev S1x1 : Shape := ⟨2, ![1, 1]⟩

abbrev nBuf : Space → Nat
  | .hbm => 48
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1x128, .f32⟩
  | .hbm, ⟨3, _⟩ => ⟨S1, .f32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x128, .f32⟩
  | .hbm, ⟨27, _⟩ => ⟨S128x1, .f32⟩
  | .hbm, ⟨28, _⟩ => ⟨S1600000x1, .f32⟩
  | .hbm, ⟨29, _⟩ => ⟨S1x1, .f32⟩
  | .hbm, ⟨30, _⟩ => ⟨S1600000x1, .f32⟩
  | .hbm, ⟨31, _⟩ => ⟨S1600000x1, .f32⟩
  | .hbm, ⟨32, _⟩ => ⟨S_, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S1, .f32⟩
  | .hbm, ⟨37, _⟩ => ⟨S1x1, .f32⟩
  | .hbm, ⟨38, _⟩ => ⟨S1600000x1, .f32⟩
  | .hbm, ⟨39, _⟩ => ⟨S1600000x1, .f32⟩
  | .hbm, ⟨40, _⟩ => ⟨S1600000x1, .f32⟩
  | .hbm, ⟨41, _⟩ => ⟨S_, .f32⟩
  | .hbm, ⟨42, _⟩ => ⟨S1, .f32⟩
  | .hbm, ⟨43, _⟩ => ⟨S1x1, .f32⟩
  | .hbm, ⟨44, _⟩ => ⟨S1600000x1, .f32⟩
  | .hbm, ⟨45, _⟩ => ⟨S1600000x1, .f32⟩
  | .hbm, ⟨46, _⟩ => ⟨S1600000x128, .f32⟩
  | .hbm, ⟨47, _⟩ => ⟨S1600000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  concatenates_S1600000x64_S1600000x64_S1600000x128_d1 : Shape.Concatenates [S1600000x64, S1600000x64] S1600000x128 1
  transposes_S1x128_S128x1_1_0 : S1x128.Transposes [1, 0] S128x1
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1_d0 : S1600000x1.ReducesTo [0] S1
  h_S_ : 0 < S_.numel
  bcast_S_S1 : S_.BroadcastsInDim S1 (![] : Fin 0 → Fin S1.rank)
  bcast_S1600000x1_S1600000x128_0_1 : S1600000x1.BroadcastsInDim S1600000x128 (![0, 1] : Fin 2 → Fin S1600000x128.rank)
  gather_S100000x64_S1600000x1_S1600000x64_1_0_n_n_0_1_164_wf : GatherDims.WF S100000x64 S1600000x1 S1600000x64 [1] [0] [] [0] [] 1 ![1, 64]
  dot_S1600000x128_S128x1_S1600000x1_1_0_0_1_n_n_wf : DotDims.WF S1600000x128 S128x1 S1600000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf

class Facts : Prop extends Facts₀ where

variable [Facts]
-- ==== Proof.KReg0.lean ====
/-
  The first launch (the statistics kernel, 80 points of 20000 edges each), at the buffer contents V it is entered
  with. It keeps a running maximum m and a running normaliser l in two 1×1 scratch buffers across the points: the
  first point resets them to (−∞, 0) before using them; every point replaces m by max m (block maximum) and l by
  l · exp (m − m') + Σ exp (s − m') over the block's scores s; the last point copies both into the two 1×1 outputs.
  So the body has three cases by the point (first, middle, last); what the scratch holds after each point is a
  recursion over the points (scAt0); the outputs are written, and written back, at the last point only.
-/
import proofs.«431320_j34256659153219_3_alg».proof.Proof.Gen.Kernel.Launch
import proofs.«431320_j34256659153219_3_alg».proof.Proof.Gen.Kernel.Skeleton
import proofs.«431320_j34256659153219_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether or not that point fetched it: a point
    that does not fetch finds what the last fetch left, and the block index has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether or not that point fetched it: a point
    that does not fetch finds what the last fetch left, and the block index has not moved since. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether or not that point fetched it: a point
    that does not fetch finds what the last fetch left, and the block index has not moved since. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether or not that point fetched it: a point
    that does not fetch finds what the last fetch left, and the block index has not moved since. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches, decided over the grid -/

/-- The reset branch is taken: the point's coordinate is 0. -/
abbrev condF (i : grid0.Coords) : Prop := (Scalar.cmpi .ne (Scalar.extui (Scalar.cmpi .eq (BitVec.ofNat 32 (i 0).val) 0#32)) 0#32) = 1#1
theorem hcondF : ∀ t : Fin cfg0.N, condF (grid0.coords t) ↔ t.val % 80 = 0 :=
  (by decide +kernel : ∀ t : Fin grid0.N, condF (grid0.coords t) ↔ t.val % 80 = 0)

/-- The copy-out branch is taken: the point's coordinate is 79. -/
abbrev condL (i : grid0.Coords) : Prop := k0_cond2 i = 1#1
theorem hcondL : ∀ t : Fin cfg0.N, condL (grid0.coords t) ↔ t.val % 80 = 79 :=
  (by decide +kernel : ∀ t : Fin grid0.N, condL (grid0.coords t) ↔ t.val % 80 = 79)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into the two outputs, and they are not written back there. -/
theorem idleAt0_4 : ∀ t : Fin cfg0.N, ¬condL (grid0.coords t) → cfg0.idle 4 (grid0.coords t) = true := by decide +kernel
theorem noFlush0_4 : ∀ t : Fin cfg0.N, ¬condL (grid0.coords t) → (cfg0.win 4).flush t = false := by decide +kernel
theorem idleAt0_5 : ∀ t : Fin cfg0.N, ¬condL (grid0.coords t) → cfg0.idle 5 (grid0.coords t) = true := by decide +kernel
theorem noFlush0_5 : ∀ t : Fin cfg0.N, ¬condL (grid0.coords t) → (cfg0.win 5).flush t = false := by decide +kernel
/-- At the last point it stores into both. -/
theorem liveAt0_4 : ∀ t : Fin cfg0.N, condL (grid0.coords t) → cfg0.idle 4 (grid0.coords t) = false := by decide +kernel
theorem liveAt0_5 : ∀ t : Fin cfg0.N, condL (grid0.coords t) → cfg0.idle 5 (grid0.coords t) = false := by decide +kernel

/-! ## The scratch buffers -/

/-- The running maximum's buffer and the running normaliser's. -/
abbrev scM : Memref sig .tc .vmem S1x1 .f32 := Memref.whole cc0_scratch0
abbrev scL : Memref sig .tc .vmem S1x1 .f32 := Memref.whole cc0_scratch1

theorem zero2 : (![0, 0] : Fin 2 → ℕ) = fun _ => 0 := by funext a; fin_cases a <;> rfl

/-- The new running maximum from the four input blocks and the old one. -/
def newM (x0 x1 : Vec F S20000x64 .f32) (x2 : Vec F S1x128 .f32) (x3 : Vec F S1x1 .f32) (mp : Vec F S1x1 .f32) : Vec F S1x1 .f32 :=
  k0_pay1 (k0_pay5 x0 x1 x2 x3 mp)
/-- The new running normaliser from the four input blocks, the old maximum and the old normaliser. -/
def newL (x0 x1 : Vec F S20000x64 .f32) (x2 : Vec F S1x128 .f32) (x3 : Vec F S1x1 .f32) (mp lp : Vec F S1x1 .f32) : Vec F S1x1 .f32 :=
  k0_pay6 x0 x1 x2 x3 mp mp lp

/-! ## The body's triple, case by case -/

set_option maxHeartbeats 4000000 in
/-- The first point: the scratch buffers at anything; they end at the step from (−∞, 0). The outputs are handed back as found. -/
theorem runFirst (c : Dev nD) (E : Set ℕ) (i : grid0.Coords) (arg1 : Memref sig .tc .vmem S20000x64 .f32) (harg1 : arg1.IsWhole) (arg2 : Memref sig .tc .vmem S20000x64 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (x0 x1 : Vec F S20000x64 .f32) (x2 : Vec F S1x128 .f32) (x3 : Vec F S1x1 .f32)
    (d5 d6 : Vec F S1x1 .f32) (hF : condF i) (hL : ¬condL i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare d6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare d6
            ∗ owns (c : Thread nD τ) arg7 fullShare (newM x0 x1 x2 x3 (k0_pay2 (F := F))) ∗ owns (c : Thread nD τ) arg8 fullShare (newL x0 x1 x2 x3 (k0_pay2 (F := F)) (k0_pay3 (F := F)))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, Hk⟩
  subst hf0 hf1 hf2 hf3 hf5 hf6
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold newM
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  iexists _; isplitr
  swap; · iexact H8
  ipureintro
  unfold newL
  sl_unfold_words
  refine (View.read_writes_eq_canon _ _ _ (fun y => ⟨_, List.Mem.head _, ?_⟩)).trans ?_
  · exact View.mem_set_unit_zero (S := S1x1) zero2 inb_S1x1_S1x1_0_0 y
  rw [View.canon_cons_unit_zero zero2]
  simp only [View.readAt_eq_ld, View.ld_unit_zero (S := S20000x64) zero2, View.ld_unit_zero (S := S1x128) zero2,
    View.ld_unit_zero (S := S1x1) zero2, View.readCov_unit_zero (S := S1x1) _ zero2]

set_option maxHeartbeats 4000000 in
/-- A middle point: the scratch buffers at (mp, lp); they end at the step from there. The outputs are handed back as found. -/
theorem runMid (c : Dev nD) (E : Set ℕ) (i : grid0.Coords) (arg1 : Memref sig .tc .vmem S20000x64 .f32) (harg1 : arg1.IsWhole) (arg2 : Memref sig .tc .vmem S20000x64 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (x0 x1 : Vec F S20000x64 .f32) (x2 : Vec F S1x128 .f32) (x3 : Vec F S1x1 .f32)
    (d5 d6 mp lp : Vec F S1x1 .f32) (hF : ¬condF i) (hL : ¬condL i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare d6
        ∗ owns (c : Thread nD τ) arg7 fullShare mp ∗ owns (c : Thread nD τ) arg8 fullShare lp
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare d6
            ∗ owns (c : Thread nD τ) arg7 fullShare (newM x0 x1 x2 x3 mp) ∗ owns (c : Thread nD τ) arg8 fullShare (newL x0 x1 x2 x3 mp lp)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, Hk⟩
  subst hf0 hf1 hf2 hf3 hf5 hf6 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold newM
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  iexists _; isplitr
  swap; · iexact H8
  ipureintro
  unfold newL
  sl_unfold_words
  refine (View.read_writes_eq_canon _ _ _ (fun y => ⟨_, List.Mem.head _, ?_⟩)).trans ?_
  · exact View.mem_set_unit_zero (S := S1x1) zero2 inb_S1x1_S1x1_0_0 y
  rw [View.canon_cons_unit_zero zero2]
  simp only [View.readAt_eq_ld, View.ld_unit_zero (S := S20000x64) zero2, View.ld_unit_zero (S := S1x128) zero2,
    View.ld_unit_zero (S := S1x1) zero2, View.readCov_unit_zero (S := S1x1) _ zero2]

set_option maxHeartbeats 4000000 in
/-- The last point: as a middle point, and the two outputs (at anything) end at the new maximum and the new normaliser. -/
theorem runLast (c : Dev nD) (E : Set ℕ) (i : grid0.Coords) (arg1 : Memref sig .tc .vmem S20000x64 .f32) (harg1 : arg1.IsWhole) (arg2 : Memref sig .tc .vmem S20000x64 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (x0 x1 : Vec F S20000x64 .f32) (x2 : Vec F S1x128 .f32) (x3 : Vec F S1x1 .f32)
    (mp lp : Vec F S1x1 .f32) (hF : ¬condF i) (hL : condL i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ owns (c : Thread nD τ) arg7 fullShare mp ∗ owns (c : Thread nD τ) arg8 fullShare lp
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (newM x0 x1 x2 x3 mp) ∗ owns (c : Thread nD τ) arg6 fullShare (newL x0 x1 x2 x3 mp lp)
            ∗ owns (c : Thread nD τ) arg7 fullShare (newM x0 x1 x2 x3 mp) ∗ owns (c : Thread nD τ) arg8 fullShare (newL x0 x1 x2 x3 mp lp)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  subst hf0 hf1 hf2 hf3 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    unfold newM
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  isplitl [H6]
  · iexists _; isplitr
    swap; · iexact H6
    ipureintro
    unfold newL
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  isplitl [H7]
  · iexists _; isplitr
    swap; · iexact H7
    ipureintro
    unfold newM
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  iexists _; isplitr
  swap; · iexact H8
  ipureintro
  unfold newL
  sl_unfold_words
  refine (View.read_writes_eq_canon _ _ _ (fun y => ⟨_, List.Mem.head _, ?_⟩)).trans ?_
  · exact View.mem_set_unit_zero (S := S1x1) zero2 inb_S1x1_S1x1_0_0 y
  rw [View.canon_cons_unit_zero zero2]
  simp only [View.readAt_eq_ld, View.ld_unit_zero (S := S20000x64) zero2, View.ld_unit_zero (S := S1x128) zero2,
    View.ld_unit_zero (S := S1x1) zero2, View.readCov_unit_zero (S := S1x1) _ zero2]

/-! ## What the scratch holds after each point -/

/-- One point's step of the pair (maximum, normaliser) from the pair (mp, lp), on that point's four input blocks. -/
def stepAt (c : Dev nD) (t : Fin cfg0.N) (mp lp : Vec F S1x1 .f32) : Vec F S1x1 .f32 × Vec F S1x1 .f32 :=
  (newM (iblk0 V c 0 t) (iblk0 V c 1 t) (iblk0 V c 2 t) (iblk0 V c 3 t) mp, newL (iblk0 V c 0 t) (iblk0 V c 1 t) (iblk0 V c 2 t) (iblk0 V c 3 t) mp lp)

/-- The pair after point n: the first point steps from the reset values, every later one from the point before. -/
def scAt0 (c : Dev nD) : (n : ℕ) → n < cfg0.N → Vec F S1x1 .f32 × Vec F S1x1 .f32
  | 0, hn => stepAt V c ⟨0, hn⟩ (k0_pay2 (F := F)) (k0_pay3 (F := F))
  | n + 1, hn => stepAt V c ⟨n + 1, hn⟩ (scAt0 c n (Nat.lt_of_succ_lt hn)).1 (scAt0 c n (Nat.lt_of_succ_lt hn)).2

theorem scAt0_zero (c : Dev nD) (t : Fin cfg0.N) (hz : t.val = 0) :
    scAt0 V c t.val t.isLt = stepAt V c t (k0_pay2 (F := F)) (k0_pay3 (F := F)) := by
  obtain ⟨n, hn⟩ := t
  cases n with
  | zero => rfl
  | succ n => exact absurd hz (Nat.succ_ne_zero n)

theorem scAt0_pos (c : Dev nD) (t : Fin cfg0.N) (hz : t.val ≠ 0) :
    scAt0 V c t.val t.isLt = stepAt V c t (scAt0 V c (t.val - 1) (Nat.lt_of_le_of_lt (Nat.sub_le _ _) t.isLt)).1 (scAt0 V c (t.val - 1) (Nat.lt_of_le_of_lt (Nat.sub_le _ _) t.isLt)).2 := by
  obtain ⟨n, hn⟩ := t
  cases n with
  | zero => exact absurd rfl hz
  | succ n => rfl

/-! ## The launch's invariant -/

/-- The other launch's staging buffers, each at some contents: they ride along untouched. -/
def rest10 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The plain invariant with the two scratch buffers spelt as memrefs. -/
theorem PhiA0_eq (c : Dev nD) :
    (Pipeline.ΦA spec0 c : sProp 𝕄)
      = iprop(((∃ d, owns (c : Thread nD τ) scM fullShare d) ∗ (∃ d, owns (c : Thread nD τ) scL fullShare d) ∗ rest10 (F := F) c) ∗ (∃ r, prngReg c r)) := by
  unfold Pipeline.ΦA rest10; rw [scopedRest0_eq]; simp only [scM, scL, owns_whole]; try rfl

/-- Before point n: at the start the plain invariant (the scratch at anything); afterwards the scratch at what the
    point before left. -/
def PhiS0 (c : Dev nD) : (n : ℕ) → n ≤ cfg0.N → sProp 𝕄
  | 0, _ => Pipeline.ΦA spec0 c
  | n + 1, hn => iprop((owns (c : Thread nD τ) scM fullShare (scAt0 V c n hn).1 ∗ owns (c : Thread nD τ) scL fullShare (scAt0 V c n hn).2 ∗ rest10 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM fullShare (scAt0 V c n hn).1 ∗ owns (c : Thread nD τ) scL fullShare (scAt0 V c n hn).2 ∗ rest10 (F := F) c) ∗ (∃ r, prngReg c r)) := rfl

theorem PhiS0_pos (c : Dev nD) (n : ℕ) (h : n ≤ cfg0.N) (hz : n ≠ 0) :
    PhiS0 V c n h = iprop((owns (c : Thread nD τ) scM fullShare (scAt0 V c (n - 1) (by omega)).1 ∗ owns (c : Thread nD τ) scL fullShare (scAt0 V c (n - 1) (by omega)).2 ∗ rest10 (F := F) c) ∗ (∃ r, prngReg c r)) := by
  cases n with
  | zero => exact absurd rfl hz
  | succ n => rfl

/-! ## The launch's proof data -/

/-- The arrays as the launch finds them; after the body at point t each input's buffer at its block and the two outputs'
    at the pair after t (read only at the last point: elsewhere they are idle); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (scAt0 V c t.val t.isLt).1
    | ⟨5, _⟩ => (scAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (scAt0 V c t.val t.isLt).1 := by dsimp only [dat0]
theorem after0_5 (c : Dev nD) (t : Fin cfg0.N) : (dat0 V c).after 5 t = (scAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The obligation at a point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: each buffer at what the body leaves — an output, away from the last point, as it was found. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The closed forms say which case the point is in. The invariant hands the body the scratch at
    what the point before left (at anything at the first point) and takes it back at this point's pair; the inputs' buffers
    hold their blocks; away from the last point the outputs go back as found, at the last point they hold the pair. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 80 := lt_of_lt_of_eq t.isLt (show cfg0.N = 80 from N_0)
  by_cases h0 : t.val % 80 = 0
  · by_cases h1 : t.val % 80 = 79
    · exfalso; omega
    · -- the first point
      have hz : t.val = 0 := by omega
      have hF : condF (grid0.coords t) := (hcondF t).mpr h0
      have hL : ¬condL (grid0.coords t) := fun h => h1 ((hcondL t).mp h)
      rw [show (dat0 V c).leavesExact 0 t = owns (c : Thread nD τ) (st0_0 t) fullShare ((dat0 V c).after 0 t) from by
        unfold Dat.leavesExact; rw [liveAt0_0 t], after0_0]
      rw [show (dat0 V c).leavesExact 1 t = owns (c : Thread nD τ) (st0_1 t) fullShare ((dat0 V c).after 1 t) from by
        unfold Dat.leavesExact; rw [liveAt0_1 t], after0_1]
      rw [show (dat0 V c).leavesExact 2 t = owns (c : Thread nD τ) (st0_2 t) fullShare ((dat0 V c).after 2 t) from by
        unfold Dat.leavesExact; rw [liveAt0_2 t], after0_2]
      rw [show (dat0 V c).leavesExact 3 t = owns (c : Thread nD τ) (st0_3 t) fullShare ((dat0 V c).after 3 t) from by
        unfold Dat.leavesExact; rw [liveAt0_3 t], after0_3]
      rw [Dat.leavesExact_idle (dat0 V c) 4 t (idleAt0_4 t hL) (noFlush0_4 t hL)]
      rw [Dat.leavesExact_idle (dat0 V c) 5 t (idleAt0_5 t hL) (noFlush0_5 t hL)]
      rw [scAt0_zero V c t hz]
      unfold stepAt; (try dsimp only)
      rw [PhiS0_castSucc V c t, PhiS0_zero V c _ _ hz, PhiA0_eq]
      iintro ⟨⟨⟨HM, HL, HR⟩, Hg⟩, Ho, ⟨%d0, H0⟩, ⟨%d1, H1⟩, ⟨%d2, H2⟩, ⟨%d3, H3⟩, ⟨%d4, H4⟩, ⟨%d5, H5⟩⟩
      iapply (runFirst c Set.univ (grid0.coords t) _ _ _ _ _ _ _ _ _ _ _ _ _ _ _ _ (iblk0 V c 0 t) (iblk0 V c 1 t) (iblk0 V c 2 t) (iblk0 V c 3 t) _ _ hF hL _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      iintro ⟨H0, H1, H2, H3, H4, H5, HM, HL⟩
      isplitl [HM HL HR Hg]
      · isplitl [HM HL HR]
        · isplitl [HM]; · iexact HM
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := by omega
    have hF : ¬condF (grid0.coords t) := fun h => h0 ((hcondF t).mp h)
    by_cases h1 : t.val % 80 = 79
    · -- the last point
      have hL : condL (grid0.coords t) := (hcondL t).mpr h1
      rw [show (dat0 V c).leavesExact 0 t = owns (c : Thread nD τ) (st0_0 t) fullShare ((dat0 V c).after 0 t) from by
        unfold Dat.leavesExact; rw [liveAt0_0 t], after0_0]
      rw [show (dat0 V c).leavesExact 1 t = owns (c : Thread nD τ) (st0_1 t) fullShare ((dat0 V c).after 1 t) from by
        unfold Dat.leavesExact; rw [liveAt0_1 t], after0_1]
      rw [show (dat0 V c).leavesExact 2 t = owns (c : Thread nD τ) (st0_2 t) fullShare ((dat0 V c).after 2 t) from by
        unfold Dat.leavesExact; rw [liveAt0_2 t], after0_2]
      rw [show (dat0 V c).leavesExact 3 t = owns (c : Thread nD τ) (st0_3 t) fullShare ((dat0 V c).after 3 t) from by
        unfold Dat.leavesExact; rw [liveAt0_3 t], after0_3]
      rw [show (dat0 V c).leavesExact 4 t = owns (c : Thread nD τ) (st0_4 t) fullShare ((dat0 V c).after 4 t) from by
        unfold Dat.leavesExact; rw [liveAt0_4 t hL], after0_4]
      rw [show (dat0 V c).leavesExact 5 t = owns (c : Thread nD τ) (st0_5 t) fullShare ((dat0 V c).after 5 t) from by
        unfold Dat.leavesExact; rw [liveAt0_5 t hL], after0_5]
      rw [scAt0_pos V c t hz]
      unfold stepAt; (try dsimp only)
      rw [PhiS0_castSucc V c t, PhiS0_pos V c _ _ hz]
      iintro ⟨⟨⟨HM, HL, HR⟩, Hg⟩, Ho, ⟨%d0, H0⟩, ⟨%d1, H1⟩, ⟨%d2, H2⟩, ⟨%d3, H3⟩, ⟨%d4, H4⟩, ⟨%d5, H5⟩⟩
      iapply (runLast c Set.univ (grid0.coords t) _ _ _ _ _ _ _ _ _ _ _ _ _ _ _ _ (iblk0 V c 0 t) (iblk0 V c 1 t) (iblk0 V c 2 t) (iblk0 V c 3 t) _ _ hF hL _)
      isplitl [H0]; · iexact H0
      isplitl [H1]; · iexact H1
      isplitl [H2]; · iexact H2
      isplitl [H3]; · iexact H3
      isplitl [H4]; · iexists _; iexact H4
      isplitl [H5]; · iexists _; iexact H5
      isplitl [HM]; · iexact HM
      isplitl [HL]; · iexact HL
      iintro ⟨H0, H1, H2, H3, H4, H5, HM, HL⟩
      isplitl [HM HL HR Hg]
      · isplitl [HM HL HR]
        · isplitl [HM]; · iexact HM
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      have hL : ¬condL (grid0.coords t) := fun h => h1 ((hcondL t).mp h)
      rw [show (dat0 V c).leavesExact 0 t = owns (c : Thread nD τ) (st0_0 t) fullShare ((dat0 V c).after 0 t) from by
        unfold Dat.leavesExact; rw [liveAt0_0 t], after0_0]
      rw [show (dat0 V c).leavesExact 1 t = owns (c : Thread nD τ) (st0_1 t) fullShare ((dat0 V c).after 1 t) from by
        unfold Dat.leavesExact; rw [liveAt0_1 t], after0_1]
      rw [show (dat0 V c).leavesExact 2 t = owns (c : Thread nD τ) (st0_2 t) fullShare ((dat0 V c).after 2 t) from by
        unfold Dat.leavesExact; rw [liveAt0_2 t], after0_2]
      rw [show (dat0 V c).leavesExact 3 t = owns (c : Thread nD τ) (st0_3 t) fullShare ((dat0 V c).after 3 t) from by
        unfold Dat.leavesExact; rw [liveAt0_3 t], after0_3]
      rw [Dat.leavesExact_idle (dat0 V c) 4 t (idleAt0_4 t hL) (noFlush0_4 t hL)]
      rw [Dat.leavesExact_idle (dat0 V c) 5 t (idleAt0_5 t hL) (noFlush0_5 t hL)]
      rw [scAt0_pos V c t hz]
      unfold stepAt; (try dsimp only)
      rw [PhiS0_castSucc V c t, PhiS0_pos V c _ _ hz]
      iintro ⟨⟨⟨HM, HL, HR⟩, Hg⟩, Ho, ⟨%d0, H0⟩, ⟨%d1, H1⟩, ⟨%d2, H2⟩, ⟨%d3, H3⟩, ⟨%d4, H4⟩, ⟨%d5, H5⟩⟩
      iapply (runMid c Set.univ (grid0.coords t) _ _ _ _ _ _ _ _ _ _ _ _ _ _ _ _ (iblk0 V c 0 t) (iblk0 V c 1 t) (iblk0 V c 2 t) (iblk0 V c 3 t) _ _ _ _ hF hL _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      iintro ⟨H0, H1, H2, H3, H4, H5, HM, HL⟩
      isplitl [HM HL HR Hg]
      · isplitl [HM HL HR]
        · isplitl [HM]; · iexact HM
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation0 (c : Dev nD) : BodyObligation (dat0 (F := F) V c) (defs₀ (F := F)) Variants.none () Set.univ := fun t => by
  rw [bigSep_W0, bigSep_W0]
  exact sound_body0 V c t

/-- What the launch hands the kernel is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: what the scratch holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 80 := N_0; omega), PhiA0_eq]
  iintro ⟨⟨HM, HL, HR⟩, Hg⟩
  isplitl [HM HL HR]
  · isplitl [HM]; · iexists _; iexact HM
    isplitl [HL]; · iexists _; iexact HL
    iexact HR
  iexact Hg

end Cert.Kernel.Hand

end
-- ==== Proof.KReg1.lean ====
/-
  The second launch (the finalising kernel, 125 points of 12800 edges each), at the buffer contents V it is entered
  with. At a point the body reads six input blocks — 12800 source rows, 12800 target rows, the weight row, the bias,
  the global maximum and the normaliser — and stores one output block: each edge's softmax weight times its embedding
  row. What it stores is a pure function of the six blocks (pay1); the inputs are left as found. From this: the
  launch's proof data and its obligation at every point.
-/
import proofs.«431320_j34256659153219_3_alg».proof.Proof.Gen.Kernel.Launch
import proofs.«431320_j34256659153219_3_alg».proof.Proof.Gen.Kernel.Skeleton
import proofs.«431320_j34256659153219_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether or not that point fetched it: a point
    that does not fetch finds what the last fetch left, and the block index has not moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether or not that point fetched it: a point
    that does not fetch finds what the last fetch left, and the block index has not moved since. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether or not that point fetched it: a point
    that does not fetch finds what the last fetch left, and the block index has not moved since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether or not that point fetched it: a point
    that does not fetch finds what the last fetch left, and the block index has not moved since. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether or not that point fetched it: a point
    that does not fetch finds what the last fetch left, and the block index has not moved since. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, whether or not that point fetched it: a point
    that does not fetch finds what the last fetch left, and the block index has not moved since. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole 12800×128 output buffer as one rectangle. -/
abbrev rO1 : Rect S12800x128 := Rect.unit (s := S12800x128) ![0, 0] S12800x128.size inb_S12800x128_S12800x128_0_0

/-- The stored block as a function of the six input blocks at the point. -/
def pay1 (c : Dev nD) (t : Fin cfg1.N) : Vec F S12800x128 .f32 :=
  k1_pay1 (iblk1 V c 0 t) (iblk1 V c 1 t) (iblk1 V c 2 t) (iblk1 V c 3 t) (iblk1 V c 4 t) (iblk1 V c 5 t)

theorem zero2 : (![0, 0] : Fin 2 → ℕ) = fun _ => 0 := by funext a; fin_cases a <;> rfl

/-- One store over the whole buffer covers it. -/
theorem coverO1 (p0 : Vec F S12800x128 .f32) (y : S12800x128.Idx) :
    ∃ pc ∈ ([⟨rO1, p0⟩] : List (View.Piece (Elt F) S12800x128 .f32)), y ∈ pc.1.set :=
  View.cover_of_tiled [⟨rO1, p0⟩] S12800x128.size (by rfl) y

/-! ## The body's triple -/

set_option maxHeartbeats 4000000 in
/-- The body on whole buffers: the six inputs at contents x0 … x5, the output at anything. It runs to the end, leaves
    the inputs as they were and the output at the payload of the six. -/
theorem sound_kernel1 (c : Dev nD) (E : Set ℕ) (i : grid1.Coords)
    (arg1 : Memref sig .tc .vmem S12800x64 .f32) (harg1 : arg1.IsWhole) (arg2 : Memref sig .tc .vmem S12800x64 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S12800x128 .f32) (harg7 : arg7.IsWhole)
    (x0 x1 : Vec F S12800x64 .f32) (x2 : Vec F S1x128 .f32) (x3 x4 x5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay1 x0 x1 x2 x3 x4 x5)) -∗ K ⟨⟩))
      ⊢ wp frame (wpE (defs₀ (F := F)) Variants.none c none) E (cc1__finalize_kernel i arg1 harg1 arg2 harg2 arg3 harg3 arg4 harg4 arg5 harg5 arg6 harg6 arg7 harg7) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (coverO1 _)).trans ?_
  rw [View.canon_unit_zero zero2]
  simp only [View.readAt_eq_ld, View.ld_unit_zero (S := S12800x64) zero2, View.ld_unit_zero (S := S1x128) zero2, View.ld_unit_zero (S := S1x1) zero2]

/-! ## The launch's proof data -/

/-- The arrays as the launch finds them; after the body at point t each input's buffer at its block and the output's at
    the payload of the blocks; the launch's invariant is the plain one (the buffers no window stages, the generator
    register), nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => pay1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = pay1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The obligation at a point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program as one run: four stretches of host operations (the two index rows cut out of the index array, the
  two row gathers, the bias as a 1×1 array), the statistics launch, the finalising launch. The buffer contents at each
  boundary are a fold from the launch memory: a host stretch applies its operations; a launch leaves its arrays at what
  its write-backs leave and every other buffer as entered. Every weakly fair execution terminates, faults nowhere, and
  ends with every unscoped buffer at the last boundary's contents: in particular the result array at what the second
  launch's write-backs leave, and the four arguments as launched.
-/
import proofs.«431320_j34256659153219_3_alg».proof.Proof.KReg0
import proofs.«431320_j34256659153219_3_alg».proof.Proof.KReg1
import proofs.«431320_j34256659153219_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the launches' boundaries -/

/-- What the first launch is entered with: the launch memory after the four host stretches, read at a reference. -/
abbrev VA : (c : Dev nD) → (b : Ref sig .tc) → Buf (Elt F) ((c : Thread nD τ).loc b) := fun c b => Gen.V4 m c b

/-- After the first launch: its arrays at what its write-backs leave, every other buffer as entered. -/
def W5 (c : Dev nD) : Valuation τ sig (Elt F) :=
  Pipeline.withArrays spec0 c (Gen.V4 m c) fun w => (dat0 (VA m) c).arrAt w cfg0.N
theorem W5_arr (c : Dev nD) (w : Fin cfg0.W) :
    W5 m c (Proc.devRef .tc (Pipeline.arrRef spec0 w)) = (dat0 (VA m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = Gen.V4 m c (Proc.devRef .tc b) := by
  unfold W5; exact Pipeline.withArrays_of_ne spec0 c _ _ b hb
/-- The same read at a reference: what the second launch is entered with. -/
abbrev VB : (c : Dev nD) → (b : Ref sig .tc) → Buf (Elt F) ((c : Thread nD τ).loc b) := fun c b => W5 m c b
theorem hF0 (c : Dev nD) (w : Fin cfg0.W) : (dat0 (VA m) c).arrAt w cfg0.N = VB m c (Pipeline.arrRef spec0 w) :=
  (W5_arr m c w).symm
theorem hrest0 (c : Dev nD) : ∀ b, b ∉ Finset.univ.image (Pipeline.arrRef spec0) → VB m c b = VA m c b :=
  fun b hb => W5_of_ne m c b fun w e => hb (Finset.mem_image.mpr ⟨w, Finset.mem_univ _, e⟩)

/-- After the second launch. -/
def W6 (c : Dev nD) : Valuation τ sig (Elt F) :=
  Pipeline.withArrays spec1 c (W5 m c) fun w => (dat1 (VB m) c).arrAt w cfg1.N
theorem W6_arr (c : Dev nD) (w : Fin cfg1.W) :
    W6 m c (Proc.devRef .tc (Pipeline.arrRef spec1 w)) = (dat1 (VB m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VC : (c : Dev nD) → (b : Ref sig .tc) → Buf (Elt F) ((c : Thread nD τ).loc b) := fun c b => W6 m c b
theorem hF1 (c : Dev nD) (w : Fin cfg1.W) : (dat1 (VB m) c).arrAt w cfg1.N = VC m c (Pipeline.arrRef spec1 w) :=
  (W6_arr m c w).symm
theorem hrest1 (c : Dev nD) : ∀ b, b ∉ Finset.univ.image (Pipeline.arrRef spec1) → VC m c b = VB m c b :=
  fun b hb => W6_of_ne m c b fun w e => hb (Finset.mem_image.mpr ⟨w, Finset.mem_univ _, e⟩)

/-! ## The arguments end as launched -/

/-- `main_arg0` is no array of either launch and no host operation writes it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = Gen.V4 m c (Proc.devRef .tc main_arg0) := W5_of_ne m c main_arg0 (by decide)
    _ = m ((c : Thread nD τ).loc main_arg0) :=
      (Gen.V4_of m c main_arg0 (by decide)).trans <| (Gen.V3_of m c main_arg0 (by decide)).trans <| (Gen.V2_of m c main_arg0 (by decide)).trans <| (Gen.V1_of m c main_arg0 (by decide)).trans rfl

/-- `main_arg1` is no array of either launch and no host operation writes it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = Gen.V4 m c (Proc.devRef .tc main_arg1) := W5_of_ne m c main_arg1 (by decide)
    _ = m ((c : Thread nD τ).loc main_arg1) :=
      (Gen.V4_of m c main_arg1 (by decide)).trans <| (Gen.V3_of m c main_arg1 (by decide)).trans <| (Gen.V2_of m c main_arg1 (by decide)).trans <| (Gen.V1_of m c main_arg1 (by decide)).trans rfl

/-- `main_arg2` is an input array of both launches: neither writes it back, and no host operation writes it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := (W6_arr m c 2).trans (((dat1 (VB m) c).arrAt_in 2 rfl _).trans (A_eq1 (VB m) c 2))
    _ = Gen.V4 m c (Proc.devRef .tc main_arg2) := (W5_arr m c 2).trans (((dat0 (VA m) c).arrAt_in 2 rfl _).trans (A_eq0 (VA m) c 2))
    _ = m ((c : Thread nD τ).loc main_arg2) :=
      (Gen.V4_of m c main_arg2 (by decide)).trans <| (Gen.V3_of m c main_arg2 (by decide)).trans <| (Gen.V2_of m c main_arg2 (by decide)).trans <| (Gen.V1_of m c main_arg2 (by decide)).trans rfl

/-- `main_arg3` is no array of either launch and no host operation writes it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = Gen.V4 m c (Proc.devRef .tc main_arg3) := W5_of_ne m c main_arg3 (by decide)
    _ = m ((c : Thread nD τ).loc main_arg3) :=
      (Gen.V4_of m c main_arg3 (by decide)).trans <| (Gen.V3_of m c main_arg3 (by decide)).trans <| (Gen.V2_of m c main_arg3 (by decide)).trans <| (Gen.V1_of m c main_arg3 (by decide)).trans rfl

/-! ## The proof data family and the thread state -/

/-- Each launch's proof data at the contents it is entered with. -/
def pdats : (p : Fin 2) → (c : Dev nD) → Dat τ (Elt F) Unit ℕ (UR sig nD τ) ℕ (Pipeline.pin (pcfgs (F := F)) Gen.adm p) c
  | ⟨0, _⟩ => fun c => dat0 (VA m) c
  | ⟨1, _⟩ => fun c => dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m c) ∗ ∃ r, prngReg c r)

/-! ## The launches as segments -/

set_option backward.isDefEq.respectTransparency.types false in
/-- Launch 0 over the thread state: entered with every unscoped buffer at the boundary's contents, left with the
    launch's arrays at what its write-backs leave and every other buffer as entered. Its arrays are split out of the
    unscoped buffers on entry and put back on exit; the generator register goes into the invariant and comes back;
    nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (VA m) c
    unfold Pipeline.ΦA at h
    show _ ⊢ (dat0 (VA m) c).Φ 0
    iintro ⟨Hp, -, Hr⟩
    iapply h
    isplitl [Hr]; · iexact Hr
    iexact Hp
  hout c := by
    rw [Pipeline.ownSems0_none]
    have h := hout0 (VA m) c
    unfold Pipeline.ΦA at h
    show (dat0 (VA m) c).Φ (Fin.last cfg0.N) ⊢ _
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the boundary's contents, left with the
    launch's arrays at what its write-backs leave and every other buffer as entered. Its arrays are split out of the
    unscoped buffers on entry and put back on exit; the generator register goes into the invariant and comes back;
    nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The six segments in order. -/
abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .region (reg0 m),
    .region (reg1 m) ]

/-- The program is the run of its segments. -/
theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution terminates, nothing faulting, and ends with
    the result array at what the second launch's write-backs leave and the four arguments as launched. -/
theorem run_main : θ_run defs (onTc (τ := τ) (main (F := F))) ⟨m, fun _ => 0, ρ⟩ (fun r => ∀ c : Dev nD,
      r.2.mem ((c.tc : Thread nD τ).loc main_v8) = (dat1 (VB m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v8 (by decide))).trans (W6_arr m c 6),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c)⟩)

end Cert.Kernel.Hand

end
-- ==== Proof.Reg0.lean ====
/-
  The first launch (the statistics kernel, 80 points of 20000 edges each), at the buffer contents V it is entered
  with. It keeps a running maximum m and a running normaliser l in two 1×1 scratch buffers across the points: the
  first point resets them to (−∞, 0) before using them; every point replaces m by max m (block maximum) and l by
  l · exp (m − m') + Σ exp (s − m') over the block's scores s; the last point copies both into the two 1×1 outputs.
  So the body has three cases by the point (first, middle, last); what the scratch holds after each point is a
  recursion over the points (scAt0); the outputs are written, and written back, at the last point only.
-/
import proofs.«431320_j34256659153219_3_alg».proof.Proof.Gen.KernelIdeal.Launch
import proofs.«431320_j34256659153219_3_alg».proof.Proof.Gen.KernelIdeal.Skeleton
import proofs.«431320_j34256659153219_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current buffer holds its block at every point, whether or not that point fetched it: a point
    that does not fetch finds what the last fetch left, and the block index has not moved since. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current buffer holds its block at every point, whether or not that point fetched it: a point
    that does not fetch finds what the last fetch left, and the block index has not moved since. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current buffer holds its block at every point, whether or not that point fetched it: a point
    that does not fetch finds what the last fetch left, and the block index has not moved since. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current buffer holds its block at every point, whether or not that point fetched it: a point
    that does not fetch finds what the last fetch left, and the block index has not moved since. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branches, decided over the grid -/

/-- The reset branch is taken: the point's coordinate is 0. -/
abbrev condF (i : grid0.Coords) : Prop := (Scalar.cmpi .ne (Scalar.extui (Scalar.cmpi .eq (BitVec.ofNat 32 (i 0).val) 0#32)) 0#32) = 1#1
theorem hcondF : ∀ t : Fin cfg0.N, condF (grid0.coords t) ↔ t.val % 80 = 0 :=
  (by decide +kernel : ∀ t : Fin grid0.N, condF (grid0.coords t) ↔ t.val % 80 = 0)

/-- The copy-out branch is taken: the point's coordinate is 79. -/
abbrev condL (i : grid0.Coords) : Prop := k0_cond2 i = 1#1
theorem hcondL : ∀ t : Fin cfg0.N, condL (grid0.coords t) ↔ t.val % 80 = 79 :=
  (by decide +kernel : ∀ t : Fin grid0.N, condL (grid0.coords t) ↔ t.val % 80 = 79)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the body stores nothing into the two outputs, and they are not written back there. -/
theorem idleAt0_4 : ∀ t : Fin cfg0.N, ¬condL (grid0.coords t) → cfg0.idle 4 (grid0.coords t) = true := by decide +kernel
theorem noFlush0_4 : ∀ t : Fin cfg0.N, ¬condL (grid0.coords t) → (cfg0.win 4).flush t = false := by decide +kernel
theorem idleAt0_5 : ∀ t : Fin cfg0.N, ¬condL (grid0.coords t) → cfg0.idle 5 (grid0.coords t) = true := by decide +kernel
theorem noFlush0_5 : ∀ t : Fin cfg0.N, ¬condL (grid0.coords t) → (cfg0.win 5).flush t = false := by decide +kernel
/-- At the last point it stores into both. -/
theorem liveAt0_4 : ∀ t : Fin cfg0.N, condL (grid0.coords t) → cfg0.idle 4 (grid0.coords t) = false := by decide +kernel
theorem liveAt0_5 : ∀ t : Fin cfg0.N, condL (grid0.coords t) → cfg0.idle 5 (grid0.coords t) = false := by decide +kernel

/-! ## The scratch buffers -/

/-- The running maximum's buffer and the running normaliser's. -/
abbrev scM : Memref sig .tc .vmem S1x1 .f32 := Memref.whole cc0_scratch0
abbrev scL : Memref sig .tc .vmem S1x1 .f32 := Memref.whole cc0_scratch1

theorem zero2 : (![0, 0] : Fin 2 → ℕ) = fun _ => 0 := by funext a; fin_cases a <;> rfl

/-- The new running maximum from the four input blocks and the old one. -/
def newM (x0 x1 : Vec F S20000x64 .f32) (x2 : Vec F S1x128 .f32) (x3 : Vec F S1x1 .f32) (mp : Vec F S1x1 .f32) : Vec F S1x1 .f32 :=
  k0_pay1 (k0_pay5 x0 x1 x2 x3 mp)
/-- The new running normaliser from the four input blocks, the old maximum and the old normaliser. -/
def newL (x0 x1 : Vec F S20000x64 .f32) (x2 : Vec F S1x128 .f32) (x3 : Vec F S1x1 .f32) (mp lp : Vec F S1x1 .f32) : Vec F S1x1 .f32 :=
  k0_pay6 x0 x1 x2 x3 mp mp lp

/-! ## The body's triple, case by case -/

set_option maxHeartbeats 4000000 in
/-- The first point: the scratch buffers at anything; they end at the step from (−∞, 0). The outputs are handed back as found. -/
theorem runFirst (c : Dev nD) (E : Set ℕ) (i : grid0.Coords) (arg1 : Memref sig .tc .vmem S20000x64 .f32) (harg1 : arg1.IsWhole) (arg2 : Memref sig .tc .vmem S20000x64 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (x0 x1 : Vec F S20000x64 .f32) (x2 : Vec F S1x128 .f32) (x3 : Vec F S1x1 .f32)
    (d5 d6 : Vec F S1x1 .f32) (hF : condF i) (hL : ¬condL i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare d6
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare d6
            ∗ owns (c : Thread nD τ) arg7 fullShare (newM x0 x1 x2 x3 (k0_pay2 (F := F))) ∗ owns (c : Thread nD τ) arg8 fullShare (newL x0 x1 x2 x3 (k0_pay2 (F := F)) (k0_pay3 (F := F)))) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%d7, %f7, -, H7⟩, ⟨%d8, %f8, -, H8⟩, Hk⟩
  subst hf0 hf1 hf2 hf3 hf5 hf6
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold newM
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  iexists _; isplitr
  swap; · iexact H8
  ipureintro
  unfold newL
  sl_unfold_words
  refine (View.read_writes_eq_canon _ _ _ (fun y => ⟨_, List.Mem.head _, ?_⟩)).trans ?_
  · exact View.mem_set_unit_zero (S := S1x1) zero2 inb_S1x1_S1x1_0_0 y
  rw [View.canon_cons_unit_zero zero2]
  simp only [View.readAt_eq_ld, View.ld_unit_zero (S := S20000x64) zero2, View.ld_unit_zero (S := S1x128) zero2,
    View.ld_unit_zero (S := S1x1) zero2, View.readCov_unit_zero (S := S1x1) _ zero2]

set_option maxHeartbeats 4000000 in
/-- A middle point: the scratch buffers at (mp, lp); they end at the step from there. The outputs are handed back as found. -/
theorem runMid (c : Dev nD) (E : Set ℕ) (i : grid0.Coords) (arg1 : Memref sig .tc .vmem S20000x64 .f32) (harg1 : arg1.IsWhole) (arg2 : Memref sig .tc .vmem S20000x64 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (x0 x1 : Vec F S20000x64 .f32) (x2 : Vec F S1x128 .f32) (x3 : Vec F S1x1 .f32)
    (d5 d6 mp lp : Vec F S1x1 .f32) (hF : ¬condF i) (hL : ¬condL i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare d6
        ∗ owns (c : Thread nD τ) arg7 fullShare mp ∗ owns (c : Thread nD τ) arg8 fullShare lp
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare d5 ∗ owns (c : Thread nD τ) arg6 fullShare d6
            ∗ owns (c : Thread nD τ) arg7 fullShare (newM x0 x1 x2 x3 mp) ∗ owns (c : Thread nD τ) arg8 fullShare (newL x0 x1 x2 x3 mp lp)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f5, %hf5, H5⟩, ⟨%f6, %hf6, H6⟩, ⟨%f7, %hf7, H7⟩, ⟨%f8, %hf8, H8⟩, Hk⟩
  subst hf0 hf1 hf2 hf3 hf5 hf6 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists f5; isplitr; · ipureintro; rfl
    iexact H5
  isplitl [H6]
  · iexists f6; isplitr; · ipureintro; rfl
    iexact H6
  isplitl [H7]
  · iexists _; isplitr
    swap; · iexact H7
    ipureintro
    unfold newM
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  iexists _; isplitr
  swap; · iexact H8
  ipureintro
  unfold newL
  sl_unfold_words
  refine (View.read_writes_eq_canon _ _ _ (fun y => ⟨_, List.Mem.head _, ?_⟩)).trans ?_
  · exact View.mem_set_unit_zero (S := S1x1) zero2 inb_S1x1_S1x1_0_0 y
  rw [View.canon_cons_unit_zero zero2]
  simp only [View.readAt_eq_ld, View.ld_unit_zero (S := S20000x64) zero2, View.ld_unit_zero (S := S1x128) zero2,
    View.ld_unit_zero (S := S1x1) zero2, View.readCov_unit_zero (S := S1x1) _ zero2]

set_option maxHeartbeats 4000000 in
/-- The last point: as a middle point, and the two outputs (at anything) end at the new maximum and the new normaliser. -/
theorem runLast (c : Dev nD) (E : Set ℕ) (i : grid0.Coords) (arg1 : Memref sig .tc .vmem S20000x64 .f32) (harg1 : arg1.IsWhole) (arg2 : Memref sig .tc .vmem S20000x64 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S1x1 .f32) (harg7 : arg7.IsWhole) (arg8 : Memref sig .tc .vmem S1x1 .f32) (harg8 : arg8.IsWhole)
    (x0 x1 : Vec F S20000x64 .f32) (x2 : Vec F S1x128 .f32) (x3 : Vec F S1x1 .f32)
    (mp lp : Vec F S1x1 .f32) (hF : ¬condF i) (hL : condL i) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ owns (c : Thread nD τ) arg7 fullShare mp ∗ owns (c : Thread nD τ) arg8 fullShare lp
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (newM x0 x1 x2 x3 mp) ∗ owns (c : Thread nD τ) arg6 fullShare (newL x0 x1 x2 x3 mp lp)
            ∗ owns (c : Thread nD τ) arg7 fullShare (newM x0 x1 x2 x3 mp) ∗ owns (c : Thread nD τ) arg8 fullShare (newL x0 x1 x2 x3 mp lp)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%d5, %f5, -, H5⟩, ⟨%d6, %f6, -, H6⟩, ⟨%f7, %hf7, H7⟩, ⟨%f8, %hf8, H8⟩, Hk⟩
  subst hf0 hf1 hf2 hf3 hf7 hf8
  sl_exec (disch := first | exact hF | exact hL)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H5]
  · iexists _; isplitr
    swap; · iexact H5
    ipureintro
    unfold newM
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  isplitl [H6]
  · iexists _; isplitr
    swap; · iexact H6
    ipureintro
    unfold newL
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  isplitl [H7]
  · iexists _; isplitr
    swap; · iexact H7
    ipureintro
    unfold newM
    sl_unfold_words
    refine (View.read_writes_eq_canon _ _ _ (fun y => ⟨_, List.Mem.head _, ?_⟩)).trans ?_
    · exact View.mem_set_unit_zero (S := S1x1) zero2 inb_S1x1_S1x1_0_0 y
    rw [View.canon_cons_unit_zero zero2]
    simp only [View.readAt_eq_ld, View.ld_unit_zero (S := S20000x64) zero2, View.ld_unit_zero (S := S1x128) zero2,
      View.ld_unit_zero (S := S1x1) zero2, View.readCov_unit_zero (S := S1x1) _ zero2]
  iexists _; isplitr
  swap; · iexact H8
  ipureintro
  unfold newL
  sl_unfold_words
  refine (View.read_writes_eq_canon _ _ _ (fun y => ⟨_, List.Mem.head _, ?_⟩)).trans ?_
  · exact View.mem_set_unit_zero (S := S1x1) zero2 inb_S1x1_S1x1_0_0 y
  rw [View.canon_cons_unit_zero zero2]
  simp only [View.readAt_eq_ld, View.ld_unit_zero (S := S20000x64) zero2, View.ld_unit_zero (S := S1x128) zero2,
    View.ld_unit_zero (S := S1x1) zero2, View.readCov_unit_zero (S := S1x1) _ zero2]

/-! ## What the scratch holds after each point -/

/-- One point's step of the pair (maximum, normaliser) from the pair (mp, lp), on that point's four input blocks. -/
def stepAt (c : Dev nD) (t : Fin cfg0.N) (mp lp : Vec F S1x1 .f32) : Vec F S1x1 .f32 × Vec F S1x1 .f32 :=
  (newM (iblk0 V c 0 t) (iblk0 V c 1 t) (iblk0 V c 2 t) (iblk0 V c 3 t) mp, newL (iblk0 V c 0 t) (iblk0 V c 1 t) (iblk0 V c 2 t) (iblk0 V c 3 t) mp lp)

/-- The pair after point n: the first point steps from the reset values, every later one from the point before. -/
def scAt0 (c : Dev nD) : (n : ℕ) → n < cfg0.N → Vec F S1x1 .f32 × Vec F S1x1 .f32
  | 0, hn => stepAt V c ⟨0, hn⟩ (k0_pay2 (F := F)) (k0_pay3 (F := F))
  | n + 1, hn => stepAt V c ⟨n + 1, hn⟩ (scAt0 c n (Nat.lt_of_succ_lt hn)).1 (scAt0 c n (Nat.lt_of_succ_lt hn)).2

theorem scAt0_zero (c : Dev nD) (t : Fin cfg0.N) (hz : t.val = 0) :
    scAt0 V c t.val t.isLt = stepAt V c t (k0_pay2 (F := F)) (k0_pay3 (F := F)) := by
  obtain ⟨n, hn⟩ := t
  cases n with
  | zero => rfl
  | succ n => exact absurd hz (Nat.succ_ne_zero n)

theorem scAt0_pos (c : Dev nD) (t : Fin cfg0.N) (hz : t.val ≠ 0) :
    scAt0 V c t.val t.isLt = stepAt V c t (scAt0 V c (t.val - 1) (Nat.lt_of_le_of_lt (Nat.sub_le _ _) t.isLt)).1 (scAt0 V c (t.val - 1) (Nat.lt_of_le_of_lt (Nat.sub_le _ _) t.isLt)).2 := by
  obtain ⟨n, hn⟩ := t
  cases n with
  | zero => exact absurd rfl hz
  | succ n => rfl

/-! ## The launch's invariant -/

/-- The other launch's staging buffers, each at some contents: they ride along untouched. -/
def rest10 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The plain invariant with the two scratch buffers spelt as memrefs. -/
theorem PhiA0_eq (c : Dev nD) :
    (Pipeline.ΦA spec0 c : sProp 𝕄)
      = iprop(((∃ d, owns (c : Thread nD τ) scM fullShare d) ∗ (∃ d, owns (c : Thread nD τ) scL fullShare d) ∗ rest10 (F := F) c) ∗ (∃ r, prngReg c r)) := by
  unfold Pipeline.ΦA rest10; rw [scopedRest0_eq]; simp only [scM, scL, owns_whole]; try rfl

/-- Before point n: at the start the plain invariant (the scratch at anything); afterwards the scratch at what the
    point before left. -/
def PhiS0 (c : Dev nD) : (n : ℕ) → n ≤ cfg0.N → sProp 𝕄
  | 0, _ => Pipeline.ΦA spec0 c
  | n + 1, hn => iprop((owns (c : Thread nD τ) scM fullShare (scAt0 V c n hn).1 ∗ owns (c : Thread nD τ) scL fullShare (scAt0 V c n hn).2 ∗ rest10 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM fullShare (scAt0 V c n hn).1 ∗ owns (c : Thread nD τ) scL fullShare (scAt0 V c n hn).2 ∗ rest10 (F := F) c) ∗ (∃ r, prngReg c r)) := rfl

theorem PhiS0_pos (c : Dev nD) (n : ℕ) (h : n ≤ cfg0.N) (hz : n ≠ 0) :
    PhiS0 V c n h = iprop((owns (c : Thread nD τ) scM fullShare (scAt0 V c (n - 1) (by omega)).1 ∗ owns (c : Thread nD τ) scL fullShare (scAt0 V c (n - 1) (by omega)).2 ∗ rest10 (F := F) c) ∗ (∃ r, prngReg c r)) := by
  cases n with
  | zero => exact absurd rfl hz
  | succ n => rfl

/-! ## The launch's proof data -/

/-- The arrays as the launch finds them; after the body at point t each input's buffer at its block and the two outputs'
    at the pair after t (read only at the last point: elsewhere they are idle); the invariant above; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (scAt0 V c t.val t.isLt).1
    | ⟨5, _⟩ => (scAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (scAt0 V c t.val t.isLt).1 := by dsimp only [dat0]
theorem after0_5 (c : Dev nD) (t : Fin cfg0.N) : (dat0 V c).after 5 t = (scAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The obligation at a point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns: each buffer at what the body leaves — an output, away from the last point, as it was found. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point. The closed forms say which case the point is in. The invariant hands the body the scratch at
    what the point before left (at anything at the first point) and takes it back at this point's pair; the inputs' buffers
    hold their blocks; away from the last point the outputs go back as found, at the last point they hold the pair. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 80 := lt_of_lt_of_eq t.isLt (show cfg0.N = 80 from N_0)
  by_cases h0 : t.val % 80 = 0
  · by_cases h1 : t.val % 80 = 79
    · exfalso; omega
    · -- the first point
      have hz : t.val = 0 := by omega
      have hF : condF (grid0.coords t) := (hcondF t).mpr h0
      have hL : ¬condL (grid0.coords t) := fun h => h1 ((hcondL t).mp h)
      rw [show (dat0 V c).leavesExact 0 t = owns (c : Thread nD τ) (st0_0 t) fullShare ((dat0 V c).after 0 t) from by
        unfold Dat.leavesExact; rw [liveAt0_0 t], after0_0]
      rw [show (dat0 V c).leavesExact 1 t = owns (c : Thread nD τ) (st0_1 t) fullShare ((dat0 V c).after 1 t) from by
        unfold Dat.leavesExact; rw [liveAt0_1 t], after0_1]
      rw [show (dat0 V c).leavesExact 2 t = owns (c : Thread nD τ) (st0_2 t) fullShare ((dat0 V c).after 2 t) from by
        unfold Dat.leavesExact; rw [liveAt0_2 t], after0_2]
      rw [show (dat0 V c).leavesExact 3 t = owns (c : Thread nD τ) (st0_3 t) fullShare ((dat0 V c).after 3 t) from by
        unfold Dat.leavesExact; rw [liveAt0_3 t], after0_3]
      rw [Dat.leavesExact_idle (dat0 V c) 4 t (idleAt0_4 t hL) (noFlush0_4 t hL)]
      rw [Dat.leavesExact_idle (dat0 V c) 5 t (idleAt0_5 t hL) (noFlush0_5 t hL)]
      rw [scAt0_zero V c t hz]
      unfold stepAt; (try dsimp only)
      rw [PhiS0_castSucc V c t, PhiS0_zero V c _ _ hz, PhiA0_eq]
      iintro ⟨⟨⟨HM, HL, HR⟩, Hg⟩, Ho, ⟨%d0, H0⟩, ⟨%d1, H1⟩, ⟨%d2, H2⟩, ⟨%d3, H3⟩, ⟨%d4, H4⟩, ⟨%d5, H5⟩⟩
      iapply (runFirst c Set.univ (grid0.coords t) _ _ _ _ _ _ _ _ _ _ _ _ _ _ _ _ (iblk0 V c 0 t) (iblk0 V c 1 t) (iblk0 V c 2 t) (iblk0 V c 3 t) _ _ hF hL _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      iintro ⟨H0, H1, H2, H3, H4, H5, HM, HL⟩
      isplitl [HM HL HR Hg]
      · isplitl [HM HL HR]
        · isplitl [HM]; · iexact HM
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := by omega
    have hF : ¬condF (grid0.coords t) := fun h => h0 ((hcondF t).mp h)
    by_cases h1 : t.val % 80 = 79
    · -- the last point
      have hL : condL (grid0.coords t) := (hcondL t).mpr h1
      rw [show (dat0 V c).leavesExact 0 t = owns (c : Thread nD τ) (st0_0 t) fullShare ((dat0 V c).after 0 t) from by
        unfold Dat.leavesExact; rw [liveAt0_0 t], after0_0]
      rw [show (dat0 V c).leavesExact 1 t = owns (c : Thread nD τ) (st0_1 t) fullShare ((dat0 V c).after 1 t) from by
        unfold Dat.leavesExact; rw [liveAt0_1 t], after0_1]
      rw [show (dat0 V c).leavesExact 2 t = owns (c : Thread nD τ) (st0_2 t) fullShare ((dat0 V c).after 2 t) from by
        unfold Dat.leavesExact; rw [liveAt0_2 t], after0_2]
      rw [show (dat0 V c).leavesExact 3 t = owns (c : Thread nD τ) (st0_3 t) fullShare ((dat0 V c).after 3 t) from by
        unfold Dat.leavesExact; rw [liveAt0_3 t], after0_3]
      rw [show (dat0 V c).leavesExact 4 t = owns (c : Thread nD τ) (st0_4 t) fullShare ((dat0 V c).after 4 t) from by
        unfold Dat.leavesExact; rw [liveAt0_4 t hL], after0_4]
      rw [show (dat0 V c).leavesExact 5 t = owns (c : Thread nD τ) (st0_5 t) fullShare ((dat0 V c).after 5 t) from by
        unfold Dat.leavesExact; rw [liveAt0_5 t hL], after0_5]
      rw [scAt0_pos V c t hz]
      unfold stepAt; (try dsimp only)
      rw [PhiS0_castSucc V c t, PhiS0_pos V c _ _ hz]
      iintro ⟨⟨⟨HM, HL, HR⟩, Hg⟩, Ho, ⟨%d0, H0⟩, ⟨%d1, H1⟩, ⟨%d2, H2⟩, ⟨%d3, H3⟩, ⟨%d4, H4⟩, ⟨%d5, H5⟩⟩
      iapply (runLast c Set.univ (grid0.coords t) _ _ _ _ _ _ _ _ _ _ _ _ _ _ _ _ (iblk0 V c 0 t) (iblk0 V c 1 t) (iblk0 V c 2 t) (iblk0 V c 3 t) _ _ hF hL _)
      isplitl [H0]; · iexact H0
      isplitl [H1]; · iexact H1
      isplitl [H2]; · iexact H2
      isplitl [H3]; · iexact H3
      isplitl [H4]; · iexists _; iexact H4
      isplitl [H5]; · iexists _; iexact H5
      isplitl [HM]; · iexact HM
      isplitl [HL]; · iexact HL
      iintro ⟨H0, H1, H2, H3, H4, H5, HM, HL⟩
      isplitl [HM HL HR Hg]
      · isplitl [HM HL HR]
        · isplitl [HM]; · iexact HM
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a middle point
      have hL : ¬condL (grid0.coords t) := fun h => h1 ((hcondL t).mp h)
      rw [show (dat0 V c).leavesExact 0 t = owns (c : Thread nD τ) (st0_0 t) fullShare ((dat0 V c).after 0 t) from by
        unfold Dat.leavesExact; rw [liveAt0_0 t], after0_0]
      rw [show (dat0 V c).leavesExact 1 t = owns (c : Thread nD τ) (st0_1 t) fullShare ((dat0 V c).after 1 t) from by
        unfold Dat.leavesExact; rw [liveAt0_1 t], after0_1]
      rw [show (dat0 V c).leavesExact 2 t = owns (c : Thread nD τ) (st0_2 t) fullShare ((dat0 V c).after 2 t) from by
        unfold Dat.leavesExact; rw [liveAt0_2 t], after0_2]
      rw [show (dat0 V c).leavesExact 3 t = owns (c : Thread nD τ) (st0_3 t) fullShare ((dat0 V c).after 3 t) from by
        unfold Dat.leavesExact; rw [liveAt0_3 t], after0_3]
      rw [Dat.leavesExact_idle (dat0 V c) 4 t (idleAt0_4 t hL) (noFlush0_4 t hL)]
      rw [Dat.leavesExact_idle (dat0 V c) 5 t (idleAt0_5 t hL) (noFlush0_5 t hL)]
      rw [scAt0_pos V c t hz]
      unfold stepAt; (try dsimp only)
      rw [PhiS0_castSucc V c t, PhiS0_pos V c _ _ hz]
      iintro ⟨⟨⟨HM, HL, HR⟩, Hg⟩, Ho, ⟨%d0, H0⟩, ⟨%d1, H1⟩, ⟨%d2, H2⟩, ⟨%d3, H3⟩, ⟨%d4, H4⟩, ⟨%d5, H5⟩⟩
      iapply (runMid c Set.univ (grid0.coords t) _ _ _ _ _ _ _ _ _ _ _ _ _ _ _ _ (iblk0 V c 0 t) (iblk0 V c 1 t) (iblk0 V c 2 t) (iblk0 V c 3 t) _ _ _ _ hF hL _)
      isplitl [H0]; · iexact H0
      isplitl [H1]; · iexact H1
      isplitl [H2]; · iexact H2
      isplitl [H3]; · iexact H3
      isplitl [H4]; · iexact H4
      isplitl [H5]; · iexact H5
      isplitl [HM]; · iexact HM
      isplitl [HL]; · iexact HL
      iintro ⟨H0, H1, H2, H3, H4, H5, HM, HL⟩
      isplitl [HM HL HR Hg]
      · isplitl [HM HL HR]
        · isplitl [HM]; · iexact HM
          isplitl [HL]; · iexact HL
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The obligation at every point. -/
theorem body_obligation0 (c : Dev nD) : BodyObligation (dat0 (F := F) V c) (defs₀ (F := F)) Variants.none () Set.univ := fun t => by
  rw [bigSep_W0, bigSep_W0]
  exact sound_body0 V c t

/-- What the launch hands the kernel is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the plain one back: what the scratch holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 80 := N_0; omega), PhiA0_eq]
  iintro ⟨⟨HM, HL, HR⟩, Hg⟩
  isplitl [HM HL HR]
  · isplitl [HM]; · iexists _; iexact HM
    isplitl [HL]; · iexists _; iexact HL
    iexact HR
  iexact Hg

end Cert.KernelIdeal.Hand

end
-- ==== Proof.Reg1.lean ====
/-
  The second launch (the finalising kernel, 125 points of 12800 edges each), at the buffer contents V it is entered
  with. At a point the body reads six input blocks — 12800 source rows, 12800 target rows, the weight row, the bias,
  the global maximum and the normaliser — and stores one output block: each edge's softmax weight times its embedding
  row. What it stores is a pure function of the six blocks (pay1); the inputs are left as found. From this: the
  launch's proof data and its obligation at every point.
-/
import proofs.«431320_j34256659153219_3_alg».proof.Proof.Gen.KernelIdeal.Launch
import proofs.«431320_j34256659153219_3_alg».proof.Proof.Gen.KernelIdeal.Skeleton
import proofs.«431320_j34256659153219_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds its block at every point, whether or not that point fetched it: a point
    that does not fetch finds what the last fetch left, and the block index has not moved since. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds its block at every point, whether or not that point fetched it: a point
    that does not fetch finds what the last fetch left, and the block index has not moved since. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds its block at every point, whether or not that point fetched it: a point
    that does not fetch finds what the last fetch left, and the block index has not moved since. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current buffer holds its block at every point, whether or not that point fetched it: a point
    that does not fetch finds what the last fetch left, and the block index has not moved since. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current buffer holds its block at every point, whether or not that point fetched it: a point
    that does not fetch finds what the last fetch left, and the block index has not moved since. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current buffer holds its block at every point, whether or not that point fetched it: a point
    that does not fetch finds what the last fetch left, and the block index has not moved since. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body stores -/

/-- The whole 12800×128 output buffer as one rectangle. -/
abbrev rO1 : Rect S12800x128 := Rect.unit (s := S12800x128) ![0, 0] S12800x128.size inb_S12800x128_S12800x128_0_0

/-- The stored block as a function of the six input blocks at the point. -/
def pay1 (c : Dev nD) (t : Fin cfg1.N) : Vec F S12800x128 .f32 :=
  k1_pay1 (iblk1 V c 0 t) (iblk1 V c 1 t) (iblk1 V c 2 t) (iblk1 V c 3 t) (iblk1 V c 4 t) (iblk1 V c 5 t)

theorem zero2 : (![0, 0] : Fin 2 → ℕ) = fun _ => 0 := by funext a; fin_cases a <;> rfl

/-- One store over the whole buffer covers it. -/
theorem coverO1 (p0 : Vec F S12800x128 .f32) (y : S12800x128.Idx) :
    ∃ pc ∈ ([⟨rO1, p0⟩] : List (View.Piece (Elt F) S12800x128 .f32)), y ∈ pc.1.set :=
  View.cover_of_tiled [⟨rO1, p0⟩] S12800x128.size (by rfl) y

/-! ## The body's triple -/

set_option maxHeartbeats 4000000 in
/-- The body on whole buffers: the six inputs at contents x0 … x5, the output at anything. It runs to the end, leaves
    the inputs as they were and the output at the payload of the six. -/
theorem sound_kernel1 (c : Dev nD) (E : Set ℕ) (i : grid1.Coords)
    (arg1 : Memref sig .tc .vmem S12800x64 .f32) (harg1 : arg1.IsWhole) (arg2 : Memref sig .tc .vmem S12800x64 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S1x1 .f32) (harg5 : arg5.IsWhole) (arg6 : Memref sig .tc .vmem S1x1 .f32) (harg6 : arg6.IsWhole)
    (arg7 : Memref sig .tc .vmem S12800x128 .f32) (harg7 : arg7.IsWhole)
    (x0 x1 : Vec F S12800x64 .f32) (x2 : Vec F S1x128 .f32) (x3 x4 x5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k1_pay1 x0 x1 x2 x3 x4 x5)) -∗ K ⟨⟩))
      ⊢ wp frame (wpE (defs₀ (F := F)) Variants.none c none) E (cc1__finalize_kernel i arg1 harg1 arg2 harg2 arg3 harg3 arg4 harg4 arg5 harg5 arg6 harg6 arg7 harg7) K := by
  simp only [cc1__finalize_kernel_eq_skeleton]; unfold cc1__finalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (coverO1 _)).trans ?_
  rw [View.canon_unit_zero zero2]
  simp only [View.readAt_eq_ld, View.ld_unit_zero (S := S12800x64) zero2, View.ld_unit_zero (S := S1x128) zero2, View.ld_unit_zero (S := S1x1) zero2]

/-! ## The launch's proof data -/

/-- The arrays as the launch finds them; after the body at point t each input's buffer at its block and the output's at
    the payload of the blocks; the launch's invariant is the plain one (the buffers no window stages, the generator
    register), nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => pay1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = pay1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The obligation at a point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program as one run: four stretches of host operations (the two index rows cut out of the index array, the
  two row gathers, the bias as a 1×1 array), the statistics launch, the finalising launch. The buffer contents at each
  boundary are a fold from the launch memory: a host stretch applies its operations; a launch leaves its arrays at what
  its write-backs leave and every other buffer as entered. Every weakly fair execution terminates, faults nowhere, and
  ends with every unscoped buffer at the last boundary's contents: in particular the result array at what the second
  launch's write-backs leave, and the four arguments as launched.
-/
import proofs.«431320_j34256659153219_3_alg».proof.Proof.Reg0
import proofs.«431320_j34256659153219_3_alg».proof.Proof.Reg1
import proofs.«431320_j34256659153219_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the launches' boundaries -/

/-- What the first launch is entered with: the launch memory after the four host stretches, read at a reference. -/
abbrev VA : (c : Dev nD) → (b : Ref sig .tc) → Buf (Elt F) ((c : Thread nD τ).loc b) := fun c b => Gen.V4 m c b

/-- After the first launch: its arrays at what its write-backs leave, every other buffer as entered. -/
def W5 (c : Dev nD) : Valuation τ sig (Elt F) :=
  Pipeline.withArrays spec0 c (Gen.V4 m c) fun w => (dat0 (VA m) c).arrAt w cfg0.N
theorem W5_arr (c : Dev nD) (w : Fin cfg0.W) :
    W5 m c (Proc.devRef .tc (Pipeline.arrRef spec0 w)) = (dat0 (VA m) c).arrAt w cfg0.N := by
  unfold W5; exact Pipeline.withArrays_arr spec0 launch0.win.arr_inj c _ _ w
theorem W5_of_ne (c : Dev nD) (b : Ref sig .tc) (hb : ∀ w, Pipeline.arrRef spec0 w ≠ b) :
    W5 m c (Proc.devRef .tc b) = Gen.V4 m c (Proc.devRef .tc b) := by
  unfold W5; exact Pipeline.withArrays_of_ne spec0 c _ _ b hb
/-- The same read at a reference: what the second launch is entered with. -/
abbrev VB : (c : Dev nD) → (b : Ref sig .tc) → Buf (Elt F) ((c : Thread nD τ).loc b) := fun c b => W5 m c b
theorem hF0 (c : Dev nD) (w : Fin cfg0.W) : (dat0 (VA m) c).arrAt w cfg0.N = VB m c (Pipeline.arrRef spec0 w) :=
  (W5_arr m c w).symm
theorem hrest0 (c : Dev nD) : ∀ b, b ∉ Finset.univ.image (Pipeline.arrRef spec0) → VB m c b = VA m c b :=
  fun b hb => W5_of_ne m c b fun w e => hb (Finset.mem_image.mpr ⟨w, Finset.mem_univ _, e⟩)

/-- After the second launch. -/
def W6 (c : Dev nD) : Valuation τ sig (Elt F) :=
  Pipeline.withArrays spec1 c (W5 m c) fun w => (dat1 (VB m) c).arrAt w cfg1.N
theorem W6_arr (c : Dev nD) (w : Fin cfg1.W) :
    W6 m c (Proc.devRef .tc (Pipeline.arrRef spec1 w)) = (dat1 (VB m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev VC : (c : Dev nD) → (b : Ref sig .tc) → Buf (Elt F) ((c : Thread nD τ).loc b) := fun c b => W6 m c b
theorem hF1 (c : Dev nD) (w : Fin cfg1.W) : (dat1 (VB m) c).arrAt w cfg1.N = VC m c (Pipeline.arrRef spec1 w) :=
  (W6_arr m c w).symm
theorem hrest1 (c : Dev nD) : ∀ b, b ∉ Finset.univ.image (Pipeline.arrRef spec1) → VC m c b = VB m c b :=
  fun b hb => W6_of_ne m c b fun w e => hb (Finset.mem_image.mpr ⟨w, Finset.mem_univ _, e⟩)

/-! ## The arguments end as launched -/

/-- `main_arg0` is no array of either launch and no host operation writes it. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := W6_of_ne m c main_arg0 (by decide)
    _ = Gen.V4 m c (Proc.devRef .tc main_arg0) := W5_of_ne m c main_arg0 (by decide)
    _ = m ((c : Thread nD τ).loc main_arg0) :=
      (Gen.V4_of m c main_arg0 (by decide)).trans <| (Gen.V3_of m c main_arg0 (by decide)).trans <| (Gen.V2_of m c main_arg0 (by decide)).trans <| (Gen.V1_of m c main_arg0 (by decide)).trans rfl

/-- `main_arg1` is no array of either launch and no host operation writes it. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := W6_of_ne m c main_arg1 (by decide)
    _ = Gen.V4 m c (Proc.devRef .tc main_arg1) := W5_of_ne m c main_arg1 (by decide)
    _ = m ((c : Thread nD τ).loc main_arg1) :=
      (Gen.V4_of m c main_arg1 (by decide)).trans <| (Gen.V3_of m c main_arg1 (by decide)).trans <| (Gen.V2_of m c main_arg1 (by decide)).trans <| (Gen.V1_of m c main_arg1 (by decide)).trans rfl

/-- `main_arg2` is an input array of both launches: neither writes it back, and no host operation writes it. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := (W6_arr m c 2).trans (((dat1 (VB m) c).arrAt_in 2 rfl _).trans (A_eq1 (VB m) c 2))
    _ = Gen.V4 m c (Proc.devRef .tc main_arg2) := (W5_arr m c 2).trans (((dat0 (VA m) c).arrAt_in 2 rfl _).trans (A_eq0 (VA m) c 2))
    _ = m ((c : Thread nD τ).loc main_arg2) :=
      (Gen.V4_of m c main_arg2 (by decide)).trans <| (Gen.V3_of m c main_arg2 (by decide)).trans <| (Gen.V2_of m c main_arg2 (by decide)).trans <| (Gen.V1_of m c main_arg2 (by decide)).trans rfl

/-- `main_arg3` is no array of either launch and no host operation writes it. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := W6_of_ne m c main_arg3 (by decide)
    _ = Gen.V4 m c (Proc.devRef .tc main_arg3) := W5_of_ne m c main_arg3 (by decide)
    _ = m ((c : Thread nD τ).loc main_arg3) :=
      (Gen.V4_of m c main_arg3 (by decide)).trans <| (Gen.V3_of m c main_arg3 (by decide)).trans <| (Gen.V2_of m c main_arg3 (by decide)).trans <| (Gen.V1_of m c main_arg3 (by decide)).trans rfl

/-! ## The proof data family and the thread state -/

/-- Each launch's proof data at the contents it is entered with. -/
def pdats : (p : Fin 2) → (c : Dev nD) → Dat τ (Elt F) Unit ℕ (UR sig nD τ) ℕ (Pipeline.pin (pcfgs (F := F)) Gen.adm p) c
  | ⟨0, _⟩ => fun c => dat0 (VA m) c
  | ⟨1, _⟩ => fun c => dat1 (VB m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m c) ∗ ∃ r, prngReg c r)

/-! ## The launches as segments -/

set_option backward.isDefEq.respectTransparency.types false in
/-- Launch 0 over the thread state: entered with every unscoped buffer at the boundary's contents, left with the
    launch's arrays at what its write-backs leave and every other buffer as entered. Its arrays are split out of the
    unscoped buffers on entry and put back on exit; the generator register goes into the invariant and comes back;
    nothing is owed; the kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (Gen.V4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (VA m) c
    unfold Pipeline.ΦA at h
    show _ ⊢ (dat0 (VA m) c).Φ 0
    iintro ⟨Hp, -, Hr⟩
    iapply h
    isplitl [Hr]; · iexact Hr
    iexact Hp
  hout c := by
    rw [Pipeline.ownSems0_none]
    have h := hout0 (VA m) c
    unfold Pipeline.ΦA at h
    show (dat0 (VA m) c).Φ (Fin.last cfg0.N) ⊢ _
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered with every unscoped buffer at the boundary's contents, left with the
    launch's arrays at what its write-backs leave and every other buffer as entered. Its arrays are split out of the
    unscoped buffers on entry and put back on exit; the generator register goes into the invariant and comes back;
    nothing is owed; the kernel has no semaphore of its own. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (VB m c) (VC m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

/-- The six segments in order. -/
abbrev segs : List (Pipeline.Seg (pcfgs (F := F)) Gen.adm (pdats m) () defs₀ 𝒱₀ L lv) :=
  [ .host (hseg hostOps0 hostOps0_sub Gen.hostOps0_fresh (Gen.V0 m)),
    .host (hseg hostOps0_1 hostOps0_1_sub Gen.hostOps0_1_fresh (Gen.V1 m)),
    .host (hseg hostOps0_2 hostOps0_2_sub Gen.hostOps0_2_fresh (Gen.V2 m)),
    .host (hseg hostOps0_3 hostOps0_3_sub Gen.hostOps0_3_fresh (Gen.V3 m)),
    .region (reg0 m),
    .region (reg1 m) ]

/-- The program is the run of its segments. -/
theorem main_run (c : Dev nD) : main (F := F) c = Pipeline.Seg.run (segs m) := by
  rw [main_chain c, Pipeline.Seg.run_eq_chain]
  rfl

set_option backward.isDefEq.respectTransparency.types false in
/-- THE RUN: from any memory with zero counters every weakly fair execution terminates, nothing faulting, and ends with
    the result array at what the second launch's write-backs leave and the four arguments as launched. -/
theorem run_main : θ_run defs (onTc (τ := τ) (main (F := F))) ⟨m, fun _ => 0, ρ⟩ (fun r => ∀ c : Dev nD,
      r.2.mem ((c.tc : Thread nD τ).loc main_v8) = (dat1 (VB m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) Gen.adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c =>
      ⟨(h c _ (mem_uc main_v8 (by decide))).trans (W6_arr m c 6),
       (h c _ (mem_uc main_arg0 (by decide))).trans (W6_main_arg0 m c),
       (h c _ (mem_uc main_arg1 (by decide))).trans (W6_main_arg1 m c),
       (h c _ (mem_uc main_arg2 (by decide))).trans (W6_main_arg2 m c),
       (h c _ (mem_uc main_arg3 (by decide))).trans (W6_main_arg3 m c)⟩)

end Cert.KernelIdeal.Hand

end
-- ==== Proof.Spec.lean ====
/-
  The mathematics both programs compute, as plain functions on the extended reals.

  An edge r has the embedding row  e r = [src r | tgt r]  (128 entries), the score
      s r = (Σ_k e r k · w k) + b,
  the softmax over ALL edges is taken with the global maximum  M = max_r s r  and the normaliser
      Z = Σ_r exp (s r − M),
  and the result row is  (exp (s r − M) / Z) · e r.
-/
import Idealize.ShloMosaic.PureOps.Ideal
import Idealize.ShloMosaic.Lib.ValueIdx

noncomputable section

namespace Cert.Spec

open Idealize.ShloMosaic Idealize.ShloMosaic.ValueIdx

/-- Entry k of edge r's embedding: the source row on the first 64 columns, the target row on the last 64. -/
def emb (src tgt : Fin 1600000 → Fin 64 → EReal) (r : Fin 1600000) (k : Fin 128) : EReal :=
  if h : k.val < 64 then src r ⟨k.val, h⟩ else tgt r ⟨k.val - 64, by omega⟩

/-- The score of edge r: its embedding against the weight row, plus the bias. -/
def score (src tgt : Fin 1600000 → Fin 64 → EReal) (w : Fin 128 → EReal) (b : EReal) (r : Fin 1600000) : EReal :=
  (∑ k : Fin 128, emb src tgt r k * w k) + b

/-- The maximum of all scores, as a fold of max from −∞. -/
def gmax (s : Fin 1600000 → EReal) : EReal := (Finset.univ : Finset (Fin 1600000)).fold max ⊥ s

/-- The softmax normaliser against a shift M. -/
def gsum (s : Fin 1600000 → EReal) (M : EReal) : EReal := ∑ r : Fin 1600000, Ideal.exp (s r - M)

/-- The result at (r, k), given the maximum M and the normaliser Z that are used. -/
def outWith (src tgt : Fin 1600000 → Fin 64 → EReal) (w : Fin 128 → EReal) (b : EReal) (M Z : EReal)
    (r : Fin 1600000) (k : Fin 128) : EReal :=
  Ideal.div (Ideal.exp (score src tgt w b r - M)) Z * emb src tgt r k

/-- The result at (r, k): the softmax weight of edge r times entry k of its embedding. -/
def out (src tgt : Fin 1600000 → Fin 64 → EReal) (w : Fin 128 → EReal) (b : EReal) (r : Fin 1600000) (k : Fin 128) : EReal :=
  outWith src tgt w b (gmax (score src tgt w b)) (gsum (score src tgt w b) (gmax (score src tgt w b))) r k

/-! ## The table row an index word names -/

/-- An index word with a negative value counted from the table's end (one wrap by the table's 100000 rows). -/
def wrapIdx (v : BitVec 32) : BitVec 32 := if v.slt 0#32 then v + 100000#32 else v

/-- The row it then names: read as a signed integer and clamped into the table. -/
def rowOf (v : BitVec 32) : Fin 100000 := ⟨min (wrapIdx v).toInt.toNat 99999, by omega⟩

/-- A gathered table: row r is the table's row named by the r-th index word of row `side` of the index array. -/
def gathered (x : Fin 100000 → Fin 64 → EReal) (idx : Fin 2 → Fin 1600000 → BitVec 32) (side : Fin 2)
    (r : Fin 1600000) (k : Fin 64) : EReal := x (rowOf (idx side r)) k

/-! ## The result as a function of the four argument arrays -/

/-- The node table, the index array, the weight row and the bias, as the programs take them. -/
abbrev SA0 : Shape := ⟨2, ![100000, 64]⟩
abbrev SA1 : Shape := ⟨2, ![2, 1600000]⟩
abbrev SA2 : Shape := ⟨2, ![1, 128]⟩
abbrev SA3 : Shape := ⟨1, ![1]⟩

def tab (a0 : SA0.Idx → EReal) : Fin 100000 → Fin 64 → EReal := fun r k => a0 (ix2 r k)
def idxOf (a1 : SA1.Idx → BitVec 32) : Fin 2 → Fin 1600000 → BitVec 32 := fun s r => a1 (ix2 s r)
def wOf (a2 : SA2.Idx → EReal) : Fin 128 → EReal := fun k => a2 (ix2 0 k)
def bOf (a3 : SA3.Idx → EReal) : EReal := a3 (ix1 0)

/-- Entry (r, k) of the result: source rows gathered by row 0 of the index array, target rows by row 1. -/
def result (a0 : SA0.Idx → EReal) (a1 : SA1.Idx → BitVec 32) (a2 : SA2.Idx → EReal) (a3 : SA3.Idx → EReal)
    (r : Fin 1600000) (k : Fin 128) : EReal :=
  out (gathered (tab a0) (idxOf a1) 0) (gathered (tab a0) (idxOf a1) 1) (wOf a2) (bOf a3) r k

/-! ## The blocks of the two launches, as global edges -/

/-- Row r of block t of the first launch (80 blocks of 20000 edges). -/
def edge0 (t : Fin 80) (r : Fin 20000) : Fin 1600000 :=
  ⟨20000 * t.val + r.val, by have := t.isLt; have := r.isLt; omega⟩

/-- Row r of block t of the second launch (125 blocks of 12800 edges). -/
def edge1 (t : Fin 125) (r : Fin 12800) : Fin 1600000 :=
  ⟨12800 * t.val + r.val, by have := t.isLt; have := r.isLt; omega⟩

/-! ## The running maximum and normaliser, a block at a time -/

/-- One block's update of the running maximum: the old one against the block's own maximum (a fold of max from −∞). -/
def stepM {B : ℕ} (sc : Fin B → EReal) (mp : EReal) : EReal :=
  max mp ((Finset.univ : Finset (Fin B)).fold max ⊥ sc)

/-- One block's update of the running normaliser: the old one rescaled to the new maximum, plus the block's own terms. -/
def stepL {B : ℕ} (sc : Fin B → EReal) (mp lp : EReal) : EReal :=
  lp * Ideal.exp (mp - stepM sc mp) + ∑ r : Fin B, Ideal.exp (sc r - stepM sc mp)

/-- The running pair (maximum, normaliser) after blocks 0 … n, started from (−∞, 0). -/
def run (sc : Fin 80 → Fin 20000 → EReal) : (n : ℕ) → n < 80 → EReal × EReal
  | 0, h => (stepM (sc ⟨0, h⟩) ⊥, stepL (sc ⟨0, h⟩) ⊥ 0)
  | n + 1, h =>
    (stepM (sc ⟨n + 1, h⟩) (run sc n (Nat.lt_of_succ_lt h)).1,
     stepL (sc ⟨n + 1, h⟩) (run sc n (Nat.lt_of_succ_lt h)).1 (run sc n (Nat.lt_of_succ_lt h)).2)

end Cert.Spec

end
-- ==== Proof.ValDefs.lean ====
/-
  The four quantities the specification takes, read off the buffer contents V a launch is entered with, at the
  extended reals: the two gathered tables (the arrays the two row gathers wrote), the weight row and the bias.
-/
import proofs.«431320_j34256659153219_3_alg».proof.Proof.Spec
import proofs.«431320_j34256659153219_3_alg».proof.KernelIdeal
import Idealize.ShloMosaic.Lib.ValueIdx

set_option maxRecDepth 16384

noncomputable section

namespace Cert.KernelIdeal.Val

open Cert.KernelIdeal
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b))

/-- The gathered source rows. -/
def srcV (c : Dev nD) : Fin 1600000 → Fin 64 → EReal := fun r k => V c main_v4 (ix2 r k)
/-- The gathered target rows. -/
def tgtV (c : Dev nD) : Fin 1600000 → Fin 64 → EReal := fun r k => V c main_v5 (ix2 r k)
/-- The weight row. -/
def wV (c : Dev nD) : Fin 128 → EReal := fun k => V c main_arg2 (ix2 0 k)
/-- The bias. -/
def bV (c : Dev nD) : EReal := V c main_v6 (ix2 0 0)
/-- The scores of all edges at these contents. -/
def scoreV (c : Dev nD) : Fin 1600000 → EReal := Cert.Spec.score (srcV V c) (tgtV V c) (wV V c) (bV V c)

end Cert.KernelIdeal.Val

end
-- ==== Proof.Online.lean ====
/-
  The running (maximum, normaliser) pair over 80 blocks of 20000 real scores ends at the global maximum and the global
  normaliser: the block-at-a-time computation of a softmax's two statistics agrees with the one-pass definition.

  With every score a real number: after blocks 0 … n the running maximum is the real maximum μ of the scores seen, and
  the running normaliser is Σ exp (s − μ) over the scores seen. A step to a new maximum μ' multiplies the old sum by
  exp (μ − μ'), and exp (s − μ) · exp (μ − μ') = exp (s − μ'); from the start (−∞, 0) the factor is exp (−∞) = 0 against
  a zero sum.
-/
import proofs.«431320_j34256659153219_3_alg».proof.Proof.Spec
import Mathlib.Analysis.SpecialFunctions.Exp
import Mathlib.Algebra.BigOperators.Field
import Mathlib.Data.EReal.Basic
import Mathlib.Data.Finset.Fold

noncomputable section

namespace Cert.Spec

open Idealize.ShloMosaic Idealize.ShloMosaic.ValueIdx

/-! ## Folds of max and sums over a finite set of real scores -/

/-- The coercion of a finite real sum is the sum of the coercions. -/
private theorem coe_sum {ι : Type*} (S : Finset ι) (f : ι → ℝ) :
    ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- The maximum of the scores indexed by S, as a fold from −∞. -/
private def F {ι : Type*} (g : ι → ℝ) (S : Finset ι) : EReal := S.fold max ⊥ (fun i => (g i : EReal))

/-- The normaliser of the scores indexed by S against their own maximum. -/
private def L {ι : Type*} (g : ι → ℝ) (S : Finset ι) : EReal :=
  ∑ i ∈ S, Ideal.exp ((g i : EReal) - F g S)

/-- Over a nonempty set the maximum is a real number: it is above one real score and below +∞. -/
private theorem F_real {ι : Type*} (g : ι → ℝ) {S : Finset ι} (hS : S.Nonempty) :
    ∃ μ : ℝ, F g S = (μ : EReal) := by
  obtain ⟨a, ha⟩ := hS
  have h1 : F g S ≠ ⊥ := by
    have hle : (g a : EReal) ≤ F g S := (Finset.le_fold_max _).mpr (Or.inr ⟨a, ha, le_rfl⟩)
    intro h
    rw [h] at hle
    exact EReal.coe_ne_bot _ (le_bot_iff.mp hle)
  have h2 : F g S ≠ ⊤ := by
    have hlt : F g S < ⊤ := (Finset.fold_max_lt _).mpr ⟨bot_lt_top, fun x _ => EReal.coe_lt_top _⟩
    exact hlt.ne
  exact ⟨(F g S).toReal, (EReal.coe_toReal h2 h1).symm⟩

/-- The maximum over a union is the larger of the two maxima (both sides have the same upper bounds). -/
private theorem F_union {ι : Type*} [DecidableEq ι] (g : ι → ℝ) (S T : Finset ι) :
    max (F g S) (F g T) = F g (S ∪ T) := by
  refine eq_of_forall_ge_iff fun c => ?_
  simp only [F, max_le_iff, Finset.fold_max_le, Finset.mem_union]
  constructor
  · rintro ⟨⟨h0, h1⟩, _, h2⟩
    exact ⟨h0, fun x hx => hx.elim (h1 x) (h2 x)⟩
  · rintro ⟨h0, h⟩
    exact ⟨⟨h0, fun x hx => h x (Or.inl hx)⟩, h0, fun x hx => h x (Or.inr hx)⟩

/-- Rescaling the old normaliser from the old maximum μ to the new one μ' and adding the new terms gives the
normaliser of the union: exp (s − μ) · exp (μ − μ') = exp (s − μ'); with nothing seen yet both sides are 0. -/
private theorem L_union {ι : Type*} [DecidableEq ι] (g : ι → ℝ) (S T : Finset ι) (hd : Disjoint S T) :
    L g S * Ideal.exp (F g S - F g (S ∪ T)) + ∑ i ∈ T, Ideal.exp ((g i : EReal) - F g (S ∪ T))
      = L g (S ∪ T) := by
  have key : L g S * Ideal.exp (F g S - F g (S ∪ T))
      = ∑ i ∈ S, Ideal.exp ((g i : EReal) - F g (S ∪ T)) := by
    rcases S.eq_empty_or_nonempty with rfl | hS
    · simp [L]
    · obtain ⟨μ, hμ⟩ := F_real g hS
      obtain ⟨μ', hμ'⟩ := F_real g (S := S ∪ T) (hS.mono Finset.subset_union_left)
      rw [L, hμ, hμ']
      simp only [← EReal.coe_sub, Ideal.exp_coe, ← coe_sum, ← EReal.coe_mul]
      congr 1
      rw [Finset.sum_mul]
      refine Finset.sum_congr rfl fun i _ => ?_
      rw [← Real.exp_add]
      congr 1
      ring
  rw [key, L, Finset.sum_union hd]

/-! ## The blocks as sets of global edges -/

/-- The edges of block t. -/
private def blk (t : Fin 80) : Finset (Fin 1600000) := Finset.univ.image (edge0 t)

/-- The edges of the blocks before block n. -/
private def seen (n : ℕ) : Finset (Fin 1600000) := Finset.univ.filter (fun i => i.val < 20000 * n)

private theorem edge0_inj (t : Fin 80) : Function.Injective (edge0 t) := by
  intro r r' h
  have hv := congrArg Fin.val h
  simp only [edge0] at hv
  exact Fin.ext (by omega)

private theorem seen_succ (n : ℕ) (h : n < 80) : seen (n + 1) = seen n ∪ blk ⟨n, h⟩ := by
  ext i
  simp only [seen, blk, Finset.mem_filter, Finset.mem_univ, true_and, Finset.mem_union, Finset.mem_image]
  constructor
  · intro hi
    by_cases h' : i.val < 20000 * n
    · exact Or.inl h'
    · exact Or.inr ⟨⟨i.val - 20000 * n, by omega⟩, Fin.ext (by simp only [edge0]; omega)⟩
  · rintro (hi | ⟨r, rfl⟩)
    · omega
    · have := r.isLt
      simp only [edge0]
      omega

private theorem seen_disj (n : ℕ) (h : n < 80) : Disjoint (seen n) (blk ⟨n, h⟩) := by
  rw [Finset.disjoint_left]
  intro i hi hb
  simp only [seen, blk, Finset.mem_filter, Finset.mem_univ, true_and, Finset.mem_image] at hi hb
  obtain ⟨r, rfl⟩ := hb
  simp only [edge0] at hi
  omega

/-! ## One block's update, and the running pair -/

section
variable (g : Fin 1600000 → ℝ) (sc : Fin 80 → Fin 20000 → EReal)
  (hsc : ∀ t r, sc t r = ((g (edge0 t r) : ℝ) : EReal))
include hsc

private theorem blk_max (t : Fin 80) :
    (Finset.univ : Finset (Fin 20000)).fold max ⊥ (sc t) = F g (blk t) := by
  have hfun : sc t = (fun i => (g i : EReal)) ∘ edge0 t := funext fun r => hsc t r
  rw [hfun, F, blk, Finset.fold_image_idem]

private theorem blk_sum (t : Fin 80) (M : EReal) :
    ∑ r : Fin 20000, Ideal.exp (sc t r - M) = ∑ i ∈ blk t, Ideal.exp ((g i : EReal) - M) := by
  rw [blk, Finset.sum_image (fun x _ y _ h => edge0_inj t h)]
  exact Finset.sum_congr rfl fun r _ => by rw [hsc]

/-- One block's update takes the pair for a set S of earlier edges to the pair for S with the block added. -/
private theorem step_eq (t : Fin 80) (S : Finset (Fin 1600000)) (hd : Disjoint S (blk t)) :
    (stepM (sc t) (F g S), stepL (sc t) (F g S) (L g S)) = (F g (S ∪ blk t), L g (S ∪ blk t)) := by
  have hM : stepM (sc t) (F g S) = F g (S ∪ blk t) := by
    rw [stepM, blk_max g sc hsc, F_union]
  rw [stepL, hM, blk_sum g sc hsc, L_union g S (blk t) hd]

/-- After blocks 0 … n the running pair is the maximum and the normaliser of the edges below 20000 (n + 1). -/
private theorem run_inv : ∀ (n : ℕ) (h : n < 80), run sc n h = (F g (seen (n + 1)), L g (seen (n + 1)))
  | 0, h => by
    have h0 : seen 0 = ∅ := by
      ext i
      simp [seen]
    have e1 : F g (seen 0) = ⊥ := by rw [h0]; rfl
    have e2 : L g (seen 0) = 0 := by rw [h0]; rfl
    have hs := step_eq g sc hsc ⟨0, h⟩ (seen 0) (seen_disj 0 h)
    rw [← seen_succ 0 h, e1, e2] at hs
    rw [run]
    exact hs
  | n + 1, h => by
    rw [run, run_inv n (Nat.lt_of_succ_lt h), seen_succ (n + 1) h]
    dsimp only
    exact step_eq g sc hsc ⟨n + 1, h⟩ (seen (n + 1)) (seen_disj (n + 1) h)

end

/-- Scores that are real numbers everywhere, when the tables, the weights and the bias are. -/
theorem score_real (src tgt : Fin 1600000 → Fin 64 → EReal) (w : Fin 128 → EReal) (b : EReal)
    (hsrc : ∀ r k, ∃ x : ℝ, src r k = (x : EReal)) (htgt : ∀ r k, ∃ x : ℝ, tgt r k = (x : EReal))
    (hw : ∀ k, ∃ x : ℝ, w k = (x : EReal)) (hb : ∃ x : ℝ, b = (x : EReal)) :
    ∃ g : Fin 1600000 → ℝ, ∀ r, score src tgt w b r = (g r : EReal) := by
  have hemb : ∀ r k, ∃ x : ℝ, emb src tgt r k = (x : EReal) := by
    intro r k
    unfold emb
    split_ifs
    · exact hsrc _ _
    · exact htgt _ _
  choose e he using hemb
  choose fw hfw using hw
  obtain ⟨fb, hfb⟩ := hb
  refine ⟨fun r => (∑ k : Fin 128, e r k * fw k) + fb, fun r => ?_⟩
  rw [score, EReal.coe_add, coe_sum, hfb]
  congr 1
  exact Finset.sum_congr rfl fun k _ => by rw [he, hfw, EReal.coe_mul]

/-- The maximum of real scores is a real number (there is at least one edge). -/
theorem gmax_real (g : Fin 1600000 → ℝ) : ∃ μ : ℝ, gmax (fun i => (g i : EReal)) = (μ : EReal) := by
  exact F_real g ⟨⟨0, by norm_num⟩, Finset.mem_univ _⟩

/-- The normaliser of real scores against their maximum is a positive real number. -/
theorem gsum_pos (g : Fin 1600000 → ℝ) :
    ∃ z : ℝ, 0 < z ∧ gsum (fun i => (g i : EReal)) (gmax (fun i => (g i : EReal))) = (z : EReal) := by
  obtain ⟨μ, hμ⟩ := gmax_real g
  refine ⟨∑ i, Real.exp (g i - μ),
    Finset.sum_pos (fun i _ => Real.exp_pos _) ⟨⟨0, by norm_num⟩, Finset.mem_univ _⟩, ?_⟩
  rw [hμ, gsum, coe_sum]
  refine Finset.sum_congr rfl fun i _ => ?_
  show Ideal.exp ((g i : EReal) - (μ : EReal)) = _
  rw [← EReal.coe_sub, Ideal.exp_coe]

/-- After the last block the running pair is the global maximum and the global normaliser. -/
theorem run_last (g : Fin 1600000 → ℝ) (sc : Fin 80 → Fin 20000 → EReal)
    (hsc : ∀ t r, sc t r = ((g (edge0 t r) : ℝ) : EReal)) :
    run sc 79 (by norm_num)
      = (gmax (fun i => (g i : EReal)), gsum (fun i => (g i : EReal)) (gmax (fun i => (g i : EReal)))) := by
  have h80 : seen (79 + 1) = Finset.univ := by
    ext i
    have := i.isLt
    simp only [seen, Finset.mem_filter, Finset.mem_univ, true_and, iff_true]
    omega
  rw [run_inv g sc hsc 79 (by norm_num), h80]
  rfl

end Cert.Spec

end
-- ==== Proof.Reg0Val.lean ====
/-
  The first launch's two 1×1 outputs: the maximum of all 1,600,000 scores and the softmax normaliser against it, when
  every score is a real number. The launch writes both back once, at its last point, from the pair it has carried
  through its 80 points; that pair is the block-at-a-time recurrence of the specification.
-/
import proofs.«431320_j34256659153219_3_alg».proof.Proof.Reg0
import proofs.«431320_j34256659153219_3_alg».proof.Proof.ValDefs
import proofs.«431320_j34256659153219_3_alg».proof.Proof.Online
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

/-! ## Index bookkeeping of the layout operations -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Summing a `[20000, 128]` array along its second axis: the inserted index is `(p, k)`. -/
theorem lift_row (h : S20000x128.Reduces [1] S20000) (p : Fin 20000) (k : Fin 128) :
    h.lift (ix1 p) k = ix2 p k := by
  funext c
  apply Fin.ext
  match c with
  | ⟨0, _⟩ => rfl
  | ⟨1, _⟩ => rfl

/-- Reducing a `[20000, 1]` array along its first axis: the inserted index is `(p, 0)`. -/
theorem lift_col (h : S20000x1.Reduces [0] S1) (u : Fin 1) (p : Fin 20000) :
    h.lift (ix1 u) p = ix2 p u := by
  funext c
  apply Fin.ext
  match c with
  | ⟨0, _⟩ => rfl
  | ⟨1, _⟩ => rfl

/-! ## One point's payloads, entry by entry -/

section Step
variable (x0 x1 : Vec Ideal S20000x64 .f32) (x2 : Vec Ideal S1x128 .f32) (x3 mp lp : Vec Ideal S1x1 .f32)

/-- Entry k of row p of the two blocks side by side. -/
def rowEmb (p : Fin 20000) (k : Fin 128) : EReal :=
  if h : k.val < 64 then x0 (ix2 p ⟨k.val, h⟩) else x1 (ix2 p ⟨k.val - 64, by omega⟩)

/-- The score of row p of a block: the row against the weight row, plus the bias. -/
def rowScore (p : Fin 20000) : EReal :=
  (∑ k : Fin 128, rowEmb x0 x1 p k * x2 (ix2 0 k)) + x3 (ix2 0 0)

theorem concat_apply (p : Fin 20000) (k : Fin 128) :
    (concatenate S20000x128 1 [⟨S20000x64, x0⟩, ⟨S20000x64, x1⟩] concatenates_S20000x64_S20000x64_S20000x128_d1
      : Vec Ideal S20000x128 .f32) (ix2 p k) = rowEmb x0 x1 p k := by
  unfold rowEmb
  split
  · next h =>
    refine concatenate_pair_apply_left (t := S20000x128) (s₁ := S20000x64) (s₂ := S20000x64) _ _ _ _ _ rfl
      (ix2 p (⟨k.val, h⟩ : Fin 64)) fun b => ?_
    match b with
    | ⟨0, _⟩ => rfl
    | ⟨1, _⟩ => rfl
  · next h =>
    refine concatenate_pair_apply_right (t := S20000x128) (s₁ := S20000x64) (s₂ := S20000x64) _ _ _ _ _ rfl rfl
      (ix2 p (⟨k.val - 64, by omega⟩ : Fin 64)) (fun b hb => ?_) ?_
    · match b with
      | ⟨0, _⟩ => rfl
      | ⟨1, _⟩ => exact absurd rfl hb
    · show k.val - 64 + 64 = k.val
      omega

theorem pay4_apply (p : Fin 20000) :
    k0_pay4 (F := Ideal) x0 x1 x2 x3 (ix2 p 0) = rowScore x0 x1 x2 x3 p := by
  unfold k0_pay4 rowScore
  refine (addf_apply _ _ _).trans ?_
  refine congrArg₂ (· + ·) ?_ ?_
  · refine (shapeCast_a_a1_apply _ _ p 0).trans ?_
    refine (Ideal.multiReduction_add_single _ _ _ _ _ _).trans ?_
    refine Finset.sum_congr rfl fun k _ => ?_
    refine (congrArg _ (lift_row reduces_S20000x128_S20000 p k)).trans ?_
    refine (mulf_apply _ _ _).trans ?_
    refine congrArg₂ (· * ·) ?_ ?_
    · refine (concat_apply _ _ p k).trans ?_
      rw [shapeCast_self, shapeCast_self]
    · exact broadcastTo_1b_ab_apply _ _ p k
  · refine (broadcastTo_1b_ab_apply _ _ p 0).trans ?_
    rw [shapeCast_self]
end Step

section Step2
variable (x0 x1 : Vec Ideal S20000x64 .f32) (x2 : Vec Ideal S1x128 .f32) (x3 mp lp : Vec Ideal S1x1 .f32)

/-- The exponential of a vector, entry by entry. -/
theorem vexp_apply {s : Shape} {φ : FTy} (a : FVec Ideal s φ) (i : s.Idx) : exp a i = Ideal.exp (a i) := rfl

/-- The f32 pattern of −∞ is the extended real −∞. -/
theorem ofBits_neg_inf : (FloatOps.ofBits (F := Ideal) .f32 0xFF800000#32) = (⊥ : EReal) := by
  simp [Ideal.ofBits, Ideal.ieee]

theorem pay4_lift_col (p : Fin 20000) :
    k0_pay4 (F := Ideal) x0 x1 x2 x3 (reduces_S20000x1_S1.lift (ix1 0) p) = rowScore x0 x1 x2 x3 p :=
  (congrArg _ (lift_col reduces_S20000x1_S1 0 p)).trans (pay4_apply x0 x1 x2 x3 p)

/-- The new maximum: the old one against the fold of max over the block's scores. -/
theorem pay5_apply :
    k0_pay5 (F := Ideal) x0 x1 x2 x3 mp (ix2 0 0)
      = Cert.Spec.stepM (rowScore x0 x1 x2 x3) (mp (ix2 0 0)) := by
  unfold k0_pay5 Cert.Spec.stepM
  refine (maximumf_apply _ _ _).trans ?_
  refine congrArg (max (mp (ix2 0 0))) ?_
  refine (shapeCast_a_1a_apply _ _ 0 0).trans ?_
  refine (Ideal.multiReduction_maximumf_single _ _ _ _ _ _).trans ?_
  have hf : (k0_pay4 (F := Ideal) x0 x1 x2 x3) ∘ reduces_S20000x1_S1.lift (ix1 0) = rowScore x0 x1 x2 x3 :=
    funext fun p => pay4_lift_col x0 x1 x2 x3 p
  rw [hf, ofBits_neg_inf]
  rfl

/-- The new normaliser: the old one rescaled, plus the block's terms against the new maximum. -/
theorem pay6_apply :
    k0_pay6 (F := Ideal) x0 x1 x2 x3 mp mp lp (ix2 0 0)
      = Cert.Spec.stepL (rowScore x0 x1 x2 x3) (mp (ix2 0 0)) (lp (ix2 0 0)) := by
  unfold k0_pay6 Cert.Spec.stepL
  refine (congrFun (shapeCast_self _ _) _).trans ?_
  refine (addf_apply _ _ _).trans ?_
  refine congrArg₂ (· + ·) ?_ ?_
  · refine (mulf_apply _ _ _).trans ?_
    refine congrArg (lp (ix2 0 0) * ·) ?_
    refine (vexp_apply _ _).trans ?_
    refine congrArg Ideal.exp ?_
    refine (subf_apply _ _ _).trans ?_
    refine congrArg (mp (ix2 0 0) - ·) ?_
    exact pay5_apply x0 x1 x2 x3 mp
  · refine (shapeCast_a_1a_apply _ _ 0 0).trans ?_
    refine (Ideal.multiReduction_add_single _ _ _ _ _ _).trans ?_
    refine Finset.sum_congr rfl fun p _ => ?_
    refine (congrArg _ (lift_col reduces_S20000x1_S1 0 p)).trans ?_
    refine (vexp_apply _ _).trans ?_
    refine congrArg Ideal.exp ?_
    refine (subf_apply _ _ _).trans ?_
    refine congrArg₂ (· - ·) ?_ ?_
    · exact pay4_apply x0 x1 x2 x3 p
    · refine (broadcastTo_1b_ab_apply _ _ p 0).trans ?_
      exact pay5_apply x0 x1 x2 x3 mp

theorem newM_apply :
    newM (F := Ideal) x0 x1 x2 x3 mp (ix2 0 0) = Cert.Spec.stepM (rowScore x0 x1 x2 x3) (mp (ix2 0 0)) := by
  unfold newM k0_pay1
  refine (congrFun (shapeCast_self _ _) _).trans ?_
  exact pay5_apply x0 x1 x2 x3 mp

theorem newL_apply :
    newL (F := Ideal) x0 x1 x2 x3 mp lp (ix2 0 0)
      = Cert.Spec.stepL (rowScore x0 x1 x2 x3) (mp (ix2 0 0)) (lp (ix2 0 0)) := by
  unfold newL
  exact pay6_apply x0 x1 x2 x3 mp lp

theorem pay2_apply : k0_pay2 (F := Ideal) (ix2 0 0) = (⊥ : EReal) := by
  unfold k0_pay2
  refine (congrFun (shapeCast_self _ _) _).trans ?_
  exact ofBits_neg_inf

theorem pay3_apply : k0_pay3 (F := Ideal) (ix2 0 0) = (0 : EReal) := by
  unfold k0_pay3
  refine (congrFun (shapeCast_self _ _) _).trans ?_
  exact Ideal.ofBits_zero_f32
end Step2

/-! ## The blocks are rows of the arrays -/

section Blocks
variable (V : (c : Dev nD) → (b : Ref sig .tc) → Buf (Elt Ideal) ((c : Thread nD τ).loc b))

/-- The first launch has 80 points. -/
theorem lt80 (t : Fin cfg0.N) : t.val < 80 := lt_of_lt_of_eq t.isLt N_0

/-- Point t as a block number. -/
def blkNo (t : Fin cfg0.N) : Fin 80 := ⟨t.val, lt80 t⟩

/-- Where each window's block sits at point t: the two tables' blocks at block row t, the others at the origin. -/
theorem index0 : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) := by
  decide +kernel

/-- Row p of the first table's block at point t is row 20000 t + p of the table. -/
theorem iblk0_0_apply (c : Dev nD) (t : Fin cfg0.N) (p : Fin 20000) (q : Fin 64) :
    (iblk0 V c 0 t : Vec Ideal S20000x64 .f32) (ix2 p q) = V c main_v4 (ix2 (Cert.Spec.edge0 (blkNo t) p) q) := by
  have hi := (index0 t).1
  unfold iblk0
  rw [View.read_apply]
  show V c main_v4 _ = V c main_v4 _
  refine congrArg (V c main_v4) (funext fun a => Fin.ext ?_)
  match a with
  | ⟨0, _⟩ =>
    show win0_0.index t 0 * 20000 + 1 * p.val = 20000 * t.val + p.val
    rw [hi.1]; omega
  | ⟨1, _⟩ =>
    show win0_0.index t 1 * 64 + 1 * q.val = q.val
    rw [hi.2]; omega

/-- Row p of the second table's block at point t is row 20000 t + p of the table. -/
theorem iblk0_1_apply (c : Dev nD) (t : Fin cfg0.N) (p : Fin 20000) (q : Fin 64) :
    (iblk0 V c 1 t : Vec Ideal S20000x64 .f32) (ix2 p q) = V c main_v5 (ix2 (Cert.Spec.edge0 (blkNo t) p) q) := by
  have hi := (index0 t).2.1
  unfold iblk0
  rw [View.read_apply]
  show V c main_v5 _ = V c main_v5 _
  refine congrArg (V c main_v5) (funext fun a => Fin.ext ?_)
  match a with
  | ⟨0, _⟩ =>
    show win0_1.index t 0 * 20000 + 1 * p.val = 20000 * t.val + p.val
    rw [hi.1]; omega
  | ⟨1, _⟩ =>
    show win0_1.index t 1 * 64 + 1 * q.val = q.val
    rw [hi.2]; omega

/-- The weight row's block is the weight row at every point. -/
theorem iblk0_2_apply (c : Dev nD) (t : Fin cfg0.N) (k : Fin 128) :
    (iblk0 V c 2 t : Vec Ideal S1x128 .f32) (ix2 0 k) = V c main_arg2 (ix2 0 k) := by
  have hi := (index0 t).2.2.1
  unfold iblk0
  rw [View.read_apply]
  show V c main_arg2 _ = V c main_arg2 _
  refine congrArg (V c main_arg2) (funext fun a => Fin.ext ?_)
  match a with
  | ⟨0, _⟩ =>
    show win0_2.index t 0 * 1 + 1 * 0 = 0
    rw [hi.1]
  | ⟨1, _⟩ =>
    show win0_2.index t 1 * 128 + 1 * k.val = k.val
    rw [hi.2]; omega

/-- The bias's block is the bias at every point. -/
theorem iblk0_3_apply (c : Dev nD) (t : Fin cfg0.N) :
    (iblk0 V c 3 t : Vec Ideal S1x1 .f32) (ix2 0 0) = V c main_v6 (ix2 0 0) := by
  have hi := (index0 t).2.2.2
  unfold iblk0
  rw [View.read_apply]
  show V c main_v6 _ = V c main_v6 _
  refine congrArg (V c main_v6) (funext fun a => Fin.ext ?_)
  match a with
  | ⟨0, _⟩ =>
    show win0_3.index t 0 * 1 + 1 * 0 = 0
    rw [hi.1]
  | ⟨1, _⟩ =>
    show win0_3.index t 1 * 1 + 1 * 0 = 0
    rw [hi.2]
end Blocks

/-! ## The carried pair is the specification's running pair -/

section Run
variable (V : (c : Dev nD) → (b : Ref sig .tc) → Buf (Elt Ideal) ((c : Thread nD τ).loc b))

/-- The scores of block t, one per row. -/
def blockScores (c : Dev nD) : Fin 80 → Fin 20000 → EReal := fun t r => scoreV V c (Cert.Spec.edge0 t r)

/-- The row scores of point t's four blocks are the scores of the edges of block t. -/
theorem rowScore_blocks (c : Dev nD) (t : Fin cfg0.N) :
    rowScore (iblk0 V c 0 t) (iblk0 V c 1 t) (iblk0 V c 2 t) (iblk0 V c 3 t) = blockScores V c (blkNo t) := by
  funext p
  unfold rowScore blockScores scoreV Cert.Spec.score
  refine congrArg₂ (· + ·) (Finset.sum_congr rfl fun k _ => congrArg₂ (· * ·) ?_ ?_) ?_
  · unfold rowEmb Cert.Spec.emb srcV tgtV
    split
    · exact iblk0_0_apply V c t p _
    · exact iblk0_1_apply V c t p _
  · exact iblk0_2_apply V c t k
  · exact iblk0_3_apply V c t

/-- One point's step, read at the one entry of the pair. -/
theorem stepAt_apply (c : Dev nD) (t : Fin cfg0.N) (mp lp : Vec Ideal S1x1 .f32) :
    (stepAt V c t mp lp).1 (ix2 0 0) = Cert.Spec.stepM (blockScores V c (blkNo t)) (mp (ix2 0 0))
    ∧ (stepAt V c t mp lp).2 (ix2 0 0)
        = Cert.Spec.stepL (blockScores V c (blkNo t)) (mp (ix2 0 0)) (lp (ix2 0 0)) := by
  unfold stepAt
  refine ⟨?_, ?_⟩
  · refine (newM_apply _ _ _ _ mp).trans ?_
    rw [rowScore_blocks]
  · refine (newL_apply _ _ _ _ mp lp).trans ?_
    rw [rowScore_blocks]

/-- After point n the carried pair is the running pair after block n. -/
theorem scAt0_run (c : Dev nD) : ∀ (n : ℕ) (hn : n < cfg0.N),
    (scAt0 V c n hn).1 (ix2 0 0) = (Cert.Spec.run (blockScores V c) n (lt_of_lt_of_eq hn N_0)).1
    ∧ (scAt0 V c n hn).2 (ix2 0 0) = (Cert.Spec.run (blockScores V c) n (lt_of_lt_of_eq hn N_0)).2
  | 0, hn => by
    have h := stepAt_apply V c ⟨0, hn⟩ (k0_pay2 (F := Ideal)) (k0_pay3 (F := Ideal))
    rw [pay2_apply, pay3_apply] at h
    exact h
  | n + 1, hn => by
    have ih := scAt0_run c n (Nat.lt_of_succ_lt hn)
    have h := stepAt_apply V c ⟨n + 1, hn⟩ (scAt0 V c n (Nat.lt_of_succ_lt hn)).1 (scAt0 V c n (Nat.lt_of_succ_lt hn)).2
    rw [ih.1, ih.2] at h
    exact h
end Run

/-! ## The two outputs are written back once, at the last point -/

section Outputs
variable (V : (c : Dev nD) → (b : Ref sig .tc) → Buf (Elt Ideal) ((c : Thread nD τ).loc b))

/-- A 1×1 array has one index. -/
theorem idx11_eq (x y : S1x1.Idx) : x = y := by
  funext a
  match a with
  | ⟨0, _⟩ => exact Subsingleton.elim (α := Fin 1) _ _
  | ⟨1, _⟩ => exact Subsingleton.elim (α := Fin 1) _ _

theorem h79 : 79 < cfg0.N := by rw [show cfg0.N = 80 from N_0]; norm_num

/-- The last point. -/
def tLast : Fin cfg0.N := ⟨79, h79⟩

/-- A point that writes the outputs back is the last point. -/
theorem eq_tLast_4 (t : Fin cfg0.N) (hf : (cfg0.win 4).flush t = true) : t = tLast := by
  have h1 := (flush0_4 t).mp hf
  have h2 := lt80 t
  exact Fin.ext (by show t.val = 79; omega)

theorem eq_tLast_5 (t : Fin cfg0.N) (hf : (cfg0.win 5).flush t = true) : t = tLast := by
  have h1 := (flush0_5 t).mp hf
  have h2 := lt80 t
  exact Fin.ext (by show t.val = 79; omega)

/-- What the last point writes back into the first output is the carried maximum. -/
theorem flushed0_4 (c : Dev nD) (t : Fin cfg0.N) (hf : (cfg0.win 4).flush t = true) :
    (dat0 V c).flushed 4 t = ((cfg0.win 4).blk t).view.read (Elt Ideal) (scAt0 V c 79 h79).1 := by
  obtain rfl := eq_tLast_4 t hf
  funext j
  rw [View.read_apply]
  show ((dat0 V c).after 4 tLast) _ = (scAt0 V c 79 _).1 _
  rw [after0_4]
  exact congrArg (scAt0 V c 79 h79).1 (idx11_eq _ _)

/-- What the last point writes back into the second output is the carried normaliser. -/
theorem flushed0_5 (c : Dev nD) (t : Fin cfg0.N) (hf : (cfg0.win 5).flush t = true) :
    (dat0 V c).flushed 5 t = ((cfg0.win 5).blk t).view.read (Elt Ideal) (scAt0 V c 79 h79).2 := by
  obtain rfl := eq_tLast_5 t hf
  funext j
  rw [View.read_apply]
  show ((dat0 V c).after 5 tLast) _ = (scAt0 V c 79 _).2 _
  rw [after0_5]
  exact congrArg (scAt0 V c 79 h79).2 (idx11_eq _ _)

/-- The last point's block of either output is the whole 1×1 array. -/
theorem rect_last : ∀ a : Fin 2,
    (win0_4.index tLast a * win0_4.size a = 0 ∧ win0_4.xsize (grid0.coords tLast) a = 1)
    ∧ (win0_5.index tLast a * win0_5.size a = 0 ∧ win0_5.xsize (grid0.coords tLast) a = 1) := by
  decide +kernel

theorem arr0_4 (c : Dev nD) : (dat0 V c).arrAt 4 cfg0.N = (scAt0 V c 79 h79).1 :=
  (dat0 V c).arrAt_eq_of_cover 4 _ (flushed0_4 V c) fun i =>
    ⟨tLast, (flush0_4 tLast).mpr rfl, by
      show i ∈ ((View.whole main_v7_0).slice (win0_4.rect tLast)).set
      rw [View.set_slice_whole, Rect.mem_set_unit]
      intro a
      have hr := (rect_last a).1
      have hi : (i a : ℕ) < 1 := by
        match a with
        | ⟨0, _⟩ => exact (i 0).isLt
        | ⟨1, _⟩ => exact (i 1).isLt
      show win0_4.index tLast a * win0_4.size a ≤ (i a : ℕ)
        ∧ (i a : ℕ) < win0_4.index tLast a * win0_4.size a + win0_4.xsize (grid0.coords tLast) a
      rw [hr.1, hr.2]
      omega⟩

theorem arr0_5 (c : Dev nD) : (dat0 V c).arrAt 5 cfg0.N = (scAt0 V c 79 h79).2 :=
  (dat0 V c).arrAt_eq_of_cover 5 _ (flushed0_5 V c) fun i =>
    ⟨tLast, (flush0_5 tLast).mpr rfl, by
      show i ∈ ((View.whole main_v7_1).slice (win0_5.rect tLast)).set
      rw [View.set_slice_whole, Rect.mem_set_unit]
      intro a
      have hr := (rect_last a).2
      have hi : (i a : ℕ) < 1 := by
        match a with
        | ⟨0, _⟩ => exact (i 0).isLt
        | ⟨1, _⟩ => exact (i 1).isLt
      show win0_5.index tLast a * win0_5.size a ≤ (i a : ℕ)
        ∧ (i a : ℕ) < win0_5.index tLast a * win0_5.size a + win0_5.xsize (grid0.coords tLast) a
      rw [hr.1, hr.2]
      omega⟩
end Outputs

variable (V : (c : Dev nD) → (b : Ref sig .tc) → Buf (Elt Ideal) ((c : Thread nD τ).loc b))

/-- The two outputs after the first launch, when the scores are real. -/
theorem stats0 (c : Dev nD) (g : Fin 1600000 → ℝ) (hg : ∀ r, scoreV V c r = (g r : EReal)) :
    ((dat0 V c).arrAt 4 cfg0.N : S1x1.Idx → EReal) (ix2 0 0) = Cert.Spec.gmax (scoreV V c)
    ∧ ((dat0 V c).arrAt 5 cfg0.N : S1x1.Idx → EReal) (ix2 0 0)
        = Cert.Spec.gsum (scoreV V c) (Cert.Spec.gmax (scoreV V c)) := by
  have hsc : ∀ t r, blockScores V c t r = ((g (Cert.Spec.edge0 t r) : ℝ) : EReal) := fun t r => hg _
  have hgfun : scoreV V c = fun i => (g i : EReal) := funext hg
  have hrun : Cert.Spec.run (blockScores V c) 79 (lt_of_lt_of_eq h79 N_0)
      = (Cert.Spec.gmax (scoreV V c), Cert.Spec.gsum (scoreV V c) (Cert.Spec.gmax (scoreV V c))) := by
    rw [hgfun]
    exact Cert.Spec.run_last g (blockScores V c) hsc
  have e1 : (Cert.Spec.run (blockScores V c) 79 (lt_of_lt_of_eq h79 N_0)).1 = Cert.Spec.gmax (scoreV V c) := by
    rw [hrun]
  have e2 : (Cert.Spec.run (blockScores V c) 79 (lt_of_lt_of_eq h79 N_0)).2
      = Cert.Spec.gsum (scoreV V c) (Cert.Spec.gmax (scoreV V c)) := by
    rw [hrun]
  have h := scAt0_run V c 79 h79
  exact ⟨((congrFun (arr0_4 V c) (ix2 0 0)).trans h.1).trans e1,
    ((congrFun (arr0_5 V c) (ix2 0 0)).trans h.2).trans e2⟩

end Cert.KernelIdeal.Val

end
-- ==== Proof.Reg1Val.lean ====
/-
  The second launch's result array, entry by entry: at (r, k) it holds the softmax weight of edge r — taken with the
  maximum M and the normaliser Z the launch reads from its two 1×1 inputs — times entry k of edge r's embedding.
  Each of the 125 points writes back one block of 12800 rows; the blocks tile the array.
-/
import proofs.«431320_j34256659153219_3_alg».proof.Proof.Reg1
import proofs.«431320_j34256659153219_3_alg».proof.Proof.ValDefs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

/-- Entry k of row p of the two blocks set side by side: the first block on columns 0 … 63, the second on 64 … 127. -/
def catRow (x0 x1 : Vec Ideal S12800x64 .f32) (p : Fin 12800) (k : Fin 128) : EReal :=
  if h : k.val < 64 then x0 (ix2 p ⟨k.val, h⟩) else x1 (ix2 p ⟨k.val - 64, by omega⟩)

/-- The concatenation along the columns, read at (p, k). -/
theorem cat_apply (x0 x1 : Vec Ideal S12800x64 .f32) (p : Fin 12800) (k : Fin 128) :
    concatenate S12800x128 1 [⟨S12800x64, x0⟩, ⟨S12800x64, x1⟩] concatenates_S12800x64_S12800x64_S12800x128_d1 (ix2 p k)
      = catRow x0 x1 p k := by
  unfold catRow
  split
  · next h =>
    exact concatenate_pair_apply_left 1 x0 x1 _ (ix2 p k) rfl (ix2 p ⟨k.val, h⟩)
      (fun b => by match b with | ⟨0, _⟩ => rfl | ⟨1, _⟩ => rfl)
  · next h =>
    exact concatenate_pair_apply_right 1 x0 x1 _ (ix2 p k) rfl rfl (ix2 p ⟨k.val - 64, by omega⟩)
      (fun b hb => by match b with | ⟨0, _⟩ => rfl | ⟨1, _⟩ => exact absurd rfl hb)
      (by show k.val - 64 + 64 = k.val; omega)

/-- The sum along a row of a 12800 × 128 array, read at row p. -/
theorem rowsum_apply (x : FVec Ideal S12800x128 .f32) (p : Fin 12800) :
    multiReduction (F := Ideal) .add [1] S12800 x 0x00000000#32 reduces_S12800x128_S12800 (.inl rfl) rfl (ix1 p)
      = ∑ k : Fin 128, x (ix2 p k) := by
  refine (Ideal.multiReduction_add_single x _ reduces_S12800x128_S12800 _ _ (ix1 p)).trans ?_
  show ∑ k : Fin 128, _ = _
  refine Finset.sum_congr rfl fun k _ => congrArg x ?_
  exact Shape.idx_ext₂ rfl rfl

/-- A column vector made of a length-12800 vector reads it row by row. -/
theorem col_apply (x : FVec Ideal S12800 .f32) (p : Fin 12800) :
    shapeCast S12800x1 x shapeCasts_S12800_S12800x1 (ix2 p 0) = x (ix1 p) := by
  refine shapeCast_apply x _ (ix2 p 0) (ix1 p) ?_
  rw [Shape.rowMajor_val_one, Shape.rowMajor_val_two]
  show p.val = p.val * 1 + 0
  omega

/-- A 1 × 1 array spread down a column reads its one entry. -/
theorem spread11_apply (x : Vec Ideal S1x1 .f32) (p : Fin 12800) :
    broadcastTo S12800x1 x broadcasts_S1x1_S12800x1 (ix2 p 0) = x (ix2 0 0) :=
  broadcastTo_apply x _ (ix2 p 0) (ix2 0 0) (fun a => by match a with | ⟨0, _⟩ => rfl | ⟨1, _⟩ => rfl)

/-- A row spread over all rows reads the row's entry. -/
theorem spreadRow_apply (x : Vec Ideal S1x128 .f32) (p : Fin 12800) (k : Fin 128) :
    broadcastTo S12800x128 x broadcasts_S1x128_S12800x128 (ix2 p k) = x (ix2 0 k) :=
  broadcastTo_apply x _ (ix2 p k) (ix2 0 k) (fun a => by match a with | ⟨0, _⟩ => rfl | ⟨1, _⟩ => rfl)

/-- A column spread over all columns reads the column's entry. -/
theorem spreadCol_apply (x : FVec Ideal S12800x1 .f32) (p : Fin 12800) (k : Fin 128) :
    broadcastTo S12800x128 x broadcasts_S12800x1_S12800x128 (ix2 p k) = x (ix2 p 0) :=
  broadcastTo_apply x _ (ix2 p k) (ix2 p 0) (fun a => by match a with | ⟨0, _⟩ => rfl | ⟨1, _⟩ => rfl)

/-- The exponential of an array, read at an index. -/
theorem vexp_apply {s : Shape} {φ : FTy} (a : FVec Ideal s φ) (i : s.Idx) : exp a i = Ideal.exp (a i) := rfl

/-- What a point stores at (p, q) of its block, from its six input blocks. -/
theorem pay_apply (x0 x1 : Vec Ideal S12800x64 .f32) (x2 : Vec Ideal S1x128 .f32) (x3 x4 x5 : Vec Ideal S1x1 .f32)
    (p : Fin 12800) (q : Fin 128) :
    (k1_pay1 x0 x1 x2 x3 x4 x5 : S12800x128.Idx → EReal) (ix2 p q)
      = Ideal.div (Ideal.exp (((∑ k : Fin 128, catRow x0 x1 p k * x2 (ix2 0 k)) + x3 (ix2 0 0)) - x4 (ix2 0 0))) (x5 (ix2 0 0))
          * catRow x0 x1 p q := by
  unfold k1_pay1
  simp only [shapeCast_self]
  rw [mulf_apply, cat_apply, spreadCol_apply, divf_apply, spread11_apply]
  rw [vexp_apply, subf_apply, spread11_apply, addf_apply, spread11_apply, col_apply, rowsum_apply]
  have key : ∀ k : Fin 128,
      mulf (F := Ideal) (φ := .f32) (concatenate S12800x128 1 [⟨S12800x64, shapeCast S12800x64 x0 shapeCasts_S12800x64_S12800x64⟩,
          ⟨S12800x64, shapeCast S12800x64 x1 shapeCasts_S12800x64_S12800x64⟩] concatenates_S12800x64_S12800x64_S12800x128_d1)
        (broadcastTo S12800x128 x2 broadcasts_S1x128_S12800x128) (ix2 p k) = catRow x0 x1 p k * x2 (ix2 0 k) := fun k => by
    rw [mulf_apply, cat_apply, spreadRow_apply, shapeCast_self, shapeCast_self]
  rw [Finset.sum_congr rfl fun k _ => key k, shapeCast_self, shapeCast_self]

/-! ## The input blocks, read through their windows -/

/-- The windows' block indices over the grid: the two row windows and the result window sit at block t along the rows,
    the four small windows at block 0. -/
theorem idx1_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- A point of the grid as a block number below 125. -/
def blockNo (t : Fin cfg1.N) : Fin 125 := ⟨t.val, lt_of_lt_of_eq t.isLt N_1⟩

/-- The source-row block at point t holds the rows of block t. -/
theorem iblk_src (c : Dev nD) (t : Fin cfg1.N) (p : Fin 12800) (q : Fin 64) :
    (iblk1 V c 0 t : S12800x64.Idx → EReal) (ix2 p q) = srcV V c (Cert.Spec.edge1 (blockNo t) p) q := by
  obtain ⟨⟨e0, e1⟩, -⟩ := idx1_facts t
  unfold iblk1 srcV
  rw [View.read_apply]
  show V c main_v4 _ = V c main_v4 _
  congr 1
  refine Shape.idx_ext₂ ?_ ?_
  · show win1_0.index t (0 : Fin 2) * 12800 + 1 * p.val = 12800 * t.val + p.val
    rw [e0]; omega
  · show win1_0.index t (1 : Fin 2) * 64 + 1 * q.val = q.val
    rw [e1]; omega

/-- The target-row block at point t holds the rows of block t. -/
theorem iblk_tgt (c : Dev nD) (t : Fin cfg1.N) (p : Fin 12800) (q : Fin 64) :
    (iblk1 V c 1 t : S12800x64.Idx → EReal) (ix2 p q) = tgtV V c (Cert.Spec.edge1 (blockNo t) p) q := by
  obtain ⟨-, ⟨e0, e1⟩, -⟩ := idx1_facts t
  unfold iblk1 tgtV
  rw [View.read_apply]
  show V c main_v5 _ = V c main_v5 _
  congr 1
  refine Shape.idx_ext₂ ?_ ?_
  · show win1_1.index t (0 : Fin 2) * 12800 + 1 * p.val = 12800 * t.val + p.val
    rw [e0]; omega
  · show win1_1.index t (1 : Fin 2) * 64 + 1 * q.val = q.val
    rw [e1]; omega

/-- The weight-row block at every point is the whole weight row. -/
theorem iblk_w (c : Dev nD) (t : Fin cfg1.N) (k : Fin 128) :
    (iblk1 V c 2 t : S1x128.Idx → EReal) (ix2 0 k) = wV V c k := by
  obtain ⟨-, -, ⟨e0, e1⟩, -⟩ := idx1_facts t
  unfold iblk1 wV
  rw [View.read_apply]
  show V c main_arg2 _ = V c main_arg2 _
  congr 1
  refine Shape.idx_ext₂ ?_ ?_
  · show win1_2.index t (0 : Fin 2) * 1 + 1 * 0 = 0
    rw [e0]
  · show win1_2.index t (1 : Fin 2) * 128 + 1 * k.val = k.val
    rw [e1]; omega

/-- The bias block at every point is the bias. -/
theorem iblk_b (c : Dev nD) (t : Fin cfg1.N) :
    (iblk1 V c 3 t : S1x1.Idx → EReal) (ix2 0 0) = bV V c := by
  obtain ⟨-, -, -, ⟨e0, e1⟩, -⟩ := idx1_facts t
  unfold iblk1 bV
  rw [View.read_apply]
  show V c main_v6 _ = V c main_v6 _
  congr 1
  refine Shape.idx_ext₂ ?_ ?_
  · show win1_3.index t (0 : Fin 2) * 1 + 1 * 0 = 0
    rw [e0]
  · show win1_3.index t (1 : Fin 2) * 1 + 1 * 0 = 0
    rw [e1]

/-- The maximum's block at every point is the 1 × 1 array's entry. -/
theorem iblk_M (c : Dev nD) (t : Fin cfg1.N) :
    (iblk1 V c 4 t : S1x1.Idx → EReal) (ix2 0 0) = (V c main_v7_0 : S1x1.Idx → EReal) (ix2 0 0) := by
  obtain ⟨-, -, -, -, ⟨e0, e1⟩, -⟩ := idx1_facts t
  unfold iblk1
  rw [View.read_apply]
  show V c main_v7_0 _ = V c main_v7_0 _
  congr 1
  refine Shape.idx_ext₂ ?_ ?_
  · show win1_4.index t (0 : Fin 2) * 1 + 1 * 0 = 0
    rw [e0]
  · show win1_4.index t (1 : Fin 2) * 1 + 1 * 0 = 0
    rw [e1]

/-- The normaliser's block at every point is the 1 × 1 array's entry. -/
theorem iblk_Z (c : Dev nD) (t : Fin cfg1.N) :
    (iblk1 V c 5 t : S1x1.Idx → EReal) (ix2 0 0) = (V c main_v7_1 : S1x1.Idx → EReal) (ix2 0 0) := by
  obtain ⟨-, -, -, -, -, ⟨e0, e1⟩, -⟩ := idx1_facts t
  unfold iblk1
  rw [View.read_apply]
  show V c main_v7_1 _ = V c main_v7_1 _
  congr 1
  refine Shape.idx_ext₂ ?_ ?_
  · show win1_5.index t (0 : Fin 2) * 1 + 1 * 0 = 0
    rw [e0]
  · show win1_5.index t (1 : Fin 2) * 1 + 1 * 0 = 0
    rw [e1]

/-! ## What a point writes back, and the whole array -/

/-- A row of the two input blocks side by side is the embedding of the block's edge. -/
theorem catRow_blk (c : Dev nD) (t : Fin cfg1.N) (p : Fin 12800) (k : Fin 128) :
    catRow (iblk1 V c 0 t) (iblk1 V c 1 t) p k
      = Cert.Spec.emb (srcV V c) (tgtV V c) (Cert.Spec.edge1 (blockNo t) p) k := by
  unfold catRow Cert.Spec.emb
  split
  · exact iblk_src V c t p _
  · exact iblk_tgt V c t p _

/-- The result as one function on the whole 1,600,000 × 128 index set. -/
def G1 (c : Dev nD) (M Z : EReal) : S1600000x128.Idx → EReal := fun i =>
  Cert.Spec.outWith (srcV V c) (tgtV V c) (wV V c) (bV V c) M Z ⟨(i 0).val, idx2_lt0 i⟩ ⟨(i 1).val, idx2_lt1 i⟩

/-- Entry (p, q) of the result block of point t sits at row 12800 · t + p, column q of the array. -/
theorem emb6 (t : Fin cfg1.N) (p : Fin 12800) (q : Fin 128) :
    (((cfg1.win 6).blk t).view.emb (ix2 p q) : S1600000x128.Idx) = ix2 (Cert.Spec.edge1 (blockNo t) p) q := by
  obtain ⟨-, -, -, -, -, -, e0, e1⟩ := idx1_facts t
  refine Shape.idx_ext₂ ?_ ?_
  · show win1_6.index t (0 : Fin 2) * 12800 + 1 * p.val = 12800 * t.val + p.val
    rw [e0]; omega
  · show win1_6.index t (1 : Fin 2) * 128 + 1 * q.val = q.val
    rw [e1]; omega

/-- What point t writes back is block t of the result function. -/
theorem flushed1_eq (c : Dev nD) (M Z : EReal) (hM : (V c main_v7_0 : S1x1.Idx → EReal) (ix2 0 0) = M)
    (hZ : (V c main_v7_1 : S1x1.Idx → EReal) (ix2 0 0) = Z) (t : Fin cfg1.N) :
    (dat1 V c).flushed 6 t = ((cfg1.win 6).blk t).view.read (Elt Ideal) (G1 V c M Z) := by
  show (cfg1.win 6).cut (grid1.coords t) ((dat1 V c).after 6 t) = _
  rw [after1_6]
  funext j
  obtain ⟨p, q, rfl⟩ : ∃ (p : Fin 12800) (q : Fin 128), j = ix2 p q := ⟨j 0, j 1, eq_ix2 j⟩
  rw [View.read_apply]
  show pay1 V c t (ix2 p q) = G1 V c M Z (((cfg1.win 6).blk t).view.emb (ix2 p q))
  rw [emb6]
  unfold pay1
  rw [pay_apply, iblk_b, iblk_M, iblk_Z, hM, hZ, catRow_blk,
    Finset.sum_congr rfl fun k _ => (by rw [catRow_blk, iblk_w] :
      catRow (iblk1 V c 0 t) (iblk1 V c 1 t) p k * (iblk1 V c 2 t : S1x128.Idx → EReal) (ix2 0 k)
        = Cert.Spec.emb (srcV V c) (tgtV V c) (Cert.Spec.edge1 (blockNo t) p) k * wV V c k)]
  rfl

/-- Membership in the result block of point t, axis by axis. -/
theorem mem_blk6 (t : Fin cfg1.N) (i : S1600000x128.Idx) :
    i ∈ ((cfg1.win 6).blk t).view.set ↔ ∀ a : Fin 2, win1_6.index t a * S12800x128.size a ≤ (i a).val
      ∧ (i a).val < win1_6.index t a * S12800x128.size a + S12800x128.size a := by
  show i ∈ ((View.whole main_v8).slice (win1_6.rect t)).set ↔ _
  rw [View.set_slice_whole, Rect.mem_set_unit]
  exact Iff.rfl

/-- Every index of the array lies in the block of the point numbered by its row divided by 12800. -/
theorem cover6 (i : S1600000x128.Idx) :
    ∃ t : Fin cfg1.N, (cfg1.win 6).flush t = true ∧ i ∈ ((cfg1.win 6).blk t).view.set := by
  have h0 : (i 0).val < 1600000 := idx2_lt0 i
  have h1 : (i 1).val < 128 := idx2_lt1 i
  have hN : (i 0).val / 12800 < cfg1.N := by rw [show cfg1.N = 125 from N_1]; omega
  refine ⟨⟨(i 0).val / 12800, hN⟩, flush1_6 _, ?_⟩
  obtain ⟨-, -, -, -, -, -, e0, e1⟩ := idx1_facts ⟨(i 0).val / 12800, hN⟩
  rw [mem_blk6]
  intro a
  match a with
  | ⟨0, _⟩ =>
    show win1_6.index ⟨(i 0).val / 12800, hN⟩ (0 : Fin 2) * 12800 ≤ (i 0).val
      ∧ (i 0).val < win1_6.index ⟨(i 0).val / 12800, hN⟩ (0 : Fin 2) * 12800 + 12800
    rw [e0]; show (i 0).val / 12800 * 12800 ≤ (i 0).val ∧ (i 0).val < (i 0).val / 12800 * 12800 + 12800; omega
  | ⟨1, _⟩ =>
    show win1_6.index ⟨(i 0).val / 12800, hN⟩ (1 : Fin 2) * 128 ≤ (i 1).val
      ∧ (i 1).val < win1_6.index ⟨(i 0).val / 12800, hN⟩ (1 : Fin 2) * 128 + 128
    rw [e1]; omega

/-- Every entry of the result array after the second launch. -/
theorem out1_apply (c : Dev nD) (M Z : EReal) (hM : (V c main_v7_0 : S1x1.Idx → EReal) (ix2 0 0) = M)
    (hZ : (V c main_v7_1 : S1x1.Idx → EReal) (ix2 0 0) = Z) (r : Fin 1600000) (k : Fin 128) :
    ((dat1 V c).arrAt 6 cfg1.N : S1600000x128.Idx → EReal) (ix2 r k)
      = Cert.Spec.outWith (srcV V c) (tgtV V c) (wV V c) (bV V c) M Z r k := by
  rw [(dat1 V c).arrAt_eq_of_cover 6 (G1 V c M Z) (fun t _ => flushed1_eq V c M Z hM hZ t) cover6]
  rfl

end Cert.KernelIdeal.Val

end
-- ==== Proof.LibRowGather.lean ====
/-
  `stablehlo.gather` as jnp's `x[idx]` lowers it for a table `x : [N, D]` and a list of M row indices carried as a column
  `[M, 1]`: offset axis 1, collapsed slice axis 0, start index map [0], index vector axis 1, slices of one whole row.
  Result element (i, k) is the table's element (r, k) at the row r the start index `idx[i, 0]` names, read as a signed
  integer and clamped into [0, N − 1].
-/
import Idealize.ShloMosaic.Lib.ValueIdx

noncomputable section

namespace Cert.LibRowGather

open Idealize.ShloMosaic Idealize.ShloMosaic.ValueIdx

variable {α : Type}

/-- Those dimension numbers; their conditions `wf` are decided on a program's literal shapes. -/
abbrev rowDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- THE GATHER READ AT (i, k): the table at the clamped start row and column k. -/
theorem gather_rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowDims N D M wf) x idx (ix2 i k)
      = x (ix2 ⟨min (idx (ix2 i (0 : Fin 1))).toInt.toNat (N - 1), by omega⟩ k) := by
  unfold Host.gather
  congr 1
  -- axis 0 is collapsed (no offset coordinate) and carries the clamped start row
  have h0 : (rowDims N D M wf).start (ix2 i k) idx (0 : Fin 2) + (rowDims N D M wf).batchCoord (ix2 i k) (0 : Fin 2)
      + (rowDims N D M wf).offCoord (ix2 i k) (0 : Fin 2) = min (idx (ix2 i (0 : Fin 1))).toInt.toNat (N - 1) := by
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (show (0 : Fin 2) ∈ (rowDims N D M wf).startIndexMap from List.mem_singleton.mpr rfl)]
    have hsi : (rowDims N D M wf).siIdx (ix2 i k) ⟨List.idxOf (0 : Fin 2) (rowDims N D M wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  -- axis 1 is the offset axis: no start, the result's own column
  have h1 : (rowDims N D M wf).start (ix2 i k) idx (1 : Fin 2) + (rowDims N D M wf).batchCoord (ix2 i k) (1 : Fin 2)
      + (rowDims N D M wf).offCoord (ix2 i k) (1 : Fin 2) = k.val := by
    rw [GatherDims.batchCoord_eq_zero _ _ _ List.not_mem_nil]
    unfold GatherDims.start
    rw [dif_neg (show (1 : Fin 2) ∉ (rowDims N D M wf).startIndexMap from
      fun h => Nat.one_ne_zero (congrArg Fin.val (List.mem_singleton.mp h)))]
    simp only [Nat.add_zero, Nat.zero_add]
    unfold GatherDims.offCoord
    rw [dif_pos (show (1 : Fin 2) ∈ (rowDims N D M wf).sKept from (GatherDims.mem_sKept _ _).mpr
      ⟨fun h => Nat.one_ne_zero (congrArg Fin.val (List.mem_singleton.mp h)), List.not_mem_nil⟩)]
    rfl
  funext a
  refine Fin.ext ?_
  match a with
  | ⟨0, _⟩ => exact h0
  | ⟨1, _⟩ => exact h1

end Cert.LibRowGather

end
-- ==== Proof.HostVal.lean ====
/-
  What the host operations before the first launch leave, under the precondition: the two gathered tables are the
  node table's rows at the (wrapped, clamped) index words — the fill the kernel's gather would put on an out-of-range
  index never happens, because the precondition keeps every index word in [−100000, 100000) —; the weight row and the
  bias are the arguments'; and every entry of the node table, the weight row and the bias is a real number.
-/
import proofs.«431320_j34256659153219_3_alg».proof.Proof.Gen.KernelIdeal.Regions
import proofs.«431320_j34256659153219_3_alg».proof.Proof.ValDefs
import proofs.«431320_j34256659153219_3_alg».proof.Proof.LibRowGather
import proofs.«431320_j34256659153219_3_alg».proof.Proof.Gen.Pre_finite_inputs
import proofs.«431320_j34256659153219_3_alg».proof.Defs
import Idealize.ShloMosaic.Lib.StableHlo.Run
import Idealize.ShloMosaic.Lib.StableHlo.Predicate
import Idealize.ShloMosaic.Lib.ReduceAll
import Idealize.ShloMosaic.Lib.ValueIdx
import Idealize.ShloMosaic.Lib.ValueLayout
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-! ## One row lookup as a function of the table and the index vector -/

/-- The index words after one wrap of the negative ones by the table's 100000 rows. -/
def wrapV (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- The wrapped words as a column. -/
def colV (v : IVec S1600000 32) : IVec S1600000x1 32 :=
  broadcastInDim S1600000x1 ![0] bcast_S1600000_S1600000x1_0 (wrapV v)

/-- The two bound checks of a column of words, entry by entry: 0 ≤ word and word ≤ 99999. -/
def chkC (col : IVec S1600000x1 32) : IVec S1600000x1 1 :=
  andi (cmpi .sge col (broadcastInDim S1600000x1 ![] bcast_S_S1600000x1 (constantI S_ 32 0#32)))
    (cmpi .sle col (broadcastInDim S1600000x1 ![0, 1] bcast_S1x1_S1600000x1_0_1
      (broadcastInDim S1x1 ![1] bcast_S1_S1x1_1 (constantI S1 32 99999#32))))

/-- The validity mask of a column of words: 1 at r when word r lies in [0, 99999]. -/
def maskC (col : IVec S1600000x1 32) : IVec S1600000 1 :=
  Host.reduce IntOp.andi (chkC col) (constantI S_ 1 1#1) reducesTo_S1600000x1_S1600000_d1 h_S_

/-- The rows a column of words looks up: the gathered row where the mask is 1, the fill pattern elsewhere. -/
def takeC (x : FVec Ideal S100000x64 .f32) (col : IVec S1600000x1 32) : FVec Ideal S1600000x64 .f32 :=
  select (broadcastInDim S1600000x64 ![0] bcast_S1600000_S1600000x64_0 (maskC col))
    (Host.gather gather_S100000x64_S1600000x1_S1600000x64_1_0_n_n_0_1_164 x col)
    (broadcastInDim S1600000x64 ![] bcast_S_S1600000x64 (constant (F := Ideal) S_ .f32 0x7FC00000#32))

/-- The mask and the looked-up rows of an index vector. -/
def maskV (v : IVec S1600000 32) : IVec S1600000 1 := maskC (colV v)
def takeV (x : FVec Ideal S100000x64 .f32) (v : IVec S1600000 32) : FVec Ideal S1600000x64 .f32 := takeC x (colV v)

/-! ## The wrapped index word stays inside the table -/

theorem toInt_add_wrap (w : BitVec 32) (h0 : -100000 ≤ w.toInt) (hn : w.toInt < 0) :
    (w + 100000#32).toInt = w.toInt + 100000 := by
  have h32 := w.isLt
  simp only [BitVec.toInt_eq_toNat_cond, BitVec.toNat_add, BitVec.toNat_ofNat] at *
  split at h0 <;> split <;> omega

/-- A word in [−100000, 100000), wrapped once, lies in [0, 99999]. -/
theorem wrap_range (w : BitVec 32) (h0 : -100000 ≤ w.toInt) (h1 : w.toInt < 100000) :
    0 ≤ (Cert.Spec.wrapIdx w).toInt ∧ (Cert.Spec.wrapIdx w).toInt ≤ 99999 := by
  unfold Cert.Spec.wrapIdx
  by_cases hn : w.toInt < 0
  · have hs : w.slt 0#32 = true := by simp [BitVec.slt, hn]
    rw [if_pos hs, toInt_add_wrap w h0 hn]; omega
  · have hs : ¬ (w.slt 0#32 = true) := by simp [BitVec.slt, hn]
    rw [if_neg hs]; omega

theorem sge_zero_of (x : BitVec 32) (h : 0 ≤ x.toInt) : IntOp.cmpi .sge x 0#32 = 1#1 := by
  simp [IntOp.cmpi, BitVec.sle, h]

theorem sle_top_of (x : BitVec 32) (h : x.toInt ≤ 99999) : IntOp.cmpi .sle x 99999#32 = 1#1 := by
  have e : (99999#32 : BitVec 32).toInt = 99999 := by decide
  simp [IntOp.cmpi, BitVec.sle, e, h]

/-! ## The lookup read at an index -/

theorem wrapV_apply (v : IVec S1600000 32) (r : Fin 1600000) :
    wrapV v (ix1 r) = Cert.Spec.wrapIdx (v (ix1 r)) := by
  show Scalar.select (IntOp.cmpi .slt (v (ix1 r)) 0#32) (IntOp.addi (v (ix1 r)) 100000#32) (v (ix1 r)) = _
  unfold Scalar.select IntOp.cmpi IntOp.addi Cert.Spec.wrapIdx
  by_cases h : (v (ix1 r)).slt 0#32 <;> simp [h]

theorem colV_apply (v : IVec S1600000 32) (r : Fin 1600000) (q : Fin 1) :
    colV v (ix2 r q) = wrapV v (ix1 r) := by
  unfold colV
  exact broadcastInDim_apply _ _ _ _ (ix1 r) (fun a => by
    match a with
    | ⟨0, _⟩ => exact (if_neg (show ¬ ((1600000 : Nat) = 1) by decide)).symm)

/-- A left fold of and from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

section
variable (v : IVec S1600000 32)
  (hv : ∀ r : Fin 1600000, -100000 ≤ (v (ix1 r)).toInt ∧ (v (ix1 r)).toInt < 100000)
include hv

/-- With every word in [−100000, 100000) both bound checks hold at every entry of the column. -/
theorem mask_elem (i : S1600000x1.Idx) :
    chkC (colV v) i = 1#1 := by
  obtain ⟨p, q, rfl⟩ : ∃ (p : Fin 1600000) (q : Fin 1), i = ix2 p q := ⟨i 0, i 1, eq_ix2 i⟩
  show IntOp.andi (IntOp.cmpi .sge (colV v (ix2 p q)) 0#32) (IntOp.cmpi .sle (colV v (ix2 p q)) 99999#32) = 1#1
  rw [colV_apply, wrapV_apply]
  obtain ⟨h0, h1⟩ := wrap_range _ (hv p).1 (hv p).2
  rw [sge_zero_of _ h0, sle_top_of _ h1]
  rfl

/-- So the validity mask is all ones. -/
theorem maskV_apply (j : S1600000.Idx) : maskV v j = 1#1 := by
  unfold maskV maskC
  rw [Host.reduce_eq_foldl]
  exact foldl_andi_ones _ (mask_elem v hv) _

/-- The lookup at (r, k): the table's entry k of the row the r-th word names. -/
theorem takeV_apply (x : FVec Ideal S100000x64 .f32) (r : Fin 1600000) (k : Fin 64) :
    takeV x v (ix2 r k) = x (ix2 (Cert.Spec.rowOf (v (ix1 r))) k) := by
  unfold takeV takeC
  rw [select_apply]
  have hm : broadcastInDim S1600000x64 ![0] bcast_S1600000_S1600000x64_0 (maskC (colV v)) (ix2 r k) = 1#1 := by
    rw [broadcastInDim_apply _ _ _ (ix2 r k) (ix1 r) (fun a => by
      match a with
      | ⟨0, _⟩ => exact (if_neg (show ¬ ((1600000 : Nat) = 1) by decide)).symm)]
    exact maskV_apply v hv _
  rw [hm, select_one]
  have hg := Cert.LibRowGather.gather_rows_apply (N := 100000) (D := 64) (M := 1600000) (by decide)
    gather_S100000x64_S1600000x1_S1600000x64_1_0_n_n_0_1_164_wf x (colV v) r k
  refine (show Host.gather gather_S100000x64_S1600000x1_S1600000x64_1_0_n_n_0_1_164 x (colV v) (ix2 r k)
    = Host.gather (Cert.LibRowGather.rowDims 100000 64 1600000
        gather_S100000x64_S1600000x1_S1600000x64_1_0_n_n_0_1_164_wf) x (colV v) (ix2 r k) from rfl).trans (hg.trans ?_)
  refine congrArg (fun t => x (ix2 t k)) (Fin.ext ?_)
  show min (colV v (ix2 r (0 : Fin 1))).toInt.toNat (100000 - 1) = min (Cert.Spec.wrapIdx (v (ix1 r))).toInt.toNat 99999
  rw [colV_apply, wrapV_apply]

end

/-! ## The precondition, read back -/

instance subsingleton_scalar_idx : Subsingleton Cert.Pre_finite_inputs.S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ y : ℝ, x = (y : EReal) := by
  have ht : Ideal.ofBits .f32 0x7F800000#32 = (⊤ : EReal) := by simp [Ideal.ofBits, Ideal.ieee]
  rw [ht] at h
  simp only [Ideal.cmp, StableHlo.Predicate.ofBool_eq_one_iff, decide_eq_true_eq] at h
  have h1 : x ≠ ⊤ := fun e => by rw [e] at h; simp at h
  have h2 : x ≠ ⊥ := fun e => by rw [e] at h; simp at h
  exact ⟨x.toReal, (EReal.coe_toReal h1 h2).symm⟩

/-- The four conjuncts of the precondition, each at every index. -/
theorem pre_parts (hpre : Cert.Pre_KernelIdeal m) (c : Dev nD) :
    ((∀ i, ∃ y : ℝ, m ((c.tc : Thread nD τ).loc main_arg0) i = (y : EReal))
      ∧ (∀ i, ∃ y : ℝ, m ((c.tc : Thread nD τ).loc main_arg2) i = (y : EReal))
      ∧ (∀ i, ∃ y : ℝ, m ((c.tc : Thread nD τ).loc main_arg3) i = (y : EReal)))
    ∧ (∀ i, -100000 ≤ (m ((c.tc : Thread nD τ).loc main_arg1) i : BitVec 32).toInt
          ∧ (m ((c.tc : Thread nD τ).loc main_arg1) i : BitVec 32).toInt < 100000) := by
  have e := congrFun (hpre c) ix0
  unfold Cert.Pre_finite_inputs.fn Cert.Pre_finite_inputs.fn_part1 at e
  simp only [andi, IntOp.andi_eq_one] at e
  obtain ⟨⟨⟨h0, h2⟩, h3⟩, h1⟩ := e
  refine ⟨⟨fun i => ?_, fun i => ?_, fun i => ?_⟩, fun i => ?_⟩
  · exact real_of_abs_lt _ (Host.reduce_andi_all _ _ _ _ ix0 h0 i)
  · exact real_of_abs_lt _ (Host.reduce_andi_all _ _ _ _ ix0 h2 i)
  · exact real_of_abs_lt _ (Host.reduce_andi_all _ _ _ _ ix0 h3 i)
  · have hi := Host.reduce_andi_all _ _ _ _ ix0 h1 i
    have hi' : IntOp.andi (IntOp.cmpi .sge (m ((c.tc : Thread nD τ).loc main_arg1) i : BitVec 32) 4294867296#32)
        (IntOp.cmpi .slt (m ((c.tc : Thread nD τ).loc main_arg1) i : BitVec 32) 100000#32) = 1#1 := hi
    obtain ⟨ha, hb⟩ := IntOp.andi_eq_one.1 hi'
    have e0 : (4294867296#32 : BitVec 32).toInt = -100000 := by decide
    have e1 : (100000#32 : BitVec 32).toInt = 100000 := by decide
    simp only [IntOp.cmpi, StableHlo.Predicate.ofBool_eq_one_iff, BitVec.sle, BitVec.slt, decide_eq_true_eq, e0, e1] at ha hb
    exact ⟨ha, hb⟩

/-! ## What the host stretches leave, as terms over the contents they start from -/

/-- The bias buffer after its stretch: the one-entry vector reshaped to 1×1. -/
theorem bias_term (W : Valuation τ sig (Elt Ideal)) :
    StableHlo.after (hostOps0_3 (F := Ideal)) W (Proc.devRef .tc main_v6)
      = shapeCast S1x1 (W (Proc.devRef .tc main_arg3)) shapeCasts_S1_S1x1 := by
  after_results
  rfl

/-- Row 0 of the index array, cut out and flattened. -/
theorem row0_term (W : Valuation τ sig (Elt Ideal)) :
    StableHlo.after (hostOps0 (F := Ideal)) W (Proc.devRef .tc main_v1)
      = shapeCast S1600000 (extractStridedSlice S1x1600000 ![0, 0] (W (Proc.devRef .tc main_arg1))
          slices_S2x1600000_S1x1600000_0_0) shapeCasts_S1x1600000_S1600000 := by
  after_results
  rfl

/-- Row 1 of the index array, cut out and flattened. -/
theorem row1_term (W : Valuation τ sig (Elt Ideal)) :
    StableHlo.after (hostOps0 (F := Ideal)) W (Proc.devRef .tc main_v3)
      = shapeCast S1600000 (extractStridedSlice S1x1600000 ![1, 0] (W (Proc.devRef .tc main_arg1))
          slices_S2x1600000_S1x1600000_1_0) shapeCasts_S1x1600000_S1600000 := by
  after_results
  rfl

/-- The flattened row 0 at r is the index array at (0, r). -/
theorem row0_read (A : IVec S2x1600000 32) (r : Fin 1600000) :
    shapeCast S1600000 (extractStridedSlice S1x1600000 ![0, 0] A slices_S2x1600000_S1x1600000_0_0)
      shapeCasts_S1x1600000_S1600000 (ix1 r) = A (ix2 0 r) := by
  rw [shapeCast_apply _ _ (ix1 r) (ix2 (0 : Fin 1) r) (by
    rw [Shape.rowMajor_val_two, Shape.rowMajor_val_one]
    show 0 * 1600000 + r.val = r.val
    omega)]
  exact extractStridedSlice_apply _ _ _ _ (ix2 0 r) (fun a => by
    match a with
    | ⟨0, _⟩ => rfl
    | ⟨1, _⟩ => exact (Nat.zero_add _).symm)

/-- The flattened row 1 at r is the index array at (1, r). -/
theorem row1_read (A : IVec S2x1600000 32) (r : Fin 1600000) :
    shapeCast S1600000 (extractStridedSlice S1x1600000 ![1, 0] A slices_S2x1600000_S1x1600000_1_0)
      shapeCasts_S1x1600000_S1600000 (ix1 r) = A (ix2 1 r) := by
  rw [shapeCast_apply _ _ (ix1 r) (ix2 (0 : Fin 1) r) (by
    rw [Shape.rowMajor_val_two, Shape.rowMajor_val_one]
    show 0 * 1600000 + r.val = r.val
    omega)]
  exact extractStridedSlice_apply _ _ _ _ (ix2 1 r) (fun a => by
    match a with
    | ⟨0, _⟩ => rfl
    | ⟨1, _⟩ => exact (Nat.zero_add _).symm)

/-- Operations run one list after another. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, StableHlo.after_cons, ih]

/-- A list of operations run as five consecutive pieces of lengths 8, 9, 1, 1 and the rest. -/
theorem after_split5 (L : List (HloOp τ sig (Elt Ideal))) (V : Valuation τ sig (Elt Ideal)) :
    StableHlo.after L V = StableHlo.after (List.drop 1 (List.drop 1 (List.drop 9 (List.drop 8 L))))
      (StableHlo.after (List.take 1 (List.drop 1 (List.drop 9 (List.drop 8 L))))
        (StableHlo.after (List.take 1 (List.drop 9 (List.drop 8 L)))
          (StableHlo.after (List.take 9 (List.drop 8 L)) (StableHlo.after (List.take 8 L) V)))) := by
  rw [← after_append, ← after_append, ← after_append, ← after_append, List.take_append_drop,
    List.take_append_drop, List.take_append_drop, List.take_append_drop]

/-! ### The stretch of lookup 0, cut in five: the wrapped column; the bound checks; the and-reduce; the gather; the select -/

set_option maxHeartbeats 4000000 in
theorem take0_A (W : Valuation τ sig (Elt Ideal)) :
    StableHlo.after (List.take 8 (hostOps0_1 (F := Ideal))) W (Proc.devRef .tc main_call0_v5) = colV (W (Proc.devRef .tc main_v1))
    ∧ StableHlo.after (List.take 8 (hostOps0_1 (F := Ideal))) W (Proc.devRef .tc main_arg0) = W (Proc.devRef .tc main_arg0) := by
  simp only [hostOps0_1, List.drop_succ_cons, List.drop_zero, List.take_succ_cons, List.take_zero]
  refine ⟨?_, ?_⟩
  · after_results
    rfl
  · after_results

set_option maxHeartbeats 4000000 in
theorem take0_B (W : Valuation τ sig (Elt Ideal)) :
    StableHlo.after (List.take 9 (List.drop 8 (hostOps0_1 (F := Ideal)))) W (Proc.devRef .tc main_call0_v11) = chkC (W (Proc.devRef .tc main_call0_v5))
    ∧ StableHlo.after (List.take 9 (List.drop 8 (hostOps0_1 (F := Ideal)))) W (Proc.devRef .tc main_call0_c_3) = constantI S_ 1 1#1
    ∧ StableHlo.after (List.take 9 (List.drop 8 (hostOps0_1 (F := Ideal)))) W (Proc.devRef .tc main_call0_v5) = W (Proc.devRef .tc main_call0_v5)
    ∧ StableHlo.after (List.take 9 (List.drop 8 (hostOps0_1 (F := Ideal)))) W (Proc.devRef .tc main_arg0) = W (Proc.devRef .tc main_arg0) := by
  simp only [hostOps0_1, List.drop_succ_cons, List.drop_zero, List.take_succ_cons, List.take_zero]
  refine ⟨?_, ?_, ?_, ?_⟩
  · after_results
    rfl
  · after_results
    rfl
  · after_results
  · after_results

set_option maxHeartbeats 4000000 in
theorem take0_R (W : Valuation τ sig (Elt Ideal)) :
    StableHlo.after (List.take 1 (List.drop 9 (List.drop 8 (hostOps0_1 (F := Ideal))))) W (Proc.devRef .tc main_call0_v12)
      = Host.reduce IntOp.andi (W (Proc.devRef .tc main_call0_v11)) (W (Proc.devRef .tc main_call0_c_3)) reducesTo_S1600000x1_S1600000_d1 h_S_
    ∧ StableHlo.after (List.take 1 (List.drop 9 (List.drop 8 (hostOps0_1 (F := Ideal))))) W (Proc.devRef .tc main_call0_v5) = W (Proc.devRef .tc main_call0_v5)
    ∧ StableHlo.after (List.take 1 (List.drop 9 (List.drop 8 (hostOps0_1 (F := Ideal))))) W (Proc.devRef .tc main_arg0) = W (Proc.devRef .tc main_arg0) := by
  simp only [hostOps0_1, List.drop_succ_cons, List.drop_zero, List.take_succ_cons, List.take_zero]
  refine ⟨?_, ?_, ?_⟩
  · after_results
    simp only [cast_cast, cast_eq]
  · after_results
  · after_results

set_option maxHeartbeats 4000000 in
theorem take0_G (W : Valuation τ sig (Elt Ideal)) :
    StableHlo.after (List.take 1 (List.drop 1 (List.drop 9 (List.drop 8 (hostOps0_1 (F := Ideal)))))) W (Proc.devRef .tc main_call0_v13)
      = Host.gather gather_S100000x64_S1600000x1_S1600000x64_1_0_n_n_0_1_164 (W (Proc.devRef .tc main_arg0)) (W (Proc.devRef .tc main_call0_v5))
    ∧ StableHlo.after (List.take 1 (List.drop 1 (List.drop 9 (List.drop 8 (hostOps0_1 (F := Ideal)))))) W (Proc.devRef .tc main_call0_v12) = W (Proc.devRef .tc main_call0_v12) := by
  simp only [hostOps0_1, List.drop_succ_cons, List.drop_zero, List.take_succ_cons, List.take_zero]
  refine ⟨?_, ?_⟩
  · after_results
    rfl
  · after_results

set_option maxHeartbeats 4000000 in
theorem take0_D (W : Valuation τ sig (Elt Ideal)) :
    StableHlo.after (List.drop 1 (List.drop 1 (List.drop 9 (List.drop 8 (hostOps0_1 (F := Ideal)))))) W (Proc.devRef .tc main_v4)
      = select (broadcastInDim S1600000x64 ![0] bcast_S1600000_S1600000x64_0 (W (Proc.devRef .tc main_call0_v12))) (W (Proc.devRef .tc main_call0_v13))
          (broadcastInDim S1600000x64 ![] bcast_S_S1600000x64 (constant (F := Ideal) S_ .f32 0x7FC00000#32)) := by
  simp only [hostOps0_1, List.drop_succ_cons, List.drop_zero, List.take_succ_cons, List.take_zero]
  after_results
  rfl

/-- The result buffer of lookup 0 after its stretch, as the lookup of the table by the index vector it starts from. -/
theorem take0_term (W : Valuation τ sig (Elt Ideal)) :
    StableHlo.after (hostOps0_1 (F := Ideal)) W (Proc.devRef .tc main_v4)
      = takeV (W (Proc.devRef .tc main_arg0)) (W (Proc.devRef .tc main_v1)) := by
  rw [after_split5, take0_D, (take0_G _).1, (take0_G _).2, (take0_R _).1, (take0_R _).2.1, (take0_R _).2.2,
    (take0_B _).1, (take0_B _).2.1, (take0_B _).2.2.1, (take0_B _).2.2.2, (take0_A W).1, (take0_A W).2]
  rfl

/-! ### The stretch of lookup 1, cut in five: the wrapped column; the bound checks; the and-reduce; the gather; the select -/

set_option maxHeartbeats 4000000 in
theorem take1_A (W : Valuation τ sig (Elt Ideal)) :
    StableHlo.after (List.take 8 (hostOps0_2 (F := Ideal))) W (Proc.devRef .tc main_call1_v5) = colV (W (Proc.devRef .tc main_v3))
    ∧ StableHlo.after (List.take 8 (hostOps0_2 (F := Ideal))) W (Proc.devRef .tc main_arg0) = W (Proc.devRef .tc main_arg0) := by
  simp only [hostOps0_2, List.drop_succ_cons, List.drop_zero, List.take_succ_cons, List.take_zero]
  refine ⟨?_, ?_⟩
  · after_results
    rfl
  · after_results

set_option maxHeartbeats 4000000 in
theorem take1_B (W : Valuation τ sig (Elt Ideal)) :
    StableHlo.after (List.take 9 (List.drop 8 (hostOps0_2 (F := Ideal)))) W (Proc.devRef .tc main_call1_v11) = chkC (W (Proc.devRef .tc main_call1_v5))
    ∧ StableHlo.after (List.take 9 (List.drop 8 (hostOps0_2 (F := Ideal)))) W (Proc.devRef .tc main_call1_c_3) = constantI S_ 1 1#1
    ∧ StableHlo.after (List.take 9 (List.drop 8 (hostOps0_2 (F := Ideal)))) W (Proc.devRef .tc main_call1_v5) = W (Proc.devRef .tc main_call1_v5)
    ∧ StableHlo.after (List.take 9 (List.drop 8 (hostOps0_2 (F := Ideal)))) W (Proc.devRef .tc main_arg0) = W (Proc.devRef .tc main_arg0) := by
  simp only [hostOps0_2, List.drop_succ_cons, List.drop_zero, List.take_succ_cons, List.take_zero]
  refine ⟨?_, ?_, ?_, ?_⟩
  · after_results
    rfl
  · after_results
    rfl
  · after_results
  · after_results

set_option maxHeartbeats 4000000 in
theorem take1_R (W : Valuation τ sig (Elt Ideal)) :
    StableHlo.after (List.take 1 (List.drop 9 (List.drop 8 (hostOps0_2 (F := Ideal))))) W (Proc.devRef .tc main_call1_v12)
      = Host.reduce IntOp.andi (W (Proc.devRef .tc main_call1_v11)) (W (Proc.devRef .tc main_call1_c_3)) reducesTo_S1600000x1_S1600000_d1 h_S_
    ∧ StableHlo.after (List.take 1 (List.drop 9 (List.drop 8 (hostOps0_2 (F := Ideal))))) W (Proc.devRef .tc main_call1_v5) = W (Proc.devRef .tc main_call1_v5)
    ∧ StableHlo.after (List.take 1 (List.drop 9 (List.drop 8 (hostOps0_2 (F := Ideal))))) W (Proc.devRef .tc main_arg0) = W (Proc.devRef .tc main_arg0) := by
  simp only [hostOps0_2, List.drop_succ_cons, List.drop_zero, List.take_succ_cons, List.take_zero]
  refine ⟨?_, ?_, ?_⟩
  · after_results
    simp only [cast_cast, cast_eq]
  · after_results
  · after_results

set_option maxHeartbeats 4000000 in
theorem take1_G (W : Valuation τ sig (Elt Ideal)) :
    StableHlo.after (List.take 1 (List.drop 1 (List.drop 9 (List.drop 8 (hostOps0_2 (F := Ideal)))))) W (Proc.devRef .tc main_call1_v13)
      = Host.gather gather_S100000x64_S1600000x1_S1600000x64_1_0_n_n_0_1_164 (W (Proc.devRef .tc main_arg0)) (W (Proc.devRef .tc main_call1_v5))
    ∧ StableHlo.after (List.take 1 (List.drop 1 (List.drop 9 (List.drop 8 (hostOps0_2 (F := Ideal)))))) W (Proc.devRef .tc main_call1_v12) = W (Proc.devRef .tc main_call1_v12) := by
  simp only [hostOps0_2, List.drop_succ_cons, List.drop_zero, List.take_succ_cons, List.take_zero]
  refine ⟨?_, ?_⟩
  · after_results
    rfl
  · after_results

set_option maxHeartbeats 4000000 in
theorem take1_D (W : Valuation τ sig (Elt Ideal)) :
    StableHlo.after (List.drop 1 (List.drop 1 (List.drop 9 (List.drop 8 (hostOps0_2 (F := Ideal)))))) W (Proc.devRef .tc main_v5)
      = select (broadcastInDim S1600000x64 ![0] bcast_S1600000_S1600000x64_0 (W (Proc.devRef .tc main_call1_v12))) (W (Proc.devRef .tc main_call1_v13))
          (broadcastInDim S1600000x64 ![] bcast_S_S1600000x64 (constant (F := Ideal) S_ .f32 0x7FC00000#32)) := by
  simp only [hostOps0_2, List.drop_succ_cons, List.drop_zero, List.take_succ_cons, List.take_zero]
  after_results
  rfl

/-- The result buffer of lookup 1 after its stretch, as the lookup of the table by the index vector it starts from. -/
theorem take1_term (W : Valuation τ sig (Elt Ideal)) :
    StableHlo.after (hostOps0_2 (F := Ideal)) W (Proc.devRef .tc main_v5)
      = takeV (W (Proc.devRef .tc main_arg0)) (W (Proc.devRef .tc main_v3)) := by
  rw [after_split5, take1_D, (take1_G _).1, (take1_G _).2, (take1_R _).1, (take1_R _).2.1, (take1_R _).2.2,
    (take1_B _).1, (take1_B _).2.1, (take1_B _).2.2.1, (take1_B _).2.2.2, (take1_A W).1, (take1_A W).2]
  rfl

/-! ## The statements -/

/-- What the first launch is entered with: the launch memory after the four host stretches, read at a reference. -/
abbrev VH : (c : Dev nD) → (b : Ref sig .tc) → Buf (Elt Ideal) ((c : Thread nD τ).loc b) := fun c b => Gen.V4 m c b

/-- The four argument arrays of core c. -/
abbrev a0 (c : Dev nD) : Cert.Spec.SA0.Idx → EReal := m ((c.tc : Thread nD τ).loc main_arg0)
abbrev a1 (c : Dev nD) : Cert.Spec.SA1.Idx → BitVec 32 := m ((c.tc : Thread nD τ).loc main_arg1)
abbrev a2 (c : Dev nD) : Cert.Spec.SA2.Idx → EReal := m ((c.tc : Thread nD τ).loc main_arg2)
abbrev a3 (c : Dev nD) : Cert.Spec.SA3.Idx → EReal := m ((c.tc : Thread nD τ).loc main_arg3)

/-- The gathered source rows the first launch is entered with. -/
theorem srcV_eq (hpre : Cert.Pre_KernelIdeal m) (c : Dev nD) :
    srcV (VH m) c = Cert.Spec.gathered (Cert.Spec.tab (a0 m c)) (Cert.Spec.idxOf (a1 m c)) 0 := by
  funext r k
  show Gen.V4 m c main_v4 (ix2 r k) = a0 m c (ix2 (Cert.Spec.rowOf (a1 m c (ix2 0 r))) k)
  rw [V4_of m c main_v4 (by decide), V3_of m c main_v4 (by decide)]
  have e2 : Gen.V2 m c main_v4 = takeV (Gen.V1 m c main_arg0) (Gen.V1 m c main_v1) := take0_term (Gen.V1 m c)
  have e0 : Gen.V1 m c main_arg0 = a0 m c := V1_of m c main_arg0 (by decide)
  have e1 : Gen.V1 m c main_v1 = shapeCast S1600000 (extractStridedSlice S1x1600000 ![0, 0] (a1 m c)
      slices_S2x1600000_S1x1600000_0_0) shapeCasts_S1x1600000_S1600000 := row0_term (Gen.V0 m c)
  rw [e2, e0, e1]
  have hv : ∀ r : Fin 1600000, -100000 ≤ ((shapeCast S1600000 (extractStridedSlice S1x1600000 ![0, 0] (a1 m c)
      slices_S2x1600000_S1x1600000_0_0) shapeCasts_S1x1600000_S1600000) (ix1 r)).toInt
      ∧ ((shapeCast S1600000 (extractStridedSlice S1x1600000 ![0, 0] (a1 m c)
      slices_S2x1600000_S1x1600000_0_0) shapeCasts_S1x1600000_S1600000) (ix1 r)).toInt < 100000 := fun r => by
    rw [row0_read]; exact (pre_parts m hpre c).2 (ix2 0 r)
  rw [takeV_apply _ hv, row0_read]

/-- The gathered target rows. -/
theorem tgtV_eq (hpre : Cert.Pre_KernelIdeal m) (c : Dev nD) :
    tgtV (VH m) c = Cert.Spec.gathered (Cert.Spec.tab (a0 m c)) (Cert.Spec.idxOf (a1 m c)) 1 := by
  funext r k
  show Gen.V4 m c main_v5 (ix2 r k) = a0 m c (ix2 (Cert.Spec.rowOf (a1 m c (ix2 1 r))) k)
  rw [V4_of m c main_v5 (by decide)]
  have e3 : Gen.V3 m c main_v5 = takeV (Gen.V2 m c main_arg0) (Gen.V2 m c main_v3) := take1_term (Gen.V2 m c)
  have e0 : Gen.V2 m c main_arg0 = a0 m c := by
    rw [V2_of m c main_arg0 (by decide), V1_of m c main_arg0 (by decide)]
  have e1 : Gen.V2 m c main_v3 = shapeCast S1600000 (extractStridedSlice S1x1600000 ![1, 0] (a1 m c)
      slices_S2x1600000_S1x1600000_1_0) shapeCasts_S1x1600000_S1600000 := by
    rw [V2_of m c main_v3 (by decide)]; exact row1_term (Gen.V0 m c)
  rw [e3, e0, e1]
  have hv : ∀ r : Fin 1600000, -100000 ≤ ((shapeCast S1600000 (extractStridedSlice S1x1600000 ![1, 0] (a1 m c)
      slices_S2x1600000_S1x1600000_1_0) shapeCasts_S1x1600000_S1600000) (ix1 r)).toInt
      ∧ ((shapeCast S1600000 (extractStridedSlice S1x1600000 ![1, 0] (a1 m c)
      slices_S2x1600000_S1x1600000_1_0) shapeCasts_S1x1600000_S1600000) (ix1 r)).toInt < 100000 := fun r => by
    rw [row1_read]; exact (pre_parts m hpre c).2 (ix2 1 r)
  rw [takeV_apply _ hv, row1_read]

/-- The weight row is the argument's. -/
theorem wV_eq (c : Dev nD) : wV (VH m) c = Cert.Spec.wOf (a2 m c) := by
  funext k
  show Gen.V4 m c main_arg2 (ix2 0 k) = m ((c.tc : Thread nD τ).loc main_arg2) (ix2 0 k)
  rw [V4_of m c main_arg2 (by decide), V3_of m c main_arg2 (by decide), V2_of m c main_arg2 (by decide),
    V1_of m c main_arg2 (by decide)]

/-- The bias, reshaped to 1×1, is the argument's one entry. -/
theorem bV_eq (c : Dev nD) : bV (VH m) c = Cert.Spec.bOf (a3 m c) := by
  show Gen.V4 m c main_v6 (ix2 0 0) = a3 m c (ix1 0)
  have e : Gen.V4 m c main_v6 = shapeCast S1x1 (Gen.V3 m c main_arg3) shapeCasts_S1_S1x1 := bias_term (Gen.V3 m c)
  have e3 : Gen.V3 m c main_arg3 = a3 m c := by
    rw [V3_of m c main_arg3 (by decide), V2_of m c main_arg3 (by decide), V1_of m c main_arg3 (by decide)]
  rw [e, e3]
  exact shapeCast_apply _ _ (ix2 0 0) (ix1 0) (by rw [Shape.rowMajor_val_two, Shape.rowMajor_val_one]; rfl)

/-- Under the precondition every entry of the node table, the weight row and the bias is a real number. -/
theorem a0_real (hpre : Cert.Pre_KernelIdeal m) (c : Dev nD) (i : Cert.Spec.SA0.Idx) : ∃ x : ℝ, a0 m c i = (x : EReal) := by
  exact (pre_parts m hpre c).1.1 i
theorem a2_real (hpre : Cert.Pre_KernelIdeal m) (c : Dev nD) (i : Cert.Spec.SA2.Idx) : ∃ x : ℝ, a2 m c i = (x : EReal) := by
  exact (pre_parts m hpre c).1.2.1 i
theorem a3_real (hpre : Cert.Pre_KernelIdeal m) (c : Dev nD) (i : Cert.Spec.SA3.Idx) : ∃ x : ℝ, a3 m c i = (x : EReal) := by
  exact (pre_parts m hpre c).1.2.2 i

end Cert.KernelIdeal.Val

end
-- ==== Proof.Bridge.lean ====
/-
  The kernel's result array is the specification's result of the four argument arrays, under the precondition.

  Entry (r, k) after the second launch is the softmax weight of edge r, taken with the maximum M and the normaliser Z it
  reads from the first launch's two outputs, times entry k of edge r's embedding. The first launch reads the gathered
  tables, the weight row and the bias and writes only its two outputs, so the second launch finds those four as the host
  operations left them; under the precondition they are the node table's rows at the index words, and real numbers, so
  every score is real and the first launch's outputs are the maximum of all scores and the normaliser against it. That is
  the specification's result.
-/
import proofs.«431320_j34256659153219_3_alg».proof.Proof.Run
import proofs.«431320_j34256659153219_3_alg».proof.Proof.Reg0Val
import proofs.«431320_j34256659153219_3_alg».proof.Proof.Reg1Val
import proofs.«431320_j34256659153219_3_alg».proof.Proof.HostVal
import proofs.«431320_j34256659153219_3_alg».proof.Proof.Online
import proofs.«431320_j34256659153219_3_alg».proof.Defs

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ)

/-! ## What the first launch leaves in the arrays the second reads -/

/-- The four arrays the first launch only reads are as the host operations left them. -/
theorem VB_main_v4 (c : Dev nD) : VB m c main_v4 = VA m c main_v4 :=
  (W5_arr m c 0).trans (((dat0 (VA m) c).arrAt_in 0 rfl _).trans (A_eq0 (VA m) c 0))
theorem VB_main_v5 (c : Dev nD) : VB m c main_v5 = VA m c main_v5 :=
  (W5_arr m c 1).trans (((dat0 (VA m) c).arrAt_in 1 rfl _).trans (A_eq0 (VA m) c 1))
theorem VB_main_arg2 (c : Dev nD) : VB m c main_arg2 = VA m c main_arg2 :=
  (W5_arr m c 2).trans (((dat0 (VA m) c).arrAt_in 2 rfl _).trans (A_eq0 (VA m) c 2))
theorem VB_main_v6 (c : Dev nD) : VB m c main_v6 = VA m c main_v6 :=
  (W5_arr m c 3).trans (((dat0 (VA m) c).arrAt_in 3 rfl _).trans (A_eq0 (VA m) c 3))
/-- Its two outputs are what its write-backs leave. -/
theorem VB_main_v7_0 (c : Dev nD) : VB m c main_v7_0 = (dat0 (VA m) c).arrAt 4 cfg0.N := W5_arr m c 4
theorem VB_main_v7_1 (c : Dev nD) : VB m c main_v7_1 = (dat0 (VA m) c).arrAt 5 cfg0.N := W5_arr m c 5

theorem srcV_VB (c : Dev nD) : srcV (VB m) c = srcV (VA m) c := by unfold srcV; rw [VB_main_v4 m c]
theorem tgtV_VB (c : Dev nD) : tgtV (VB m) c = tgtV (VA m) c := by unfold tgtV; rw [VB_main_v5 m c]
theorem wV_VB (c : Dev nD) : wV (VB m) c = wV (VA m) c := by unfold wV; rw [VB_main_arg2 m c]
theorem bV_VB (c : Dev nD) : bV (VB m) c = bV (VA m) c := by unfold bV; rw [VB_main_v6 m c]

/-! ## The result -/

/-- Every entry of the kernel's result array. -/
theorem kernel_value (hpre : Cert.Pre_KernelIdeal m) (c : Dev nD) (r : Fin 1600000) (k : Fin 128) :
    ((dat1 (VB m) c).arrAt 6 cfg1.N : S1600000x128.Idx → EReal) (ix2 r k)
      = Cert.Spec.result (a0 m c) (a1 m c) (a2 m c) (a3 m c) r k := by
  -- the four quantities, as the host operations leave them
  have es : srcV (VA m) c = Cert.Spec.gathered (Cert.Spec.tab (a0 m c)) (Cert.Spec.idxOf (a1 m c)) 0 := srcV_eq m hpre c
  have et : tgtV (VA m) c = Cert.Spec.gathered (Cert.Spec.tab (a0 m c)) (Cert.Spec.idxOf (a1 m c)) 1 := tgtV_eq m hpre c
  have ew : wV (VA m) c = Cert.Spec.wOf (a2 m c) := wV_eq m c
  have eb : bV (VA m) c = Cert.Spec.bOf (a3 m c) := bV_eq m c
  -- they are real numbers, so every score is
  have hs : ∀ r k, ∃ x : ℝ, Cert.Spec.gathered (Cert.Spec.tab (a0 m c)) (Cert.Spec.idxOf (a1 m c)) 0 r k = (x : EReal) := by
    intro r k; unfold Cert.Spec.gathered Cert.Spec.tab; exact a0_real m hpre c _
  have ht : ∀ r k, ∃ x : ℝ, Cert.Spec.gathered (Cert.Spec.tab (a0 m c)) (Cert.Spec.idxOf (a1 m c)) 1 r k = (x : EReal) := by
    intro r k; unfold Cert.Spec.gathered Cert.Spec.tab; exact a0_real m hpre c _
  have hw : ∀ k, ∃ x : ℝ, Cert.Spec.wOf (a2 m c) k = (x : EReal) := by
    intro k; unfold Cert.Spec.wOf; exact a2_real m hpre c _
  have hb : ∃ x : ℝ, Cert.Spec.bOf (a3 m c) = (x : EReal) := by
    unfold Cert.Spec.bOf; exact a3_real m hpre c _
  obtain ⟨g, hg⟩ := Cert.Spec.score_real _ _ _ _ hs ht hw hb
  have hscore : scoreV (VA m) c = Cert.Spec.score (Cert.Spec.gathered (Cert.Spec.tab (a0 m c)) (Cert.Spec.idxOf (a1 m c)) 0)
      (Cert.Spec.gathered (Cert.Spec.tab (a0 m c)) (Cert.Spec.idxOf (a1 m c)) 1) (Cert.Spec.wOf (a2 m c)) (Cert.Spec.bOf (a3 m c)) := by
    unfold scoreV; rw [es, et, ew, eb]
  -- the first launch's two outputs
  obtain ⟨hM, hZ⟩ := stats0 (VA m) c g (fun r => by rw [hscore]; exact hg r)
  have hM' : (VB m c main_v7_0 : S1x1.Idx → EReal) (ix2 0 0) = Cert.Spec.gmax (scoreV (VA m) c) := by
    rw [VB_main_v7_0 m c]; exact hM
  have hZ' : (VB m c main_v7_1 : S1x1.Idx → EReal) (ix2 0 0)
      = Cert.Spec.gsum (scoreV (VA m) c) (Cert.Spec.gmax (scoreV (VA m) c)) := by
    rw [VB_main_v7_1 m c]; exact hZ
  -- the second launch's entries
  rw [out1_apply (VB m) c _ _ hM' hZ' r k, srcV_VB, tgtV_VB, wV_VB, bV_VB, hscore, es, et, ew, eb]
  rfl

end Cert.KernelIdeal.Val

end
-- ==== Proof.RefVal.lean ====
/-
  The reference's result array, entry by entry: at (r, k) it is the specification's result of the four argument arrays.
  The reference gathers the source and target rows (index words wrapped once when negative, then clamped by the gather),
  concatenates them, takes each edge's score as a contraction against the transposed weight row plus the bias, takes the
  maximum of all scores (a max-reduce from −∞, then a max against −∞ again), exponentiates the shifted scores, sums them
  from 0, divides, and scales each edge's embedding row by its weight.
-/
import proofs.«431320_j34256659153219_3_alg».proof.Proof.Gen.ReferenceIdeal.Run
import proofs.«431320_j34256659153219_3_alg».proof.Proof.Gen.ReferenceIdeal.Read
import proofs.«431320_j34256659153219_3_alg».proof.Proof.Spec
import proofs.«431320_j34256659153219_3_alg».proof.Proof.LibRowGather
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.RefValue

open Cert.ReferenceIdeal Cert.ReferenceIdeal.Gen
open Idealize.ShloMosaic Idealize.ShloMosaic.TcCoe Idealize.ShloMosaic.ValueIdx
open Idealize.SL Idealize.SL.Sem

open Cert.ReferenceIdeal.Read

variable (x0 : (⟨S100000x64, .f32⟩ : BufTy).Contents (Elt Ideal)) (x1 : (⟨S2x1600000, .i32⟩ : BufTy).Contents (Elt Ideal))
  (x2 : (⟨S1x128, .f32⟩ : BufTy).Contents (Elt Ideal)) (x3 : (⟨S1, .f32⟩ : BufTy).Contents (Elt Ideal))

/-! ## The index words: one wrap when negative -/

/-- Select-on-signed-less-than-zero of (v + 100000) against v is the once-wrapped word. -/
theorem wrap_eq (v : BitVec 32) :
    Scalar.select (IntOp.cmpi .slt v 0#32) (IntOp.addi v 100000#32) v = Cert.Spec.wrapIdx v := by
  unfold Scalar.select IntOp.cmpi IntOp.addi Cert.Spec.wrapIdx
  by_cases h : v.slt 0#32 = true
  · simp [h]
  · simp [h]

/-- The source words: row 0 of the index array, wrapped. -/
theorem v6_apply (r : Fin 1600000) :
    val_main_v6 (F := Ideal) x1 (ix1 r) = Cert.Spec.wrapIdx (x1 (ix2 0 r)) := by
  have e : idx_main_v0 (idx_main_v1 (ix1 r)) = ix2 0 r := funext fun a => Fin.ext (by
    match a with
    | ⟨0, _⟩ => rfl
    | ⟨1, _⟩ => exact Nat.mod_eq_of_lt r.isLt)
  rw [val_main_v6_apply, val_main_v3_apply, val_main_v5_apply, val_main_v1_apply, val_main_v0_apply, val_main_v2_apply,
    val_main_c_apply, val_main_v4_apply, val_main_c_0_apply, e]
  exact wrap_eq _

/-- The target words: row 1 of the index array, wrapped. -/
theorem v15_apply (r : Fin 1600000) :
    val_main_v15 (F := Ideal) x1 (ix1 r) = Cert.Spec.wrapIdx (x1 (ix2 1 r)) := by
  have e : idx_main_v9 (idx_main_v10 (ix1 r)) = ix2 1 r := funext fun a => Fin.ext (by
    match a with
    | ⟨0, _⟩ => rfl
    | ⟨1, _⟩ => exact Nat.mod_eq_of_lt r.isLt)
  rw [val_main_v15_apply, val_main_v12_apply, val_main_v14_apply, val_main_v10_apply, val_main_v9_apply, val_main_v11_apply,
    val_main_c_1_apply, val_main_v13_apply, val_main_c_2_apply, e]
  exact wrap_eq _

theorem v7_apply (r : Fin 1600000) :
    val_main_v7 (F := Ideal) x1 (ix2 r (0 : Fin 1)) = Cert.Spec.wrapIdx (x1 (ix2 0 r)) := by
  have e : idx_main_v7 (ix2 r (0 : Fin 1)) = ix1 r := funext fun a => Fin.ext (by
    match a with
    | ⟨0, _⟩ => rfl)
  rw [val_main_v7_apply, e, v6_apply]

theorem v16_apply (r : Fin 1600000) :
    val_main_v16 (F := Ideal) x1 (ix2 r (0 : Fin 1)) = Cert.Spec.wrapIdx (x1 (ix2 1 r)) := by
  have e : idx_main_v16 (ix2 r (0 : Fin 1)) = ix1 r := funext fun a => Fin.ext (by
    match a with
    | ⟨0, _⟩ => rfl)
  rw [val_main_v16_apply, e, v15_apply]

/-! ## The gathered rows and their concatenation -/

theorem v8_apply (r : Fin 1600000) (k : Fin 64) :
    val_main_v8 (F := Ideal) x0 x1 (ix2 r k)
      = Cert.Spec.gathered (Cert.Spec.tab x0) (Cert.Spec.idxOf x1) 0 r k := by
  unfold val_main_v8
  refine (Cert.LibRowGather.gather_rows_apply (N := 100000) (D := 64) (M := 1600000) (by decide)
    gather_S100000x64_S1600000x1_S1600000x64_1_0_n_n_0_1_164_wf x0 (val_main_v7 (F := Ideal) x1) r k).trans ?_
  show x0 (ix2 _ k) = x0 (ix2 (Cert.Spec.rowOf (x1 (ix2 0 r))) k)
  refine congrArg (fun i : Fin 100000 => x0 (ix2 i k)) (Fin.ext ?_)
  show min (BitVec.toInt (val_main_v7 (F := Ideal) x1 (ix2 r (0 : Fin 1)))).toNat 99999
    = min (BitVec.toInt (Cert.Spec.wrapIdx (x1 (ix2 0 r)))).toNat 99999
  rw [v7_apply]

theorem v17_apply (r : Fin 1600000) (k : Fin 64) :
    val_main_v17 (F := Ideal) x0 x1 (ix2 r k)
      = Cert.Spec.gathered (Cert.Spec.tab x0) (Cert.Spec.idxOf x1) 1 r k := by
  unfold val_main_v17
  refine (Cert.LibRowGather.gather_rows_apply (N := 100000) (D := 64) (M := 1600000) (by decide)
    gather_S100000x64_S1600000x1_S1600000x64_1_0_n_n_0_1_164_wf x0 (val_main_v16 (F := Ideal) x1) r k).trans ?_
  show x0 (ix2 _ k) = x0 (ix2 (Cert.Spec.rowOf (x1 (ix2 1 r))) k)
  refine congrArg (fun i : Fin 100000 => x0 (ix2 i k)) (Fin.ext ?_)
  show min (BitVec.toInt (val_main_v16 (F := Ideal) x1 (ix2 r (0 : Fin 1)))).toNat 99999
    = min (BitVec.toInt (Cert.Spec.wrapIdx (x1 (ix2 1 r)))).toNat 99999
  rw [v16_apply]

/-- The embedding: the source row on columns 0–63, the target row on columns 64–127. -/
theorem v18_apply (r : Fin 1600000) (k : Fin 128) :
    val_main_v18 (F := Ideal) x0 x1 (ix2 r k)
      = Cert.Spec.emb (Cert.Spec.gathered (Cert.Spec.tab x0) (Cert.Spec.idxOf x1) 0)
          (Cert.Spec.gathered (Cert.Spec.tab x0) (Cert.Spec.idxOf x1) 1) r k := by
  unfold val_main_v18 Cert.Spec.emb
  by_cases h : k.val < 64
  · rw [dif_pos h, concatenate_pair_apply_left (s₁ := S1600000x64) (s₂ := S1600000x64) 1 _ _ _ (ix2 r k) rfl (ix2 r (⟨k.val, h⟩ : Fin 64))
      (fun b => by match b with | ⟨0, _⟩ => rfl | ⟨1, _⟩ => rfl)]
    exact v8_apply x0 x1 r _
  · rw [dif_neg h, concatenate_pair_apply_right (s₁ := S1600000x64) (s₂ := S1600000x64) 1 _ _ _ (ix2 r k) rfl rfl (ix2 r (⟨k.val - 64, by omega⟩ : Fin 64))
      (fun b => by
        match b with
        | ⟨0, _⟩ => exact fun _ => rfl
        | ⟨1, _⟩ => exact fun hb => absurd rfl hb)
      (by show (k.val - 64) + 64 = k.val; omega)]
    exact v17_apply x0 x1 r _

/-! ## The scores -/

/-- Each edge's score: the contraction of its embedding against the weight row, plus the bias. -/
theorem v23_apply (r : Fin 1600000) :
    val_main_v23 (F := Ideal) x0 x1 x2 x3 (ix2 r (0 : Fin 1))
      = Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3) r := by
  have eb : idx_main_v21 (idx_main_v22 (ix2 r (0 : Fin 1))) = ix1 0 := funext fun a => Fin.ext (by
    match a with
    | ⟨0, _⟩ => rfl)
  rw [val_main_v23_apply, val_main_v20_apply, val_main_v22_apply, val_main_v21_apply, eb, Ideal.addf_def]
  unfold Cert.Spec.score Cert.Spec.bOf
  congr 1
  refine Finset.sum_congr rfl fun k _ => ?_
  have el : lidx_main_v20 (ix2 r (0 : Fin 1)) k = ix2 r k := funext fun a => Fin.ext (by
    match a with
    | ⟨0, _⟩ => rfl
    | ⟨1, _⟩ => rfl)
  have er : idx_main_v19 (ridx_main_v20 (ix2 r (0 : Fin 1)) k) = ix2 0 k := funext fun a => Fin.ext (by
    match a with
    | ⟨0, _⟩ => rfl
    | ⟨1, _⟩ => rfl)
  rw [el, v18_apply, val_main_v19_apply, er]
  rfl

/-! ## The maximum, the normaliser, the result -/

/-- The reduced index 0 with row k put back on the dropped axis is (k, 0); for a column of any height. -/
theorem lift_col {n : Nat} (h : (⟨2, ![n, 1]⟩ : Shape).Reduces [0] (⟨1, ![1]⟩ : Shape)) (k : Fin n) :
    h.lift (ix1 (0 : Fin 1)) k = ix2 k (0 : Fin 1) := by
  funext a; apply Fin.ext
  match a with
  | ⟨0, _⟩ => rfl
  | ⟨1, _⟩ => rfl

/-- A max-reduce of a column of any height over its rows is the fold of max, from the initial value, over the rows. -/
theorem reduce_max_col {n : Nat} (x : (⟨2, ![n, 1]⟩ : Shape).Idx → EReal) (init : (⟨0, ![]⟩ : Shape).Idx → EReal)
    (h' : (⟨2, ![n, 1]⟩ : Shape).ReducesTo [0] (⟨1, ![1]⟩ : Shape))
    (h : (⟨2, ![n, 1]⟩ : Shape).Reduces [0] (⟨1, ![1]⟩ : Shape)) (hu : 0 < (⟨0, ![]⟩ : Shape).numel) :
    Host.reduce (FloatOps.maximumf (F := Ideal) (φ := .f32)) x init h' hu (ix1 (0 : Fin 1))
      = (Finset.univ : Finset (Fin n)).fold max (init (Shape.Idx.first hu)) (fun k => x (ix2 k (0 : Fin 1))) := by
  rw [Host.reduce_eq_fold_single (FloatOps.maximumf (F := Ideal) (φ := .f32)) x init h' h hu]
  exact Finset.fold_congr (fun k _ => congrArg x (lift_col h k))

/-- The f32 word 0xFF800000 is −∞. -/
theorem negInf_eq : Ideal.ofBits .f32 0xFF800000#32 = (⊥ : EReal) := by simp [Ideal.ofBits, Ideal.ieee]

/-- The max-reduce from −∞ over all edges is the fold of max from −∞ over the scores. -/
theorem v24_apply :
    val_main_v24 (F := Ideal) x0 x1 x2 x3 (ix1 (0 : Fin 1))
      = Cert.Spec.gmax (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3)) := by
  unfold val_main_v24
  rw [reduce_max_col (n := 1600000) _ _ reducesTo_S1600000x1_S1_d0 (by decide) h_S_, val_main_cst_apply, Ideal.ofBits_def,
    negInf_eq]
  unfold Cert.Spec.gmax
  exact Finset.fold_congr fun k _ => v23_apply x0 x1 x2 x3 k

/-- A further max against −∞ changes nothing. -/
theorem v26_apply :
    val_main_v26 (F := Ideal) x0 x1 x2 x3 (ix1 (0 : Fin 1))
      = Cert.Spec.gmax (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3)) := by
  rw [val_main_v26_apply, val_main_v25_apply, val_main_cst_3_apply, v24_apply, Ideal.maximumf_def, Ideal.ofBits_def, negInf_eq]
  exact max_eq_right bot_le

theorem v28_apply (r : Fin 1600000) :
    val_main_v28 (F := Ideal) x0 x1 x2 x3 (ix2 r (0 : Fin 1))
      = Cert.Spec.gmax (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3)) := by
  have e : idx_main_v27 (idx_main_v28 (ix2 r (0 : Fin 1))) = ix1 (0 : Fin 1) := funext fun a => Fin.ext (by
    match a with
    | ⟨0, _⟩ => rfl)
  rw [val_main_v28_apply, val_main_v27_apply, e, v26_apply]

/-- The exponential of each shifted score. -/
theorem v30_apply (r : Fin 1600000) :
    val_main_v30 (F := Ideal) x0 x1 x2 x3 (ix2 r (0 : Fin 1))
      = Ideal.exp (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3) r
        - Cert.Spec.gmax (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3))) := by
  rw [val_main_v30_apply, val_main_v29_apply, v23_apply, v28_apply, Ideal.hostUnary_exp_def, Ideal.subf_def]

/-- The sum from 0 of the exponentials is the normaliser. -/
theorem v31_apply :
    val_main_v31 (F := Ideal) x0 x1 x2 x3 (ix1 (0 : Fin 1))
      = Cert.Spec.gsum (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3))
        (Cert.Spec.gmax (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3))) := by
  rw [val_main_v31_apply, val_main_cst_4_apply, Ideal.ofBits_def, Ideal.ofBits_zero_f32, zero_add]
  unfold Cert.Spec.gsum
  refine Finset.sum_congr rfl fun k _ => ?_
  have e : idx_main_v31 (ix1 (0 : Fin 1)) k = ix2 k (0 : Fin 1) := funext fun a => Fin.ext (by
    match a with
    | ⟨0, _⟩ => rfl
    | ⟨1, _⟩ => rfl)
  rw [e, v30_apply]

theorem v33_apply (r : Fin 1600000) :
    val_main_v33 (F := Ideal) x0 x1 x2 x3 (ix2 r (0 : Fin 1))
      = Cert.Spec.gsum (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3))
        (Cert.Spec.gmax (Cert.Spec.score (Cert.Spec.gathered (Cert.Spec.tab x0) (Cert.Spec.idxOf x1) 0)
          (Cert.Spec.gathered (Cert.Spec.tab x0) (Cert.Spec.idxOf x1) 1) (Cert.Spec.wOf x2) (Cert.Spec.bOf x3))) := by
  have e : idx_main_v32 (idx_main_v33 (ix2 r (0 : Fin 1))) = ix1 (0 : Fin 1) := funext fun a => Fin.ext (by
    match a with
    | ⟨0, _⟩ => rfl)
  rw [val_main_v33_apply, val_main_v32_apply, e, v31_apply]

/-- The last stage: each edge's softmax weight over the 128 columns, times its embedding. -/
theorem v36_apply (r : Fin 1600000) (k : Fin 128) :
    val_main_v36 (F := Ideal) x0 x1 x2 x3 (ix2 r k) = Cert.Spec.result x0 x1 x2 x3 r k := by
  have e : idx_main_v35 (ix2 r k) = ix2 r (0 : Fin 1) := funext fun a => Fin.ext (by
    match a with
    | ⟨0, _⟩ => rfl
    | ⟨1, _⟩ => rfl)
  rw [val_main_v36_apply, val_main_v35_apply, e, val_main_v34_apply, v30_apply, v33_apply, v18_apply, Ideal.mulf_def,
    Ideal.hostDivf_def]
  rfl

/-- Every entry of the reference's result. -/
theorem result_apply (m : (ℓ : Loc nD τ sig) → Buf (Elt Ideal) ℓ) (c : Dev nD) (r : Fin 1600000) (k : Fin 128) :
    (Cert.ReferenceIdeal.Value.res_out0 (F := Ideal) m c : S1600000x128.Idx → EReal) (ix2 r k)
      = Cert.Spec.result (m ((c.tc : Thread nD τ).loc main_arg0)) (m ((c.tc : Thread nD τ).loc main_arg1))
          (m ((c.tc : Thread nD τ).loc main_arg2)) (m ((c.tc : Thread nD τ).loc main_arg3)) r k := by
  show (Cert.ReferenceIdeal.Value.res_main_v36 (F := Ideal) m c : S1600000x128.Idx → EReal) (ix2 r k) = _
  rw [val_main_v36_eq]
  exact v36_apply _ _ _ _ r k

end Cert.ReferenceIdeal.RefValue

end
-- ==== Proof.lean ====
/-
  The five claims for a kernel that scales each edge's embedding row [src | tgt] by the edge's weight in a softmax taken
  over ALL edges, against the plain jnp reference, on the extended reals.

  The kernel gathers the two row tables on the host, then runs two launches: the first folds the maximum M of all scores
  and the normaliser Z = Σ exp (s − M) a block at a time (80 blocks, a running pair rescaled whenever the maximum grows),
  the second recomputes each score and writes (exp (s − M) / Z) · [src | tgt]. The reference computes M and Z in one pass.
  The two agree because the block-at-a-time pair ends at (M, Z) when every score is a real number: exp (s − μ) · exp (μ − μ')
  = exp (s − μ'), and from the start (−∞, 0) the first rescaling is by exp (−∞) = 0.

  The precondition says every float input is finite and every index word lies in [−100000, 100000): outside that range
  the reference's own row lookup is out of range (it clamps the row), while the kernel's gather fills such a row with a
  not-a-number pattern; inside it the two gathers are the same rows.

  Frames: both kernel programs run to the end, fault nowhere and leave the arguments unchanged (one run per program, whose
  post also names the result array); the reference's frame is its run with the result dropped. The idealization rewrote
  nothing, so the preservation claim is trivial.
-/
import proofs.«431320_j34256659153219_3_alg».proof.Defs
import proofs.«431320_j34256659153219_3_alg».proof.Proof.Gen.Kernel
import proofs.«431320_j34256659153219_3_alg».proof.Proof.Gen.KernelIdeal
import proofs.«431320_j34256659153219_3_alg».proof.Proof.Gen.ReferenceIdeal
import proofs.«431320_j34256659153219_3_alg».proof.Proof.Gen.Pre_finite_inputs
import proofs.«431320_j34256659153219_3_alg».proof.Proof.KRun
import proofs.«431320_j34256659153219_3_alg».proof.Proof.Run
import proofs.«431320_j34256659153219_3_alg».proof.Proof.Bridge
import proofs.«431320_j34256659153219_3_alg».proof.Proof.RefVal
import proofs.«431320_j34256659153219_3_alg».proof.Proof.Gen.ReferenceIdeal.Run
import Idealize.ShloMosaic.Adequacy
import Idealize.ShloMosaic.Init

noncomputable section

namespace Cert.Proof

open Idealize.ShloMosaic Idealize.ShloMosaic.ValueIdx Idealize.SL.Sem

/-- The word-level kernel runs and leaves its arguments unchanged. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- And the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's result of the (agreeing) argument arrays in their result arrays. -/
theorem algebraic : Cert.algebraic_KernelIdeal_ReferenceIdeal := by
  intro m ρ m' ρ' hpre hagree
  refine ⟨fun c => (Cert.KernelIdeal.Hand.dat1 (Cert.KernelIdeal.Hand.VB m) c).arrAt 6 Cert.KernelIdeal.cfg1.N,
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨r, k, rfl⟩ : ∃ (r : Fin 1600000) (k : Fin 128), i = ix2 r k := ⟨i 0, i 1, eq_ix2 i⟩
  refine (Cert.ReferenceIdeal.RefValue.result_apply m' c r k).trans ?_
  rw [(hagree c).1, (hagree c).2.1, (hagree c).2.2.1, (hagree c).2.2.2]
  exact (Cert.KernelIdeal.Val.kernel_value m hpre c r k).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
